-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S1x2048 : S_.BroadcastsInDim S1x2048 (![] : Fin 0 → Fin S1x2048.rank)
  reducesTo_S1x2048_S_d0_1 : S1x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048x2048 .f32) (main_arg12 : FVec F S2048x2048 .f32) (main_arg13 : FVec F S2048x2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_v63 main_v67

def fn_part2 {F : FTy → Type} [FloatOps F] (main_arg7 : FVec F S1x2048 .f32) (main_arg8 : FVec F S1x2048 .f32) (main_arg9 : FVec F S1x2048 .f32) (main_arg10 : FVec F S2048x2048 .f32) (main_arg11 : FVec F S2048x2048 .f32) (main_arg12 : FVec F S2048x2048 .f32) (main_arg13 : FVec F S2048x2048 .f32) (main_v33 : IVec S_ 1) : IVec S_ 1 :=
  let main_v34 : FVec F S1x2048 .f32 := Host.absf main_arg7
  let main_cst_12 : FVec F S_ .f32 := constant S_ .f32 0x7F800000#32
  let main_v35 : FVec F S1x2048 .f32 := broadcastInDim S1x2048 ![] bcast_S_S1x2048 main_cst_12
  let main_v36 : IVec S1x2048 1 := cmpf .olt main_v34 main_v35
  let main_c_13 : IVec S_ 1 := constantI S_ 1 1#1
  let main_v37 : IVec S_ 1 := (fun x v => Host.reduce IntOp.andi x v reducesTo_S1x2048_S_d0_1 h_S_) main_v36 main_c_13
  let main_v38 : IVec S_ 1 := andi main_v33 main_v37
  let main_v39 : FVec F S1x2048 .f32 := Host.absf main_arg8
  let main_cst_14 : FVec F S_ .f32 := constant S_ .f32 0x7F800000#32
  let main_v40 : FVec F S1x2048 .f32 := broadcastInDim S1x2048 ![] bcast_S_S1x2048 main_cst_14
  let main_v41 : IVec S1x2048 1 := cmpf .olt main_v39 main_v40
  let main_c_15 : IVec S_ 1 := constantI S_ 1 1#1
  let main_v42 : IVec S_ 1 := (fun x v => Host.reduce IntOp.andi x v reducesTo_S1x2048_S_d0_1 h_S_) main_v41 main_c_15
  let main_v43 : IVec S_ 1 := andi main_v38 main_v42
  let main_v44 : FVec F S1x2048 .f32 := Host.absf main_arg9
  let main_cst_16 : FVec F S_ .f32 := constant S_ .f32 0x7F800000#32
  let main_v45 : FVec F S1x2048 .f32 := broadcastInDim S1x2048 ![] bcast_S_S1x2048 main_cst_16
  let main_v46 : IVec S1x2048 1 := cmpf .olt main_v44 main_v45
  let main_c_17 : IVec S_ 1 := constantI S_ 1 1#1
  let main_v47 : IVec S_ 1 := (fun x v => Host.reduce IntOp.andi x v reducesTo_S1x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_v48 main_v49 main_v50

def fn_part1 {F : FTy → Type} [FloatOps F] (main_arg4 : FVec F S8192x2048 .f32) (main_arg5 : FVec F S2048 .f32) (main_arg6 : FVec F S2048 .f32) (main_arg7 : FVec F S1x2048 .f32) (main_arg8 : FVec F S1x2048 .f32) (main_arg9 : FVec F S1x2048 .f32) (main_arg10 : FVec F S2048x2048 .f32) (main_arg11 : FVec F S2048x2048 .f32) (main_arg12 : FVec F S2048x2048 .f32) (main_arg13 : FVec F S2048x2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S8192x2048 .f32) (main_arg5 : FVec F S2048 .f32) (main_arg6 : FVec F S2048 .f32) (main_arg7 : FVec F S1x2048 .f32) (main_arg8 : FVec F S1x2048 .f32) (main_arg9 : FVec F S1x2048 .f32) (main_arg10 : FVec F S2048x2048 .f32) (main_arg11 : FVec F S2048x2048 .f32) (main_arg12 : FVec F S2048x2048 .f32) (main_arg13 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x2048 : Shape := ⟨2, ![8192, 2048]⟩
abbrev S2048 : Shape := ⟨1, ![2048]⟩
abbrev S1x2048 : Shape := ⟨2, ![1, 2048]⟩
abbrev S2048x2048 : Shape := ⟨2, ![2048, 2048]⟩
abbrev S128x2048 : Shape := ⟨2, ![128, 2048]⟩
abbrev S128x256 : Shape := ⟨2, ![128, 256]⟩
abbrev S1x256 : Shape := ⟨2, ![1, 256]⟩
abbrev S2048x256 : Shape := ⟨2, ![2048, 256]⟩
abbrev S256x2048 : Shape := ⟨2, ![256, 2048]⟩

abbrev nBuf : Space → Nat
  | .hbm => 29
  | .vmem => 36
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S1x2048, .f32⟩
  | .hbm, ⟨15, _⟩ => ⟨S1x2048, .f32⟩
  | .hbm, ⟨16, _⟩ => ⟨S2048x2048, .f32⟩
  | .hbm, ⟨17, _⟩ => ⟨S2048x2048, .bf16⟩
  | .hbm, ⟨18, _⟩ => ⟨S2048x2048, .f32⟩
  | .hbm, ⟨19, _⟩ => ⟨S2048x2048, .bf16⟩
  | .hbm, ⟨20, _⟩ => ⟨S2048x2048, .f32⟩
  | .hbm, ⟨21, _⟩ => ⟨S2048x2048, .bf16⟩
  | .hbm, ⟨22, _⟩ => ⟨S2048x2048, .f32⟩
  | .hbm, ⟨23, _⟩ => ⟨S2048x2048, .bf16⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S256x2048, .bf16⟩
  | .local _ .vmem, ⟨24, _⟩ => ⟨S256x2048, .bf16⟩
  | .local _ .vmem, ⟨25, _⟩ => ⟨S128x2048, .f32⟩
  | .local _ .vmem, ⟨26, _⟩ => ⟨S128x2048, .f32⟩
  | .local _ .vmem, ⟨27, _⟩ => ⟨S128x256, .f32⟩
  | .local _ .vmem, ⟨28, _⟩ => ⟨S128x256, .f32⟩
  | .local _ .vmem, ⟨29, _⟩ => ⟨S128x256, .f32⟩
  | .local _ .vmem, ⟨30, _⟩ => ⟨S128x256, .f32⟩
  | .local _ .vmem, ⟨31, _⟩ => ⟨S128x256, .f32⟩
  | .local _ .vmem, ⟨32, _⟩ => ⟨S128x256, .f32⟩
  | .local _ .vmem, ⟨33, _⟩ => ⟨S128x2048, .f32⟩
  | .local _ .vmem, ⟨34, _⟩ => ⟨S128x2048, .f32⟩
  | .local _ .vmem, ⟨35, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v10_3 : Ref sig .tc := ⟨.hbm, 27, rfl⟩
abbrev main_v10_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v97 : BitVec 1 := Scalar.cmpi .eq arg1 c7_i32
  let v98 : BitVec 32 := Scalar.extui v97
  let c0_i32_49 : BitVec 32 := 0#32
  let v99 : BitVec 1 := Scalar.cmpi .ne v98 c0_i32_49
  v99

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S128x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

class Facts₀ : Prop where
  shapeCasts_S2048_S1x2048 : S2048.ShapeCasts S1x2048
  transposes_S2048x2048_S2048x2048_1_0 : S2048x2048.Transposes [1, 0] S2048x2048
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x2048_S1x2048_0_0 : ∀ a, (![0, 0] : Fin 2 → Nat) a + S1x2048.size a ≤ S1x2048.size a
  h_S1x2048 : 0 < S1x2048.numel
  broadcasts_S1x2048_S128x2048 : S1x2048.Broadcasts S128x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S128x256_S128x256_0_0 : ∀ a, (![0, 0] : Fin 2 → Nat) a + S128x256.size a ≤ S128x256.size a
  h_S128x256 : 0 < S128x256.numel
  broadcasts_S1x256_S128x256 : S1x256.Broadcasts S128x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  dot_S128x2048_S2048x256_S128x256_1_0_0_1_n_n_wf : DotDims.WF S128x2048 S2048x256 S128x256 [1] [0] [0] [1] [] []
  dot_S128x256_S256x2048_S128x2048_1_0_0_1_n_n_wf : DotDims.WF S128x256 S256x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S8192x2048.size a
  hwx0_2 : ∀ i : grid0.Coords, EltTy.bits .f32 = 32 ∨ (Rect.block (s := S8192x2048) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S8192x2048.size a
  hwx0_3 : ∀ i : grid0.Coords, EltTy.bits .f32 = 32 ∨ (Rect.block (s := S8192x2048) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S8192x2048.size a
  hwx0_4 : ∀ i : grid0.Coords, EltTy.bits .f32 = 32 ∨ (Rect.block (s := S8192x2048) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x2048.size a
  hwx0_9 : ∀ i : grid0.Coords, EltTy.bits .f32 = 32 ∨ (Rect.block (s := S1x2048) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S2048x2048.size a
  hwx0_10 : ∀ i : grid0.Coords, EltTy.bits .bf16 = 32 ∨ (Rect.block (s := S2048x2048) S2048x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x256.size a ≤ S2048x2048.size a
  hwx0_11 : ∀ i : grid0.Coords, EltTy.bits .bf16 = 32 ∨ (Rect.block (s := S2048x2048) S2048x256.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x256.size a ≤ S2048x2048.size a
  hwx0_12 : ∀ i : grid0.Coords, EltTy.bits .bf16 = 32 ∨ (Rect.block (s := S2048x2048) S2048x256.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x2048.size a ≤ S2048x2048.size a
  hwx0_13 : ∀ i : grid0.Coords, EltTy.bits .bf16 = 32 ∨ (Rect.block (s := S2048x2048) S256x2048.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x2048.size a ≤ S8192x2048.size a
  hwx0_14 : ∀ i : grid0.Coords, EltTy.bits .f32 = 32 ∨ (Rect.block (s := S8192x2048) S128x2048.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x256.size a ≤ S8192x2048.size a
  hwx0_15 : ∀ i : grid0.Coords, EltTy.bits .f32 = 32 ∨ (Rect.block (s := S8192x2048) S128x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x256.size a ≤ S8192x2048.size a
  hwx0_16 : ∀ i : grid0.Coords, EltTy.bits .f32 = 32 ∨ (Rect.block (s := S8192x2048) S128x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128x256.size a ≤ S8192x2048.size a
  hwx0_17 : ∀ i : grid0.Coords, EltTy.bits .f32 = 32 ∨ (Rect.block (s := S8192x2048) S128x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S128x2048.size a ≤ S8192x2048.size a
  hwx0_18 : ∀ i : grid0.Coords, EltTy.bits .f32 = 32 ∨ (Rect.block (s := S8192x2048) S128x2048.size (cc0_transform_18 i) (hinb0_18 i)).WholeWords (EltTy.packing .f32)

variable [Facts₀]

def dot_S128x2048_S2048x256_S128x256_1_0_0_1_n_n : DotDims S128x2048 S2048x256 S128x256 where
  lhsContracting := [1]
  rhsContracting := [0]
  lhsNonContracting := [0]
  rhsNonContracting := [1]
  lhsBatch := []
  rhsBatch := []
  wf := dot_S128x2048_S2048x256_S128x256_1_0_0_1_n_n_wf
def dot_S128x256_S256x2048_S128x2048_1_0_0_1_n_n : DotDims S128x256 S256x2048 S128x2048 where
  lhsContracting := [1]
  rhsContracting := [0]
  lhsNonContracting := [0]
  rhsNonContracting := [1]
  lhsBatch := []
  rhsBatch := []
  wf := dot_S128x256_S256x2048_S128x2048_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3) S2048x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5) S2048x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v7) S2048x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v9) S256x2048.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v10_0) S128x2048.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v10_1) S128x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v10_2) S128x256.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v10_3) S128x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v10_4) S128x2048.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev idle0 : Fin 19 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond2 i == 1#1) | 15 => fun _ => false | 16 => fun _ => false | 17 => fun _ => false | 18 => fun i => !(k0_cond1 i == 1#1) | ⟨_ + 19, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩

abbrev nBuf : Space → Nat
  | .hbm => 90
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S2048x2048, .f32⟩
  | .hbm, ⟨39, _⟩ => ⟨S8192x2048, .f32⟩
  | .hbm, ⟨40, _⟩ => ⟨S2048x2048, .f32⟩
  | .hbm, ⟨41, _⟩ => ⟨S8192x2048, .f32⟩
  | .hbm, ⟨42, _⟩ => ⟨S2048x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S2048, .f32⟩
  | .hbm, ⟨72, _⟩ => ⟨S2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S2048x2048, .f32⟩
  | .hbm, ⟨89, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_cst_5 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]

class Facts₀ : Prop where
  bcast_S1x2048_S8192x2048_0_1 : S1x2048.BroadcastsInDim S8192x2048 (![0, 1] : Fin 2 → Fin S8192x2048.rank)
  bcast_S_S1x2048 : S_.BroadcastsInDim S1x2048 (![] : Fin 0 → Fin S1x2048.rank)
  transposes_S2048x2048_S2048x2048_1_0 : S2048x2048.Transposes [1, 0] S2048x2048
  bcast_S_S8192x2048 : S_.BroadcastsInDim S8192x2048 (![] : Fin 0 → Fin S8192x2048.rank)
  bcast_S2048_S1x2048_1 : S2048.BroadcastsInDim S1x2048 (![1] : Fin 1 → Fin S1x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.KBody.Outs.lean ====
import proofs.«150005_j6536940224802_1_alg».proof.Proof.Gen.Kernel.Skeleton

/-!
One grid point of the time-mix step, as pure functions of the fourteen blocks the body loads.

A grid point `(i, j)` sees a 128-row slab of `x` and of the previous token `sx` (all 2048 channels), the
128 × 256 tile `(i, j)` of the three recurrent states, the three mixing rows, the 256-channel pieces `j` of
the decay and bonus rows, the 2048 × 256 column panels `j` of the transposed key, value and receptance
weights and the 256 × 2048 row panel `j` of the transposed output weight.

From these it forms, for its tile: the key `k`, the value `v` and the clipped receptance `r` (three
products of a mixed slab with a panel), the new states `A' = e^{w-p'}·A + e^{k-p'}·v`,
`B' = e^{w-p'}·B + e^{k-p'}`, `p' = max(w, k)` with `w = p - e^{d}`, and the read-out tile
`r·a/b` with `a = e^{p-q}·A + e^{u+k-q}·v`, `b = e^{p-q}·B + e^{u+k-q}`, `q = max(p, u+k)`; the read-out tile
times the output panel is added into a 128 × 2048 running sum that lives across the eight points of a row of the grid.
-/

noncomputable section

namespace Cert.Kernel.Body

open Idealize.ShloMosaic Idealize.SL.Sem Cert.Kernel Cert.Kernel.Gen

variable {F : FTy → Type} [FloatOps F]

/-- The fourteen blocks a grid point loads, in the order of the call's operands. -/
structure Blk (F : FTy → Type) where
  /-- the 128-row slab of the input -/
  x : Vec F S128x2048 .f32
  /-- the same slab of the previous token -/
  sx : Vec F S128x2048 .f32
  /-- the tile of the numerator state -/
  sA : Vec F S128x256 .f32
  /-- the tile of the denominator state -/
  sB : Vec F S128x256 .f32
  /-- the tile of the running exponent -/
  sp : Vec F S128x256 .f32
  /-- the mixing row of the key -/
  mixK : Vec F S1x2048 .f32
  /-- the mixing row of the value -/
  mixV : Vec F S1x2048 .f32
  /-- the mixing row of the receptance -/
  mixR : Vec F S1x2048 .f32
  /-- the piece of the decay row -/
  td : Vec F S1x256 .f32
  /-- the piece of the bonus row -/
  tf : Vec F S1x256 .f32
  /-- the column panel of the transposed key weight -/
  wk : Vec F S2048x256 .bf16
  /-- the column panel of the transposed value weight -/
  wv : Vec F S2048x256 .bf16
  /-- the column panel of the transposed receptance weight -/
  wr : Vec F S2048x256 .bf16
  /-- the row panel of the transposed output weight -/
  wo : Vec F S256x2048 .bf16

/-- The key tile: the key-mixed slab times the key panel. -/
def kT (b : Blk F) : FVec F S128x256 .f32 := k0_pay6 b.x b.sx b.mixK b.wk

/-- The value tile: the value-mixed slab times the value panel. -/
def vT (b : Blk F) : FVec F S128x256 .f32 :=
  k0_pay9 (k0_pay7 b.x b.sx b.mixV) (k0_pay8 b.wv) (constant S128x256 .f32 0x00000000#32)

/-- The receptance tile: the receptance-mixed slab times its panel, divided by six, shifted by a half, clipped to [0, 1]. -/
def rT (b : Blk F) : FVec F S128x256 .f32 := k0_pay10 (k0_pay5 b.x b.sx b.mixR) b.wr

/-- The new numerator state's tile. -/
def newA (b : Blk F) : FVec F S128x256 .f32 :=
  k0_pay1 (vT b) b.sA (k0_pay19 (kT b) b.td b.sp) (k0_pay20 (kT b) b.td b.sp)

/-- The new denominator state's tile. -/
def newB (b : Blk F) : FVec F S128x256 .f32 :=
  k0_pay2 b.sB (k0_pay19 (kT b) b.td b.sp) (k0_pay20 (kT b) b.td b.sp)

/-- The new running exponent's tile. -/
def newP (b : Blk F) : FVec F S128x256 .f32 := k0_pay18 (kT b) b.td b.sp

/-- The running sum after this point, from the running sum `s` before it: `s` plus the read-out tile times the output panel. -/
def accStep (b : Blk F) (s : Vec F S128x2048 .f32) : FVec F S128x2048 .f32 :=
  k0_pay3 (rT b)
    (k0_pay15 (kT b) (k0_pay7 b.x b.sx b.mixV) (k0_pay8 b.wv) (constant S128x256 .f32 0x00000000#32) b.tf b.sA b.sp)
    (k0_pay16 (kT b) b.tf b.sB b.sp) s b.wo

/-- The zero slab the running sum is reset to at the first point of a row of the grid. -/
def accZero : FVec F S128x2048 .f32 := k0_pay4

end Cert.Kernel.Body

end
-- ==== Proof.KBody.Data.lean ====
import proofs.«150005_j6536940224802_1_alg».proof.Proof.KBody.Outs
import proofs.«150005_j6536940224802_1_alg».proof.Proof.Gen.Kernel.Frame

/-!
The proof data of the one pipelined call, point by point.

The grid is 64 rows of 8 points; point `t` is point `t % 8` of row `t / 8`. After the body at point `t`:
every input's buffer still holds its block; the three state tiles hold this point's new states; the copy of the
input, written at the first point of the row and only read by the write-back after the last, holds the row's slab of
`x` throughout the row (the slab does not depend on the position in the row); the read-out's buffer matters only at the
last point of the row, where it receives the running sum. The running sum itself lives in the scratch buffer: it
restarts from zero at the first point of each row and gains one panel's contribution per point.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The fourteen blocks point `t` loads, each read off its array as the call finds it. -/
def blkAt (c : Dev nD) (t : Fin cfg0.N) : Blk F where
  x := iblk m c 0 t
  sx := iblk m c 1 t
  sA := iblk m c 2 t
  sB := iblk m c 3 t
  sp := iblk m c 4 t
  mixK := iblk m c 5 t
  mixV := iblk m c 6 t
  mixR := iblk m c 7 t
  td := iblk m c 8 t
  tf := iblk m c 9 t
  wk := iblk m c 10 t
  wv := iblk m c 11 t
  wr := iblk m c 12 t
  wo := iblk m c 13 t

/-- The running sum after point `n`: restarted from zero at the first point of a row, else grown from the point before. -/
def accAt (c : Dev nD) : (n : ℕ) → n < cfg0.N → Vec F S128x2048 .f32
  | 0, h => accStep (blkAt m c ⟨0, h⟩) accZero
  | n + 1, h => accStep (blkAt m c ⟨n + 1, h⟩) (if (n + 1) % 8 = 0 then accZero else accAt c n (Nat.lt_of_succ_lt h))

/-- At the first point of a row the running sum is that point's contribution over zero. -/
theorem accAt_first (c : Dev nD) (t : Fin cfg0.N) (h : t.val % 8 = 0) :
    accAt m c t.val t.isLt = accStep (blkAt m c t) accZero := by
  obtain ⟨n, hn⟩ := t
  cases n with
  | zero => rfl
  | succ n => rw [accAt]; dsimp only at h; rw [if_pos h]

/-- At a later point of a row it is that point's contribution over the sum after the point before. -/
theorem accAt_next (c : Dev nD) (t : Fin cfg0.N) (h : ¬t.val % 8 = 0) :
    accAt m c t.val t.isLt = accStep (blkAt m c t) (accAt m c (t.val - 1) (Nat.lt_of_le_of_lt (Nat.sub_le _ _) t.isLt)) := by
  obtain ⟨n, hn⟩ := t
  cases n with
  | zero => exact absurd (Nat.zero_mod _) h
  | succ n => rw [accAt]; dsimp only at h; rw [if_neg h]; rfl

/-- The scratch buffer the running sum lives in. -/
abbrev scr : Memref sig .tc .vmem S128x2048 .f32 := Memref.whole cc0_scratch0

/-- The invariant between points: before the first point whatever the call is handed; afterwards the scratch at the
    running sum the point before left, and the generator register at some state. -/
def PhiS (c : Dev nD) : (n : ℕ) → n ≤ cfg0.N → sProp 𝕄
  | 0, _ => Pipeline.ΦA spec0 c
  | n + 1, hn => iprop(iprop(owns (c : Thread nD τ) scr fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scr fullShare (accAt m c (n - 1) (by omega))) ∗ (∃ r, prngReg c r)) := by
  cases n with
  | zero => exact absurd rfl hz
  | succ n => rfl

/-- The class invariant, with the scratch as a buffer owned at some contents. -/
theorem PhiA0_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => accAt m c t.val t.isLt
    | ⟨15, _⟩ => newA (blkAt m c t)
    | ⟨16, _⟩ => newB (blkAt m c t)
    | ⟨17, _⟩ => newP (blkAt m c t)
    | ⟨18, _⟩ => iblk m c 0 t
    | ⟨_ + 19, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = accAt m c t.val t.isLt := by dsimp only [dats]
theorem after0_15 (c : Dev nD) (t : Fin cfg0.N) : (dats m 0 c).after 15 t = newA (blkAt m c t) := by dsimp only [dats]
theorem after0_16 (c : Dev nD) (t : Fin cfg0.N) : (dats m 0 c).after 16 t = newB (blkAt m c t) := by dsimp only [dats]
theorem after0_17 (c : Dev nD) (t : Fin cfg0.N) : (dats m 0 c).after 17 t = newP (blkAt m c t) := by dsimp only [dats]
theorem after0_18 (c : Dev nD) (t : Fin cfg0.N) : (dats m 0 c).after 18 t = iblk m c 0 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

end Cert.Kernel.Body

end
-- ==== Proof.KBody.Kept.lean ====
import proofs.«150005_j6536940224802_1_alg».proof.Proof.KBody.Data
import Idealize.ShloMosaic.Lib.Pipeline.Frame

/-!
Which kind of point a grid point is, where the two occasionally stored result buffers are idle, and what the input copy's
buffer holds through a row.

The input copy's buffer is stored at the first point of a row and written back after the last, seven points later.
Through those seven points the pipeline neither refills nor swaps it (an output buffer is never fetched, and it is
written back only after the last point), and the body does not touch it, so it still holds what the first point left: the
row's slab of the input, which is the same slab at every point of the row.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which kind of point -/

/-- The reset and the copy of the input happen at the first point of a row. -/
theorem cond_first : ∀ t : Fin cfg0.N, k0_cond1 (grid0.coords t) = 1#1 ↔ t.val % 8 = 0 :=
  (by decide +kernel : ∀ t : Fin grid0.N, k0_cond1 (grid0.coords t) = 1#1 ↔ t.val % 8 = 0)

/-- The read-out is copied out at the last point of a row. -/
theorem cond_last : ∀ t : Fin cfg0.N, k0_cond2 (grid0.coords t) = 1#1 ↔ t.val % 8 = 7 :=
  (by decide +kernel : ∀ t : Fin grid0.N, k0_cond2 (grid0.coords t) = 1#1 ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem liveAt0_15 : ∀ t : Fin cfg0.N, cfg0.idle 15 (grid0.coords t) = false := by decide +kernel
theorem liveAt0_16 : ∀ t : Fin cfg0.N, cfg0.idle 16 (grid0.coords t) = false := by decide +kernel
theorem liveAt0_17 : ∀ t : Fin cfg0.N, cfg0.idle 17 (grid0.coords t) = false := by decide +kernel

/-- The read-out's buffer is live at the last point of a row only. -/
theorem idle14_last : ∀ t : Fin cfg0.N, t.val % 8 = 7 → cfg0.idle 14 (grid0.coords t) = false :=
  (by decide +kernel : ∀ t : Fin grid0.N, t.val % 8 = 7 → cfg0.idle 14 (grid0.coords t) = false)
theorem idle14_other : ∀ t : Fin cfg0.N, ¬t.val % 8 = 7 → cfg0.idle 14 (grid0.coords t) = true :=
  (by decide +kernel : ∀ t : Fin grid0.N, ¬t.val % 8 = 7 → cfg0.idle 14 (grid0.coords t) = true)
/-- The input copy's buffer is live at the first point of a row only. -/
theorem idle18_first : ∀ t : Fin cfg0.N, t.val % 8 = 0 → cfg0.idle 18 (grid0.coords t) = false :=
  (by decide +kernel : ∀ t : Fin grid0.N, t.val % 8 = 0 → cfg0.idle 18 (grid0.coords t) = false)
theorem idle18_other : ∀ t : Fin cfg0.N, ¬t.val % 8 = 0 → cfg0.idle 18 (grid0.coords t) = true :=
  (by decide +kernel : ∀ t : Fin grid0.N, ¬t.val % 8 = 0 → cfg0.idle 18 (grid0.coords t) = true)

/-- The slab of the input is the same at a point and at the point before it in the same row. -/
theorem index0_prev : ∀ t : Fin cfg0.N, ¬t.val % 8 = 0 →
    win0_0.index t = win0_0.index ⟨t.val - 1, Nat.lt_of_le_of_lt (Nat.sub_le _ _) t.isLt⟩ :=
  (by decide +kernel : ∀ t : Fin grid0.N, ¬t.val % 8 = 0 →
    win0_0.index t = win0_0.index ⟨t.val - 1, Nat.lt_of_le_of_lt (Nat.sub_le _ _) t.isLt⟩)

/-- A fetch of the input's window fills the whole buffer with the slab: the window tiles its array, so no part of the
    buffer's earlier contents survives. -/
theorem fetched0_0 (c : Dev nD) (t : Fin cfg0.N) (d) : (dats m 0 c).fetched 0 t d = iblk m c 0 t := by
  unfold Dat.fetched Dat.blockOf iblk; rw [A_eq]; try rfl

/-- The slab read off the input depends on the point only through the block index, and inside a row the block index
    does not move: two fetches with one block index read the same elements of the array. -/
theorem iblk0_prev (c : Dev nD) (t : Fin cfg0.N) (h : ¬t.val % 8 = 0) :
    (iblk m c 0 ⟨t.val - 1, Nat.lt_of_le_of_lt (Nat.sub_le _ _) t.isLt⟩ : Vec F S128x2048 .f32) = iblk m c 0 t := by
  have e := (dats m 0 c).fetched_congr 0 (index0_prev t h).symm rfl (iblk m c 0 t)
  rw [fetched0_0, fetched0_0] at e
  exact e

/-- What the body left in the input copy's buffer at a live point is all of what it stored: the window tiles its array,
    so the part the write-back moves is the whole block. -/
theorem kept18 (c : Dev nD) (t : Fin cfg0.N) (d) : (dats m 0 c).kept 18 t d = (dats m 0 c).after 18 t := by
  unfold Dat.kept
  rw [Pipeline.fill_of_clip_none (cfg := cfg0) 18 _ (fun _ => rfl) d ((dats m 0 c).after 18 t), Window.fill_cut]

/-- After the first point of a row, and until the row ends, the input copy's buffer holds the row's slab of the input.
    By induction on the point: the buffer is never fetched into, and the point before did not write it back (it is not the
    last of a row), so the buffer holds what the point before left. If that point is the first of the row it stored the
    slab there; otherwise it did not touch the buffer, which held the slab by the induction hypothesis. Either way it is
    the slab of the point before, which is this point's slab. -/
theorem before18_mid (c : Dev nD) (t : Fin cfg0.N) (h : ¬t.val % 8 = 0) (d) :
    (dats m 0 c).before 18 t d = iblk m c 0 t := by
  obtain ⟨n, hn⟩ := t
  induction n using Nat.strong_induction_on with
  | _ n ih =>
    dsimp only at h
    have ht : (⟨n, hn⟩ : Fin cfg0.N).val ≠ 0 := fun h0 => h (by dsimp only at h0; rw [h0])
    have hfl : (cfg0.win 18).flush ⟨n - 1, Nat.lt_of_le_of_lt (Nat.sub_le _ _) hn⟩ = false :=
      Bool.eq_false_iff.mpr fun hf => by
        have := (flush0_18 _).mp hf; dsimp only at this; omega
    rw [(dats m 0 c).before_of_pos 18 ⟨n, hn⟩ ht ((cfg0.win 18).fetch_out rfl _) d]
    dsimp only
    rw [hfl, if_neg Bool.false_ne_true]
    rw [← iblk0_prev m c ⟨n, hn⟩ h]
    unfold Dat.left
    by_cases h0 : (n - 1) % 8 = 0
    · rw [idle18_first ⟨n - 1, Nat.lt_of_le_of_lt (Nat.sub_le _ _) hn⟩ h0]
      dsimp only
      rw [kept18, after0_18]
    · rw [idle18_other ⟨n - 1, Nat.lt_of_le_of_lt (Nat.sub_le _ _) hn⟩ h0]
      dsimp only
      exact ih (n - 1) (by omega) _ h0

end Cert.Kernel.Body

end
-- ==== Proof.KBody.RunFirst.lean ====
import proofs.«150005_j6536940224802_1_alg».proof.Proof.KBody.Outs
import proofs.«150005_j6536940224802_1_alg».proof.Proof.Gen.Kernel.Launch
import proofs.«150005_j6536940224802_1_alg».proof.Proof.Gen.Kernel.Points
import Idealize.ShloMosaic.Lib.Pipeline.Value
import Idealize.ShloMosaic.Lib.Pipeline.FrameBody
import Idealize.ShloMosaic.Lib.Pipeline.Value
import Idealize.ShloMosaic.Lib.Ring
import Idealize.ShloMosaic.Lib.Tactic

/-!
The body at the first point of a row of the grid: the running sum is reset to zero before this point's contribution
is added, and the row's slab of the input is copied into the buffer of the fifth result.
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem off0 : (![0, 0] : Fin 2 → ℕ) = fun _ => 0 := funext fun a => by fin_cases a <;> rfl

set_option maxHeartbeats 4000000 in
/-- The first point of a row: from the fourteen blocks in their buffers, the read-out's buffer at `d16` and the other
    result buffers and the scratch at anything, the body runs to the same with the three state tiles stored, the input's
    slab copied, and the running sum at this point's contribution over zero. -/
theorem run_first (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S256x2048 .bf16) (harg15 : arg15.IsWhole) (arg16 : Memref sig .tc .vmem S128x2048 .f32) (harg16 : arg16.IsWhole) (arg17 : Memref sig .tc .vmem S128x256 .f32) (harg17 : arg17.IsWhole) (arg18 : Memref sig .tc .vmem S128x256 .f32) (harg18 : arg18.IsWhole) (arg19 : Memref sig .tc .vmem S128x256 .f32) (harg19 : arg19.IsWhole) (arg20 : Memref sig .tc .vmem S128x2048 .f32) (harg20 : arg20.IsWhole) (arg21 : Memref sig .tc .vmem S128x2048 .f32) (harg21 : arg21.IsWhole)
    (hc0 : k0_cond1 i = 1#1) (hc1 : ¬k0_cond2 i = 1#1) (b : Blk F) (d16 : Vec F S128x2048 .f32)
    (E : Set ℕ) (K : PUnit → sProp 𝕄) :
    iprop(owns (c : Thread nD τ) arg2 fullShare b.x ∗ owns (c : Thread nD τ) arg3 fullShare b.sx ∗ owns (c : Thread nD τ) arg4 fullShare b.sA ∗ owns (c : Thread nD τ) arg5 fullShare b.sB ∗ owns (c : Thread nD τ) arg6 fullShare b.sp ∗ owns (c : Thread nD τ) arg7 fullShare b.mixK ∗ owns (c : Thread nD τ) arg8 fullShare b.mixV ∗ owns (c : Thread nD τ) arg9 fullShare b.mixR ∗ owns (c : Thread nD τ) arg10 fullShare b.td ∗ owns (c : Thread nD τ) arg11 fullShare b.tf ∗ owns (c : Thread nD τ) arg12 fullShare b.wk ∗ owns (c : Thread nD τ) arg13 fullShare b.wv ∗ owns (c : Thread nD τ) arg14 fullShare b.wr ∗ owns (c : Thread nD τ) arg15 fullShare b.wo ∗ owns (c : Thread nD τ) arg16 fullShare d16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare b.x ∗ owns (c : Thread nD τ) arg3 fullShare b.sx ∗ owns (c : Thread nD τ) arg4 fullShare b.sA ∗ owns (c : Thread nD τ) arg5 fullShare b.sB ∗ owns (c : Thread nD τ) arg6 fullShare b.sp ∗ owns (c : Thread nD τ) arg7 fullShare b.mixK ∗ owns (c : Thread nD τ) arg8 fullShare b.mixV ∗ owns (c : Thread nD τ) arg9 fullShare b.mixR ∗ owns (c : Thread nD τ) arg10 fullShare b.td ∗ owns (c : Thread nD τ) arg11 fullShare b.tf ∗ owns (c : Thread nD τ) arg12 fullShare b.wk ∗ owns (c : Thread nD τ) arg13 fullShare b.wv ∗ owns (c : Thread nD τ) arg14 fullShare b.wr ∗ owns (c : Thread nD τ) arg15 fullShare b.wo ∗ owns (c : Thread nD τ) arg16 fullShare d16 ∗ owns (c : Thread nD τ) arg17 fullShare (newA b) ∗ owns (c : Thread nD τ) arg18 fullShare (newB b) ∗ owns (c : Thread nD τ) arg19 fullShare (newP b) ∗ owns (c : Thread nD τ) arg20 fullShare b.x ∗ owns (c : Thread nD τ) arg21 fullShare (accStep b accZero)) -∗ K ⟨⟩))
      ⊢ wp frame (wpE (defs₀ (F := F)) Variants.none c none) E (cc0__rwkv_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__rwkv_kernel_eq_skeleton]; unfold cc0__rwkv_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16', %f16, -, H16⟩, ⟨%d17, %f17, -, H17⟩, ⟨%d18, %f18, -, H18⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13

  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact hf14
    iexact H14
  isplitl [H15]
  · iexists _; isplitr; swap; · iexact H15
    ipureintro
    rw [View.read_writes_eq_canon _ _ _ (View.cover_of_tiled _ S128x256.size (by rfl)), View.canon_unit_zero off0]
    sl_unfold_run_names
    unfold newA vT kT
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H16]
  · iexists _; isplitr; swap; · iexact H16
    ipureintro
    rw [View.read_writes_eq_canon _ _ _ (View.cover_of_tiled _ S128x256.size (by rfl)), View.canon_unit_zero off0]
    sl_unfold_run_names
    unfold newB kT
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H17]
  · iexists _; isplitr; swap; · iexact H17
    ipureintro
    rw [View.read_writes_eq_canon _ _ _ (View.cover_of_tiled _ S128x256.size (by rfl)), View.canon_unit_zero off0]
    sl_unfold_run_names
    unfold newP kT
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H18]
  · iexists _; isplitr; swap; · iexact H18
    ipureintro
    sl_unfold_run_names
    rw [View.read_writes_eq_canon _ _ _ (View.cover_of_tiled _ S128x2048.size (by rfl)), View.canon_unit_zero off0]
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  iexists _; isplitr; swap; · iexact HS
  ipureintro
  sl_unfold_run_names
  rw [View.read_writes_eq_canon _ _ _ (fun y => ⟨_, List.mem_cons_self, View.mem_set_unit_zero off0 inb_S128x2048_S128x2048_0_0 y⟩), View.canon_cons_unit_zero (S := S128x2048) off0]
  unfold accStep rT kT accZero
  simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]

end Cert.Kernel.Body

end
-- ==== Proof.KBody.RunMid.lean ====
import proofs.«150005_j6536940224802_1_alg».proof.Proof.KBody.Outs
import proofs.«150005_j6536940224802_1_alg».proof.Proof.Gen.Kernel.Launch
import proofs.«150005_j6536940224802_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-!
The body at a point in the middle of a row of the grid (neither its first point nor its last): nothing is
reset and nothing is copied out; the three state tiles are stored, the read-out and the copy of the input
keep what they held, and the running sum grows by this point's contribution.
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off0 : (![0, 0] : Fin 2 → ℕ) = fun _ => 0 := funext fun a => by fin_cases a <;> rfl

set_option maxHeartbeats 4000000 in
/-- A middle point: from the fourteen blocks in their buffers, the read-out's buffer at `d16`, the input copy's at
    `d20` and the running sum at `s`, the body runs to the same with the three state tiles stored and the running sum
    at `accStep b s`. -/
theorem run_mid (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S256x2048 .bf16) (harg15 : arg15.IsWhole) (arg16 : Memref sig .tc .vmem S128x2048 .f32) (harg16 : arg16.IsWhole) (arg17 : Memref sig .tc .vmem S128x256 .f32) (harg17 : arg17.IsWhole) (arg18 : Memref sig .tc .vmem S128x256 .f32) (harg18 : arg18.IsWhole) (arg19 : Memref sig .tc .vmem S128x256 .f32) (harg19 : arg19.IsWhole) (arg20 : Memref sig .tc .vmem S128x2048 .f32) (harg20 : arg20.IsWhole) (arg21 : Memref sig .tc .vmem S128x2048 .f32) (harg21 : arg21.IsWhole)
    (hc0 : ¬k0_cond1 i = 1#1) (hc1 : ¬k0_cond2 i = 1#1) (b : Blk F) (d16 d20 s : Vec F S128x2048 .f32)
    (E : Set ℕ) (K : PUnit → sProp 𝕄) :
    iprop(owns (c : Thread nD τ) arg2 fullShare b.x ∗ owns (c : Thread nD τ) arg3 fullShare b.sx ∗ owns (c : Thread nD τ) arg4 fullShare b.sA ∗ owns (c : Thread nD τ) arg5 fullShare b.sB ∗ owns (c : Thread nD τ) arg6 fullShare b.sp ∗ owns (c : Thread nD τ) arg7 fullShare b.mixK ∗ owns (c : Thread nD τ) arg8 fullShare b.mixV ∗ owns (c : Thread nD τ) arg9 fullShare b.mixR ∗ owns (c : Thread nD τ) arg10 fullShare b.td ∗ owns (c : Thread nD τ) arg11 fullShare b.tf ∗ owns (c : Thread nD τ) arg12 fullShare b.wk ∗ owns (c : Thread nD τ) arg13 fullShare b.wv ∗ owns (c : Thread nD τ) arg14 fullShare b.wr ∗ owns (c : Thread nD τ) arg15 fullShare b.wo ∗ owns (c : Thread nD τ) arg16 fullShare d16 ∗ (∃ d, owns (c : Thread nD τ) arg17 fullShare d) ∗ (∃ d, owns (c : Thread nD τ) arg18 fullShare d) ∗ (∃ d, owns (c : Thread nD τ) arg19 fullShare d) ∗ owns (c : Thread nD τ) arg20 fullShare d20 ∗ owns (c : Thread nD τ) arg21 fullShare s
        ∗ (iprop(owns (c : Thread nD τ) arg2 fullShare b.x ∗ owns (c : Thread nD τ) arg3 fullShare b.sx ∗ owns (c : Thread nD τ) arg4 fullShare b.sA ∗ owns (c : Thread nD τ) arg5 fullShare b.sB ∗ owns (c : Thread nD τ) arg6 fullShare b.sp ∗ owns (c : Thread nD τ) arg7 fullShare b.mixK ∗ owns (c : Thread nD τ) arg8 fullShare b.mixV ∗ owns (c : Thread nD τ) arg9 fullShare b.mixR ∗ owns (c : Thread nD τ) arg10 fullShare b.td ∗ owns (c : Thread nD τ) arg11 fullShare b.tf ∗ owns (c : Thread nD τ) arg12 fullShare b.wk ∗ owns (c : Thread nD τ) arg13 fullShare b.wv ∗ owns (c : Thread nD τ) arg14 fullShare b.wr ∗ owns (c : Thread nD τ) arg15 fullShare b.wo ∗ owns (c : Thread nD τ) arg16 fullShare d16 ∗ owns (c : Thread nD τ) arg17 fullShare (newA b) ∗ owns (c : Thread nD τ) arg18 fullShare (newB b) ∗ owns (c : Thread nD τ) arg19 fullShare (newP b) ∗ owns (c : Thread nD τ) arg20 fullShare d20 ∗ owns (c : Thread nD τ) arg21 fullShare (accStep b s)) -∗ K ⟨⟩))
      ⊢ wp frame (wpE (defs₀ (F := F)) Variants.none c none) E (cc0__rwkv_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__rwkv_kernel_eq_skeleton]; unfold cc0__rwkv_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16', %f16, -, H16⟩, ⟨%d17, %f17, -, H17⟩, ⟨%f18, %hf18, H18⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  obtain rfl := harg21.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact hf14
    iexact H14
  isplitl [H15]
  · iexists _; isplitr; swap; · iexact H15
    ipureintro
    rw [View.read_writes_eq_canon _ _ _ (View.cover_of_tiled _ S128x256.size (by rfl)), View.canon_unit_zero off0]
    sl_unfold_run_names
    unfold newA vT kT
    simp only [View.readAt_eq_ld, Memref.IsWhole.read_unread, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H16]
  · iexists _; isplitr; swap; · iexact H16
    ipureintro
    rw [View.read_writes_eq_canon _ _ _ (View.cover_of_tiled _ S128x256.size (by rfl)), View.canon_unit_zero off0]
    sl_unfold_run_names
    unfold newB kT
    simp only [View.readAt_eq_ld, Memref.IsWhole.read_unread, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H17]
  · iexists _; isplitr; swap; · iexact H17
    ipureintro
    rw [View.read_writes_eq_canon _ _ _ (View.cover_of_tiled _ S128x256.size (by rfl)), View.canon_unit_zero off0]
    sl_unfold_run_names
    unfold newP kT
    simp only [View.readAt_eq_ld, Memref.IsWhole.read_unread, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H18]
  · iexists _; isplitr; · ipureintro; exact hf18
    iexact H18
  iexists _; isplitr; swap; · iexact HS
  ipureintro
  rw [View.read_writes_eq_canon _ _ _ (View.cover_of_tiled _ S128x2048.size (by rfl)), View.canon_unit_zero off0]
  sl_unfold_run_names
  unfold accStep rT kT
  simp only [View.readAt_eq_ld, Memref.IsWhole.read_unread, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]

end Cert.Kernel.Body

end
-- ==== Proof.KBody.RunLast.lean ====
import proofs.«150005_j6536940224802_1_alg».proof.Proof.KBody.Outs
import proofs.«150005_j6536940224802_1_alg».proof.Proof.Gen.Kernel.Launch
import proofs.«150005_j6536940224802_1_alg».proof.Proof.Gen.Kernel.Points
import Idealize.ShloMosaic.Lib.Pipeline.Value
import Idealize.ShloMosaic.Lib.Pipeline.FrameBody
import Idealize.ShloMosaic.Lib.Pipeline.Value
import Idealize.ShloMosaic.Lib.Ring
import Idealize.ShloMosaic.Lib.Tactic

/-!
The body at the last point of a row of the grid: after this point's contribution the running sum is complete and is
copied into the read-out's buffer.
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem off0 : (![0, 0] : Fin 2 → ℕ) = fun _ => 0 := funext fun a => by fin_cases a <;> rfl

set_option maxHeartbeats 4000000 in
/-- The last point of a row: from the fourteen blocks in their buffers, the input copy's buffer at `d20`, the running sum
    at `s` and the other result buffers at anything, the body runs to the same with the three state tiles stored and both
    the scratch and the read-out's buffer at `accStep b s`. -/
theorem run_last (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S256x2048 .bf16) (harg15 : arg15.IsWhole) (arg16 : Memref sig .tc .vmem S128x2048 .f32) (harg16 : arg16.IsWhole) (arg17 : Memref sig .tc .vmem S128x256 .f32) (harg17 : arg17.IsWhole) (arg18 : Memref sig .tc .vmem S128x256 .f32) (harg18 : arg18.IsWhole) (arg19 : Memref sig .tc .vmem S128x256 .f32) (harg19 : arg19.IsWhole) (arg20 : Memref sig .tc .vmem S128x2048 .f32) (harg20 : arg20.IsWhole) (arg21 : Memref sig .tc .vmem S128x2048 .f32) (harg21 : arg21.IsWhole)
    (hc0 : ¬k0_cond1 i = 1#1) (hc1 : k0_cond2 i = 1#1) (b : Blk F) (d20 s : Vec F S128x2048 .f32)
    (E : Set ℕ) (K : PUnit → sProp 𝕄) :
    iprop(owns (c : Thread nD τ) arg2 fullShare b.x ∗ owns (c : Thread nD τ) arg3 fullShare b.sx ∗ owns (c : Thread nD τ) arg4 fullShare b.sA ∗ owns (c : Thread nD τ) arg5 fullShare b.sB ∗ owns (c : Thread nD τ) arg6 fullShare b.sp ∗ owns (c : Thread nD τ) arg7 fullShare b.mixK ∗ owns (c : Thread nD τ) arg8 fullShare b.mixV ∗ owns (c : Thread nD τ) arg9 fullShare b.mixR ∗ owns (c : Thread nD τ) arg10 fullShare b.td ∗ owns (c : Thread nD τ) arg11 fullShare b.tf ∗ owns (c : Thread nD τ) arg12 fullShare b.wk ∗ owns (c : Thread nD τ) arg13 fullShare b.wv ∗ owns (c : Thread nD τ) arg14 fullShare b.wr ∗ owns (c : Thread nD τ) arg15 fullShare b.wo ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare d20 ∗ owns (c : Thread nD τ) arg21 fullShare s
        ∗ (iprop(owns (c : Thread nD τ) arg2 fullShare b.x ∗ owns (c : Thread nD τ) arg3 fullShare b.sx ∗ owns (c : Thread nD τ) arg4 fullShare b.sA ∗ owns (c : Thread nD τ) arg5 fullShare b.sB ∗ owns (c : Thread nD τ) arg6 fullShare b.sp ∗ owns (c : Thread nD τ) arg7 fullShare b.mixK ∗ owns (c : Thread nD τ) arg8 fullShare b.mixV ∗ owns (c : Thread nD τ) arg9 fullShare b.mixR ∗ owns (c : Thread nD τ) arg10 fullShare b.td ∗ owns (c : Thread nD τ) arg11 fullShare b.tf ∗ owns (c : Thread nD τ) arg12 fullShare b.wk ∗ owns (c : Thread nD τ) arg13 fullShare b.wv ∗ owns (c : Thread nD τ) arg14 fullShare b.wr ∗ owns (c : Thread nD τ) arg15 fullShare b.wo ∗ owns (c : Thread nD τ) arg16 fullShare (accStep b s) ∗ owns (c : Thread nD τ) arg17 fullShare (newA b) ∗ owns (c : Thread nD τ) arg18 fullShare (newB b) ∗ owns (c : Thread nD τ) arg19 fullShare (newP b) ∗ owns (c : Thread nD τ) arg20 fullShare d20 ∗ owns (c : Thread nD τ) arg21 fullShare (accStep b s)) -∗ K ⟨⟩))
      ⊢ wp frame (wpE (defs₀ (F := F)) Variants.none c none) E (cc0__rwkv_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__rwkv_kernel_eq_skeleton]; unfold cc0__rwkv_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16', %f16, -, H16⟩, ⟨%d17, %f17, -, H17⟩, ⟨%f18, %hf18, H18⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  obtain rfl := harg21.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; swap; · iexact H14
    ipureintro
    sl_unfold_run_names
    rw [View.read_writes_eq_canon _ _ _ (View.cover_of_tiled _ S128x2048.size (by rfl)), View.canon_unit_zero off0]
    unfold accStep rT kT
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H15]
  · iexists _; isplitr; swap; · iexact H15
    ipureintro
    rw [View.read_writes_eq_canon _ _ _ (View.cover_of_tiled _ S128x256.size (by rfl)), View.canon_unit_zero off0]
    sl_unfold_run_names
    unfold newA vT kT
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H16]
  · iexists _; isplitr; swap; · iexact H16
    ipureintro
    rw [View.read_writes_eq_canon _ _ _ (View.cover_of_tiled _ S128x256.size (by rfl)), View.canon_unit_zero off0]
    sl_unfold_run_names
    unfold newB kT
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H17]
  · iexists _; isplitr; swap; · iexact H17
    ipureintro
    rw [View.read_writes_eq_canon _ _ _ (View.cover_of_tiled _ S128x256.size (by rfl)), View.canon_unit_zero off0]
    sl_unfold_run_names
    unfold newP kT
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H18]
  · iexists _; isplitr; · ipureintro; exact hf18
    iexact H18
  iexists _; isplitr; swap; · iexact HS
  ipureintro
  sl_unfold_run_names
  rw [View.read_writes_eq_canon _ _ _ (View.cover_of_tiled _ S128x2048.size (by rfl)), View.canon_unit_zero off0]
  unfold accStep rT kT
  simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]

end Cert.Kernel.Body

end
-- ==== Proof.KBody.Sound.lean ====
import proofs.«150005_j6536940224802_1_alg».proof.Proof.KBody.Kept
import proofs.«150005_j6536940224802_1_alg».proof.Proof.KBody.RunFirst
import proofs.«150005_j6536940224802_1_alg».proof.Proof.KBody.RunMid
import proofs.«150005_j6536940224802_1_alg».proof.Proof.KBody.RunLast
import Idealize.ShloMosaic.Lib.Pipeline.Frame

/-!
The body meets its obligation at every grid point, and the call runs.

A point is the first of its row, the last, or in between, and the body's run for that kind of point is applied to the
blocks the pipeline has staged. Two result buffers are not stored at every point. The read-out's buffer is stored only at
the last point of a row: before that the body hands it back as it found it. The input copy's buffer is stored only at the
first point of a row and is written back after the last, seven points later; through those seven points the pipeline
neither refills nor swaps it, so at the last point it still holds the row's slab of the input, which is what the
write-back must find there.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called with -/

abbrev ms0_0 (t : Fin cfg0.N) : Memref sig .tc .vmem S128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2048x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x2048 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x2048 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S128x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S128x2048 .f32 := win0_18.stage (cfg0.slots t 18)
abbrev hs0_18 (t : Fin cfg0.N) : (ms0_18 t).IsWhole := hstage0_18 ((cfg0.slots t 18).cast nbuf0_18)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

set_option maxHeartbeats 24000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).Φ t.succ = PhiS m c (t.val + 1) t.isLt from rfl, PhiS_succ]
  have hN : t.val < 512 := lt_of_lt_of_eq t.isLt (show cfg0.N = 512 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  by_cases h0 : t.val % 8 = 0
  · -- the first point of a row
    have h7 : ¬t.val % 8 = 7 := by omega
    rw [show (dats m 0 c).leavesExact 14 t = iprop(∃ d, owns (c : Thread nD τ) (ms0_14 t) fullShare ((dats m 0 c).before 14 t d)) from
      (dats m 0 c).leavesExact_idle 14 t (idle14_other t h7) (by rw [Bool.eq_false_iff]; exact fun hf => h7 ((flush0_14 t).mp hf))]
    rw [show (dats m 0 c).leavesExact 18 t = owns (c : Thread nD τ) (ms0_18 t) fullShare ((dats m 0 c).after 18 t) from by
      unfold Dat.leavesExact; rw [idle18_first t h0], after0_18]
    rw [accAt_first m c t h0]
    have hΦ : (dats m 0 c).Φ t.castSucc ⊢ (iprop(iprop((∃ d, owns (c : Thread nD τ) scr fullShare d)) ∗ (∃ r, prngReg c r)) : sProp 𝕄) := by
      rw [PhiS_castSucc m c t]
      by_cases hz : t.val = 0
      · rw [PhiS_zero m c _ _ hz, PhiA0_eq]; try exact Idealize.SL.BI.Entails.refl _
      · rw [PhiS_pos m c _ _ hz]
        iintro ⟨HS, Hg⟩
        isplitl [HS]; · iexists _; iexact HS
        iexact Hg
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    ihave ⟨HS, Hg⟩ := hΦ $$ HΦ
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scr (Memref.isWhole_whole _) ((cond_first t).mpr h0) (fun h => h7 ((cond_last t).mp h)) (blkAt m c t) ((dats m 0 c).before 14 t d14) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [HS]; · iexact HS
    iintro ⟨H0, H1, H2, H3, H4, H5, H6, H7, H8, H9, H10, H11, H12, H13, H14, H15, H16, H17, H18, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    isplitl [H16]; · iexact H16
    isplitl [H17]; · iexact H17
    iexact H18
  · by_cases h7 : t.val % 8 = 7
    · -- the last point of a row
      have hz : t.val ≠ 0 := by omega
      rw [show (dats m 0 c).leavesExact 14 t = owns (c : Thread nD τ) (ms0_14 t) fullShare ((dats m 0 c).after 14 t) from by
        unfold Dat.leavesExact; rw [idle14_last t h7], after0_14]
      rw [show (dats m 0 c).leavesExact 18 t = owns (c : Thread nD τ) (ms0_18 t) fullShare ((dats m 0 c).after 18 t) from by
        unfold Dat.leavesExact; rw [idle18_other t h0, (flush0_18 t).mpr h7], after0_18]
      rw [accAt_next m c t h0, PhiS_castSucc m c t, PhiS_pos m c _ _ hz]
      simp only [before18_mid m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scr (Memref.isWhole_whole _) (fun h => h0 ((cond_first t).mp h)) ((cond_last t).mpr h7) (blkAt m c t) (iblk m c 0 t) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexact H18
      isplitl [HS]; · iexact HS
      iintro ⟨H0, H1, H2, H3, H4, H5, H6, H7, H8, H9, H10, H11, H12, H13, H14, H15, H16, H17, H18, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · -- a point in between
      have hz : t.val ≠ 0 := by omega
      rw [show (dats m 0 c).leavesExact 14 t = iprop(∃ d, owns (c : Thread nD τ) (ms0_14 t) fullShare ((dats m 0 c).before 14 t d)) from
        (dats m 0 c).leavesExact_idle 14 t (idle14_other t h7) (by rw [Bool.eq_false_iff]; exact fun hf => h7 ((flush0_14 t).mp hf))]
      rw [show (dats m 0 c).leavesExact 18 t = iprop(∃ d, owns (c : Thread nD τ) (ms0_18 t) fullShare ((dats m 0 c).before 18 t d)) from
        (dats m 0 c).leavesExact_idle 18 t (idle18_other t h0) (by rw [Bool.eq_false_iff]; exact fun hf => h7 ((flush0_18 t).mp hf))]
      rw [accAt_next m c t h0, PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scr (Memref.isWhole_whole _) (fun h => h0 ((cond_first t).mp h)) (fun h => h7 ((cond_last t).mp h)) (blkAt m c t) ((dats m 0 c).before 14 t d14) ((dats m 0 c).before 18 t d18) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexact H18
      isplitl [HS]; · iexact HS
      iintro ⟨H0, H1, H2, H3, H4, H5, H6, H7, H8, H9, H10, H11, H12, H13, H14, H15, H16, H17, H18, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexact H15
      isplitl [H16]; · iexact H16
      isplitl [H17]; · iexact H17
      iexists _; iexact H18

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the running sum is forgotten. -/
theorem hout (c : Dev nD) : (dats m 0 c).Φ (Fin.last cfg0.N) ⊢ Pipeline.ΦA spec0 c := by
  have hne : (Fin.last cfg0.N).val ≠ 0 := by rw [Fin.val_last]; have : cfg0.N = 512 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨HS, Hg⟩
  isplitl [HS]
  · iexists _; iexact HS
  iexact Hg

set_option backward.isDefEq.respectTransparency.types false in
/-- Every weakly fair execution of the program terminates, with every array of the call at what the proof data say and
    every other buffer as the call found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Body

end
-- ==== Proof.Body.Outs.lean ====
import proofs.«150005_j6536940224802_1_alg».proof.Proof.Gen.KernelIdeal.Skeleton

/-!
One grid point of the time-mix step, as pure functions of the fourteen blocks the body loads.

A grid point `(i, j)` sees a 128-row slab of `x` and of the previous token `sx` (all 2048 channels), the
128 × 256 tile `(i, j)` of the three recurrent states, the three mixing rows, the 256-channel pieces `j` of
the decay and bonus rows, the 2048 × 256 column panels `j` of the transposed key, value and receptance
weights and the 256 × 2048 row panel `j` of the transposed output weight.

From these it forms, for its tile: the key `k`, the value `v` and the clipped receptance `r` (three
products of a mixed slab with a panel), the new states `A' = e^{w-p'}·A + e^{k-p'}·v`,
`B' = e^{w-p'}·B + e^{k-p'}`, `p' = max(w, k)` with `w = p - e^{d}`, and the read-out tile
`r·a/b` with `a = e^{p-q}·A + e^{u+k-q}·v`, `b = e^{p-q}·B + e^{u+k-q}`, `q = max(p, u+k)`; the read-out tile
times the output panel is added into a 128 × 2048 running sum that lives across the eight points of a row of the grid.
-/

noncomputable section

namespace Cert.KernelIdeal.Body

open Idealize.ShloMosaic Idealize.SL.Sem Cert.KernelIdeal Cert.KernelIdeal.Gen

variable {F : FTy → Type} [FloatOps F]

/-- The fourteen blocks a grid point loads, in the order of the call's operands. -/
structure Blk (F : FTy → Type) where
  /-- the 128-row slab of the input -/
  x : Vec F S128x2048 .f32
  /-- the same slab of the previous token -/
  sx : Vec F S128x2048 .f32
  /-- the tile of the numerator state -/
  sA : Vec F S128x256 .f32
  /-- the tile of the denominator state -/
  sB : Vec F S128x256 .f32
  /-- the tile of the running exponent -/
  sp : Vec F S128x256 .f32
  /-- the mixing row of the key -/
  mixK : Vec F S1x2048 .f32
  /-- the mixing row of the value -/
  mixV : Vec F S1x2048 .f32
  /-- the mixing row of the receptance -/
  mixR : Vec F S1x2048 .f32
  /-- the piece of the decay row -/
  td : Vec F S1x256 .f32
  /-- the piece of the bonus row -/
  tf : Vec F S1x256 .f32
  /-- the column panel of the transposed key weight -/
  wk : Vec F S2048x256 .bf16
  /-- the column panel of the transposed value weight -/
  wv : Vec F S2048x256 .bf16
  /-- the column panel of the transposed receptance weight -/
  wr : Vec F S2048x256 .bf16
  /-- the row panel of the transposed output weight -/
  wo : Vec F S256x2048 .bf16

/-- The key tile: the key-mixed slab times the key panel. -/
def kT (b : Blk F) : FVec F S128x256 .f32 := k0_pay6 b.x b.sx b.mixK b.wk

/-- The value tile: the value-mixed slab times the value panel. -/
def vT (b : Blk F) : FVec F S128x256 .f32 :=
  k0_pay9 (k0_pay7 b.x b.sx b.mixV) (k0_pay8 b.wv) (constant S128x256 .f32 0x00000000#32)

/-- The receptance tile: the receptance-mixed slab times its panel, divided by six, shifted by a half, clipped to [0, 1]. -/
def rT (b : Blk F) : FVec F S128x256 .f32 := k0_pay10 (k0_pay5 b.x b.sx b.mixR) b.wr

/-- The new numerator state's tile. -/
def newA (b : Blk F) : FVec F S128x256 .f32 :=
  k0_pay1 (vT b) b.sA (k0_pay19 (kT b) b.td b.sp) (k0_pay20 (kT b) b.td b.sp)

/-- The new denominator state's tile. -/
def newB (b : Blk F) : FVec F S128x256 .f32 :=
  k0_pay2 b.sB (k0_pay19 (kT b) b.td b.sp) (k0_pay20 (kT b) b.td b.sp)

/-- The new running exponent's tile. -/
def newP (b : Blk F) : FVec F S128x256 .f32 := k0_pay18 (kT b) b.td b.sp

/-- The running sum after this point, from the running sum `s` before it: `s` plus the read-out tile times the output panel. -/
def accStep (b : Blk F) (s : Vec F S128x2048 .f32) : FVec F S128x2048 .f32 :=
  k0_pay3 (rT b)
    (k0_pay15 (kT b) (k0_pay7 b.x b.sx b.mixV) (k0_pay8 b.wv) (constant S128x256 .f32 0x00000000#32) b.tf b.sA b.sp)
    (k0_pay16 (kT b) b.tf b.sB b.sp) s b.wo

/-- The zero slab the running sum is reset to at the first point of a row of the grid. -/
def accZero : FVec F S128x2048 .f32 := k0_pay4

end Cert.KernelIdeal.Body

end
-- ==== Proof.Body.Data.lean ====
import proofs.«150005_j6536940224802_1_alg».proof.Proof.Body.Outs
import proofs.«150005_j6536940224802_1_alg».proof.Proof.Gen.KernelIdeal.Frame

/-!
The proof data of the one pipelined call, point by point.

The grid is 64 rows of 8 points; point `t` is point `t % 8` of row `t / 8`. After the body at point `t`:
every input's buffer still holds its block; the three state tiles hold this point's new states; the copy of the
input, written at the first point of the row and only read by the write-back after the last, holds the row's slab of
`x` throughout the row (the slab does not depend on the position in the row); the read-out's buffer matters only at the
last point of the row, where it receives the running sum. The running sum itself lives in the scratch buffer: it
restarts from zero at the first point of each row and gains one panel's contribution per point.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The fourteen blocks point `t` loads, each read off its array as the call finds it. -/
def blkAt (c : Dev nD) (t : Fin cfg0.N) : Blk F where
  x := iblk m c 0 t
  sx := iblk m c 1 t
  sA := iblk m c 2 t
  sB := iblk m c 3 t
  sp := iblk m c 4 t
  mixK := iblk m c 5 t
  mixV := iblk m c 6 t
  mixR := iblk m c 7 t
  td := iblk m c 8 t
  tf := iblk m c 9 t
  wk := iblk m c 10 t
  wv := iblk m c 11 t
  wr := iblk m c 12 t
  wo := iblk m c 13 t

/-- The running sum after point `n`: restarted from zero at the first point of a row, else grown from the point before. -/
def accAt (c : Dev nD) : (n : ℕ) → n < cfg0.N → Vec F S128x2048 .f32
  | 0, h => accStep (blkAt m c ⟨0, h⟩) accZero
  | n + 1, h => accStep (blkAt m c ⟨n + 1, h⟩) (if (n + 1) % 8 = 0 then accZero else accAt c n (Nat.lt_of_succ_lt h))

/-- At the first point of a row the running sum is that point's contribution over zero. -/
theorem accAt_first (c : Dev nD) (t : Fin cfg0.N) (h : t.val % 8 = 0) :
    accAt m c t.val t.isLt = accStep (blkAt m c t) accZero := by
  obtain ⟨n, hn⟩ := t
  cases n with
  | zero => rfl
  | succ n => rw [accAt]; dsimp only at h; rw [if_pos h]

/-- At a later point of a row it is that point's contribution over the sum after the point before. -/
theorem accAt_next (c : Dev nD) (t : Fin cfg0.N) (h : ¬t.val % 8 = 0) :
    accAt m c t.val t.isLt = accStep (blkAt m c t) (accAt m c (t.val - 1) (Nat.lt_of_le_of_lt (Nat.sub_le _ _) t.isLt)) := by
  obtain ⟨n, hn⟩ := t
  cases n with
  | zero => exact absurd (Nat.zero_mod _) h
  | succ n => rw [accAt]; dsimp only at h; rw [if_neg h]; rfl

/-- The scratch buffer the running sum lives in. -/
abbrev scr : Memref sig .tc .vmem S128x2048 .f32 := Memref.whole cc0_scratch0

/-- The invariant between points: before the first point whatever the call is handed; afterwards the scratch at the
    running sum the point before left, and the generator register at some state. -/
def PhiS (c : Dev nD) : (n : ℕ) → n ≤ cfg0.N → sProp 𝕄
  | 0, _ => Pipeline.ΦA spec0 c
  | n + 1, hn => iprop(iprop(owns (c : Thread nD τ) scr fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scr fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scr fullShare (accAt m c (n - 1) (by omega))) ∗ (∃ r, prngReg c r)) := by
  cases n with
  | zero => exact absurd rfl hz
  | succ n => rfl

/-- The class invariant, with the scratch as a buffer owned at some contents. -/
theorem PhiA0_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => accAt m c t.val t.isLt
    | ⟨15, _⟩ => newA (blkAt m c t)
    | ⟨16, _⟩ => newB (blkAt m c t)
    | ⟨17, _⟩ => newP (blkAt m c t)
    | ⟨18, _⟩ => iblk m c 0 t
    | ⟨_ + 19, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = accAt m c t.val t.isLt := by dsimp only [dats]
theorem after0_15 (c : Dev nD) (t : Fin cfg0.N) : (dats m 0 c).after 15 t = newA (blkAt m c t) := by dsimp only [dats]
theorem after0_16 (c : Dev nD) (t : Fin cfg0.N) : (dats m 0 c).after 16 t = newB (blkAt m c t) := by dsimp only [dats]
theorem after0_17 (c : Dev nD) (t : Fin cfg0.N) : (dats m 0 c).after 17 t = newP (blkAt m c t) := by dsimp only [dats]
theorem after0_18 (c : Dev nD) (t : Fin cfg0.N) : (dats m 0 c).after 18 t = iblk m c 0 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

end Cert.KernelIdeal.Body

end
-- ==== Proof.Val.Spec.lean ====
import proofs.«150005_j6536940224802_1_alg».proof.Proof.Body.Data
import proofs.«150005_j6536940224802_1_alg».proof.Proof.Gen.ReferenceIdeal.Read

/-!
What the five result arrays must end holding, over the extended reals: the reference's own stage functions, applied to
the kernel program's argument arrays. The read-out is the reference's last stage (a product over all 2048 channels), the
new states its stages for `A'`, `B'` and `p'`, and the fifth result is the input itself.
-/

noncomputable section

namespace Cert.KernelIdeal.Val

open Cert.KernelIdeal Cert.KernelIdeal.Gen Cert.KernelIdeal.Body
open Idealize.ShloMosaic Idealize.ShloMosaic.TcCoe Idealize.SL.Sem

variable (m : (ℓ : Loc nD τ sig) → Buf (Elt Ideal) ℓ)

/-- The argument arrays on core `c`, by position. -/
abbrev a0 (c : Dev nD) : S8192x2048.Idx → EReal := m ((c : Thread nD τ).loc main_arg0)
abbrev a1 (c : Dev nD) : S8192x2048.Idx → EReal := m ((c : Thread nD τ).loc main_arg1)
abbrev a2 (c : Dev nD) : S8192x2048.Idx → EReal := m ((c : Thread nD τ).loc main_arg2)
abbrev a3 (c : Dev nD) : S8192x2048.Idx → EReal := m ((c : Thread nD τ).loc main_arg3)
abbrev a4 (c : Dev nD) : S8192x2048.Idx → EReal := m ((c : Thread nD τ).loc main_arg4)
abbrev a5 (c : Dev nD) : S2048.Idx → EReal := m ((c : Thread nD τ).loc main_arg5)
abbrev a6 (c : Dev nD) : S2048.Idx → EReal := m ((c : Thread nD τ).loc main_arg6)
abbrev a7 (c : Dev nD) : S1x2048.Idx → EReal := m ((c : Thread nD τ).loc main_arg7)
abbrev a8 (c : Dev nD) : S1x2048.Idx → EReal := m ((c : Thread nD τ).loc main_arg8)
abbrev a9 (c : Dev nD) : S1x2048.Idx → EReal := m ((c : Thread nD τ).loc main_arg9)
abbrev a10 (c : Dev nD) : S2048x2048.Idx → EReal := m ((c : Thread nD τ).loc main_arg10)
abbrev a11 (c : Dev nD) : S2048x2048.Idx → EReal := m ((c : Thread nD τ).loc main_arg11)
abbrev a12 (c : Dev nD) : S2048x2048.Idx → EReal := m ((c : Thread nD τ).loc main_arg12)
abbrev a13 (c : Dev nD) : S2048x2048.Idx → EReal := m ((c : Thread nD τ).loc main_arg13)

open Cert.ReferenceIdeal.Read in
/-- The key, as the reference forms it: the key-mixed input times the transposed key weight. -/
def GK (c : Dev nD) : S8192x2048.Idx → EReal := val_main_v22 (F := Ideal) (a0 m c) (a4 m c) (a7 m c) (a10 m c)
open Cert.ReferenceIdeal.Read in
/-- The value, as the reference forms it. -/
def GV (c : Dev nD) : S8192x2048.Idx → EReal := val_main_v24 (F := Ideal) (a0 m c) (a4 m c) (a8 m c) (a11 m c)
open Cert.ReferenceIdeal.Read in
/-- The receptance before its clipping, as the reference forms it. -/
def GRpre (c : Dev nD) : S8192x2048.Idx → EReal := val_main_v26 (F := Ideal) (a0 m c) (a4 m c) (a9 m c) (a12 m c)
open Cert.ReferenceIdeal.Read in
/-- The read-out before the output weight, `r·a/b`, as the reference forms it. -/
def GO (c : Dev nD) : S8192x2048.Idx → EReal :=
  val_main_v61 (F := Ideal) (a0 m c) (a1 m c) (a2 m c) (a3 m c) (a4 m c) (a6 m c) (a7 m c) (a8 m c) (a9 m c) (a10 m c) (a11 m c) (a12 m c)
open Cert.ReferenceIdeal.Read in
/-- The transposed output weight, as the reference forms it. -/
def GWo (c : Dev nD) : S2048x2048.Idx → EReal := val_main_v62 (F := Ideal) (a13 m c)
open Cert.ReferenceIdeal.Read in
/-- The read-out: `r·a/b` times the transposed output weight. -/
def GR (c : Dev nD) : S8192x2048.Idx → EReal :=
  val_main_v63 (F := Ideal) (a0 m c) (a1 m c) (a2 m c) (a3 m c) (a4 m c) (a6 m c) (a7 m c) (a8 m c) (a9 m c) (a10 m c) (a11 m c) (a12 m c) (a13 m c)
open Cert.ReferenceIdeal.Read in
/-- The new numerator state. -/
def GA (c : Dev nD) : S8192x2048.Idx → EReal :=
  val_main_v57 (F := Ideal) (a0 m c) (a1 m c) (a3 m c) (a4 m c) (a5 m c) (a7 m c) (a8 m c) (a10 m c) (a11 m c)
open Cert.ReferenceIdeal.Read in
/-- The new denominator state. -/
def GB (c : Dev nD) : S8192x2048.Idx → EReal :=
  val_main_v59 (F := Ideal) (a0 m c) (a2 m c) (a3 m c) (a4 m c) (a5 m c) (a7 m c) (a10 m c)
open Cert.ReferenceIdeal.Read in
/-- The new running exponent. -/
def GP (c : Dev nD) : S8192x2048.Idx → EReal :=
  val_main_v50 (F := Ideal) (a0 m c) (a3 m c) (a4 m c) (a5 m c) (a7 m c) (a10 m c)

/-- The grid has 512 points. -/
theorem N_eq : cfg0.N = 512 := N_0

/-- Channel `k` of the 256-channel piece that point `t` works on: piece `t % 8`. -/
def chan (t : Fin cfg0.N) (k : Fin 256) : Fin 2048 := ⟨256 * (t.val % 8) + k.val, by omega⟩

/-- Row `p` of the 128-row slab that point `t` works on: slab `t / 8`. -/
def row (t : Fin cfg0.N) (p : Fin 128) : Fin 8192 := ⟨128 * (t.val / 8) + p.val, by have h : t.val < 512 := lt_of_lt_of_eq t.isLt N_eq; omega⟩

/-- The receptance tile of a point before the division by six, the shift and the clipping. -/
def rpreT (b : Blk Ideal) : FVec Ideal S128x256 .f32 :=
  matmul dot_S128x2048_S2048x256_S128x256_1_0_0_1_n_n none
    (truncf .bf16 (k0_pay5 b.x b.sx b.mixR) bitsLt_bf16_f32 : FVec Ideal S128x2048 .bf16)
    (shapeCast S2048x256 b.wr shapeCasts_S2048x256_S2048x256 : FVec Ideal S2048x256 .bf16)
    (constant S128x256 .f32 0x00000000#32)

/-- The read-out tile of a point, `r·a/b`: what the body multiplies by the output panel. -/
def outT (b : Blk Ideal) : FVec Ideal S128x256 .f32 :=
  divf (mulf (rT b)
      (k0_pay15 (kT b) (k0_pay7 b.x b.sx b.mixV) (k0_pay8 b.wv) (constant S128x256 .f32 0x00000000#32) b.tf b.sA b.sp))
    (k0_pay16 (kT b) b.tf b.sB b.sp)

end Cert.KernelIdeal.Val

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.Val.TilesK.lean ====
import proofs.«150005_j6536940224802_1_alg».proof.Proof.Val.Spec
import proofs.«150005_j6536940224802_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
The three products of a point, and the blocks they are made of, read entry by entry: the key, value and receptance
tiles of a point are the tiles of the reference's whole products, because a slab of a mixed input is the mix of the
slabs, and a column panel of a transposed weight holds the matching columns.

A point `t` works on rows `128·(t / 8) + p` (its slab) and channels `256·(t % 8) + q` (its piece). Each of the three
products is, at `(p, q)`, the sum over the 2048 input channels `k` of the mixed input
`x·μ + sx·(1 − μ)` at `(row, k)` times the weight at `(channel, k)`: on the kernel's side the weight's transpose is
formed before the call and the point loads the panel of its columns; on the reference's side the transpose is an
operand of the whole product.
-/

set_option maxRecDepth 16384

noncomputable section

namespace Cert.KernelIdeal.Val

open Cert.KernelIdeal Cert.KernelIdeal.Gen Cert.KernelIdeal.Body
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! ## Where the blocks sit -/

/-- Where each window's block sits at point `t`, decided once over the grid: slab `t / 8`, piece `t % 8`. -/
theorem idx_facts : ∀ t : Fin cfg0.N,
    (win0_0.index t (0 : Fin 2) = t.val / 8 ∧ win0_0.index t (1 : Fin 2) = 0) ∧
    (win0_1.index t (0 : Fin 2) = t.val / 8 ∧ win0_1.index t (1 : Fin 2) = 0) ∧
    (win0_5.index t (0 : Fin 2) = 0 ∧ win0_5.index t (1 : Fin 2) = 0) ∧
    (win0_6.index t (0 : Fin 2) = 0 ∧ win0_6.index t (1 : Fin 2) = 0) ∧
    (win0_7.index t (0 : Fin 2) = 0 ∧ win0_7.index t (1 : Fin 2) = 0) ∧
    (win0_10.index t (0 : Fin 2) = 0 ∧ win0_10.index t (1 : Fin 2) = t.val % 8) ∧
    (win0_11.index t (0 : Fin 2) = 0 ∧ win0_11.index t (1 : Fin 2) = t.val % 8) ∧
    (win0_12.index t (0 : Fin 2) = 0 ∧ win0_12.index t (1 : Fin 2) = t.val % 8) ∧
    (win0_13.index t (0 : Fin 2) = t.val % 8 ∧ win0_13.index t (1 : Fin 2) = 0) ∧
    (win0_15.index t (0 : Fin 2) = t.val / 8 ∧ win0_15.index t (1 : Fin 2) = t.val % 8) ∧
    (win0_18.index t (0 : Fin 2) = t.val / 8 ∧ win0_18.index t (1 : Fin 2) = 0) :=
  (by decide +kernel : ∀ t : Fin grid0.N, _)

/-- The position the fifth result's block gives entry `(p, k)` of a slab: row `p` of the point's slab, column `k`. -/
theorem emb18 (t : Fin cfg0.N) (p : Fin 128) (k : Fin 2048) :
    ((cfg0.win 18).blk t).view.emb (ix2 p k) = ix2 (row t p) k := by
  obtain ⟨-, -, -, -, -, -, -, -, -, -, h0, h1⟩ := idx_facts t
  funext a
  refine Fin.ext ?_
  match a with
  | ⟨0, _⟩ =>
    show win0_18.index t (0 : Fin 2) * 128 + 1 * p.val = 128 * (t.val / 8) + p.val
    rw [h0]; omega
  | ⟨1, _⟩ =>
    show win0_18.index t (1 : Fin 2) * 2048 + 1 * k.val = k.val
    rw [h1]; omega

/-- The position a state tile's block gives entry `(p, q)`: row `p` of the point's slab, channel `q` of its piece. -/
theorem emb15 (t : Fin cfg0.N) (p : Fin 128) (q : Fin 256) :
    ((cfg0.win 15).blk t).view.emb (ix2 p q) = ix2 (row t p) (chan t q) := by
  obtain ⟨-, -, -, -, -, -, -, -, -, ⟨h0, h1⟩, -⟩ := idx_facts t
  funext a
  refine Fin.ext ?_
  match a with
  | ⟨0, _⟩ =>
    show win0_15.index t (0 : Fin 2) * 128 + 1 * p.val = 128 * (t.val / 8) + p.val
    rw [h0]; omega
  | ⟨1, _⟩ =>
    show win0_15.index t (1 : Fin 2) * 256 + 1 * q.val = 256 * (t.val % 8) + q.val
    rw [h1]; omega

/-! ## The blocks a point loads, entry by entry -/

/-- Entry `(p, k)` of the slab of the input a point loads is the input at row `p` of the point's slab. -/
theorem slabX_at (c : Dev nD) (t : Fin cfg0.N) (p : Fin 128) (k : Fin 2048) :
    iblk m c 0 t (ix2 p k) = a0 m c (ix2 (row t p) k) := by
  obtain ⟨⟨h0, h1⟩, -⟩ := idx_facts t
  show V m c main_arg0 (((cfg0.win 0).blk t).view.emb (ix2 p k)) = _
  rw [V_main_arg0]
  refine congrArg (a0 m c) ?_
  funext a
  refine Fin.ext ?_
  match a with
  | ⟨0, _⟩ =>
    show win0_0.index t (0 : Fin 2) * 128 + 1 * p.val = 128 * (t.val / 8) + p.val
    rw [h0]; omega
  | ⟨1, _⟩ =>
    show win0_0.index t (1 : Fin 2) * 2048 + 1 * k.val = k.val
    rw [h1]; omega

/-- The same for the slab of the previous token. -/
theorem slabSX_at (c : Dev nD) (t : Fin cfg0.N) (p : Fin 128) (k : Fin 2048) :
    iblk m c 1 t (ix2 p k) = a4 m c (ix2 (row t p) k) := by
  obtain ⟨-, ⟨h0, h1⟩, -⟩ := idx_facts t
  show V m c main_arg4 (((cfg0.win 1).blk t).view.emb (ix2 p k)) = _
  rw [V_main_arg4]
  refine congrArg (a4 m c) ?_
  funext a
  refine Fin.ext ?_
  match a with
  | ⟨0, _⟩ =>
    show win0_1.index t (0 : Fin 2) * 128 + 1 * p.val = 128 * (t.val / 8) + p.val
    rw [h0]; omega
  | ⟨1, _⟩ =>
    show win0_1.index t (1 : Fin 2) * 2048 + 1 * k.val = k.val
    rw [h1]; omega

/-- The key's mixing row as a point loads it is the whole mixing row. -/
theorem mixK_at (c : Dev nD) (t : Fin cfg0.N) (k : Fin 2048) :
    iblk m c 5 t (ix2 (0 : Fin 1) k) = a7 m c (ix2 (0 : Fin 1) k) := by
  obtain ⟨-, -, ⟨h0, h1⟩, -⟩ := idx_facts t
  show V m c main_arg7 (((cfg0.win 5).blk t).view.emb (ix2 (0 : Fin 1) k)) = _
  rw [V_main_arg7]
  refine congrArg (a7 m c) ?_
  funext a
  refine Fin.ext ?_
  match a with
  | ⟨0, _⟩ =>
    show win0_5.index t (0 : Fin 2) * 1 + 1 * 0 = 0
    rw [h0]
  | ⟨1, _⟩ =>
    show win0_5.index t (1 : Fin 2) * 2048 + 1 * k.val = k.val
    rw [h1]; omega

/-- The value's mixing row. -/
theorem mixV_at (c : Dev nD) (t : Fin cfg0.N) (k : Fin 2048) :
    iblk m c 6 t (ix2 (0 : Fin 1) k) = a8 m c (ix2 (0 : Fin 1) k) := by
  obtain ⟨-, -, -, ⟨h0, h1⟩, -⟩ := idx_facts t
  show V m c main_arg8 (((cfg0.win 6).blk t).view.emb (ix2 (0 : Fin 1) k)) = _
  rw [V_main_arg8]
  refine congrArg (a8 m c) ?_
  funext a
  refine Fin.ext ?_
  match a with
  | ⟨0, _⟩ =>
    show win0_6.index t (0 : Fin 2) * 1 + 1 * 0 = 0
    rw [h0]
  | ⟨1, _⟩ =>
    show win0_6.index t (1 : Fin 2) * 2048 + 1 * k.val = k.val
    rw [h1]; omega

/-- The receptance's mixing row. -/
theorem mixR_at (c : Dev nD) (t : Fin cfg0.N) (k : Fin 2048) :
    iblk m c 7 t (ix2 (0 : Fin 1) k) = a9 m c (ix2 (0 : Fin 1) k) := by
  obtain ⟨-, -, -, -, ⟨h0, h1⟩, -⟩ := idx_facts t
  show V m c main_arg9 (((cfg0.win 7).blk t).view.emb (ix2 (0 : Fin 1) k)) = _
  rw [V_main_arg9]
  refine congrArg (a9 m c) ?_
  funext a
  refine Fin.ext ?_
  match a with
  | ⟨0, _⟩ =>
    show win0_7.index t (0 : Fin 2) * 1 + 1 * 0 = 0
    rw [h0]
  | ⟨1, _⟩ =>
    show win0_7.index t (1 : Fin 2) * 2048 + 1 * k.val = k.val
    rw [h1]; omega

/-! ## The transposed weights as the call finds them -/

/-- The transposed key weight as the call finds it: the conversion of the transpose of the key weight. -/
theorem V_wk (c : Dev nD) :
    @Eq (S2048x2048.Idx → EReal) (V m c main_v3)
      (truncf (F := Ideal) .bf16 (transpose S2048x2048 [1, 0] (a10 m c) transposes_S2048x2048_S2048x2048_1_0 : FVec Ideal S2048x2048 .f32) bitsLt_bf16_f32) := by
  dsimp only [Gen.V, Gen.hostOps0]; after_results

/-- The transposed value weight. -/
theorem V_wv (c : Dev nD) :
    @Eq (S2048x2048.Idx → EReal) (V m c main_v5)
      (truncf (F := Ideal) .bf16 (transpose S2048x2048 [1, 0] (a11 m c) transposes_S2048x2048_S2048x2048_1_0 : FVec Ideal S2048x2048 .f32) bitsLt_bf16_f32) := by
  dsimp only [Gen.V, Gen.hostOps0]; after_results

/-- The transposed receptance weight. -/
theorem V_wr (c : Dev nD) :
    @Eq (S2048x2048.Idx → EReal) (V m c main_v7)
      (truncf (F := Ideal) .bf16 (transpose S2048x2048 [1, 0] (a12 m c) transposes_S2048x2048_S2048x2048_1_0 : FVec Ideal S2048x2048 .f32) bitsLt_bf16_f32) := by
  dsimp only [Gen.V, Gen.hostOps0]; after_results

/-- The transposed output weight. -/
theorem V_wo (c : Dev nD) :
    @Eq (S2048x2048.Idx → EReal) (V m c main_v9)
      (truncf (F := Ideal) .bf16 (transpose S2048x2048 [1, 0] (a13 m c) transposes_S2048x2048_S2048x2048_1_0 : FVec Ideal S2048x2048 .f32) bitsLt_bf16_f32) := by
  dsimp only [Gen.V, Gen.hostOps0]; after_results

/-- Entry `(k, q)` of a column panel sits at `(k, channel q of the point's piece)` of its array. -/
theorem embPanel (t : Fin cfg0.N) (i0 i1 : ℕ) (h0 : i0 = 0) (h1 : i1 = t.val % 8) (k : Fin 2048) (q : Fin 256) :
    i0 * 2048 + 1 * k.val = k.val ∧ i1 * 256 + 1 * q.val = 256 * (t.val % 8) + q.val := by
  subst h0 h1; constructor <;> omega

/-- Entry `(k, q)` of the key panel a point loads is the key weight at `(channel q of the point's piece, k)`. -/
theorem panelK_at (c : Dev nD) (t : Fin cfg0.N) (k : Fin 2048) (q : Fin 256) :
    iblk m c 10 t (ix2 k q) = a10 m c (ix2 (chan t q) k) := by
  obtain ⟨-, -, -, -, -, ⟨h0, h1⟩, -⟩ := idx_facts t
  show (V m c main_v3 : S2048x2048.Idx → EReal) (((cfg0.win 10).blk t).view.emb (ix2 k q)) = _
  have e : ((cfg0.win 10).blk t).view.emb (ix2 k q) = ix2 k (chan t q) := by
    funext a
    refine Fin.ext ?_
    match a with
    | ⟨0, _⟩ => exact (embPanel t _ _ h0 h1 k q).1
    | ⟨1, _⟩ => exact (embPanel t _ _ h0 h1 k q).2
  rw [e, V_wk, truncf_apply]
  exact transpose_ix2_apply (a10 m c) transposes_S2048x2048_S2048x2048_1_0 k (chan t q)

/-- The same for the value panel. -/
theorem panelV_at (c : Dev nD) (t : Fin cfg0.N) (k : Fin 2048) (q : Fin 256) :
    iblk m c 11 t (ix2 k q) = a11 m c (ix2 (chan t q) k) := by
  obtain ⟨-, -, -, -, -, -, ⟨h0, h1⟩, -⟩ := idx_facts t
  show (V m c main_v5 : S2048x2048.Idx → EReal) (((cfg0.win 11).blk t).view.emb (ix2 k q)) = _
  have e : ((cfg0.win 11).blk t).view.emb (ix2 k q) = ix2 k (chan t q) := by
    funext a
    refine Fin.ext ?_
    match a with
    | ⟨0, _⟩ => exact (embPanel t _ _ h0 h1 k q).1
    | ⟨1, _⟩ => exact (embPanel t _ _ h0 h1 k q).2
  rw [e, V_wv, truncf_apply]
  exact transpose_ix2_apply (a11 m c) transposes_S2048x2048_S2048x2048_1_0 k (chan t q)

/-- The same for the receptance panel. -/
theorem panelR_at (c : Dev nD) (t : Fin cfg0.N) (k : Fin 2048) (q : Fin 256) :
    iblk m c 12 t (ix2 k q) = a12 m c (ix2 (chan t q) k) := by
  obtain ⟨-, -, -, -, -, -, -, ⟨h0, h1⟩, -⟩ := idx_facts t
  show (V m c main_v7 : S2048x2048.Idx → EReal) (((cfg0.win 12).blk t).view.emb (ix2 k q)) = _
  have e : ((cfg0.win 12).blk t).view.emb (ix2 k q) = ix2 k (chan t q) := by
    funext a
    refine Fin.ext ?_
    match a with
    | ⟨0, _⟩ => exact (embPanel t _ _ h0 h1 k q).1
    | ⟨1, _⟩ => exact (embPanel t _ _ h0 h1 k q).2
  rw [e, V_wr, truncf_apply]
  exact transpose_ix2_apply (a12 m c) transposes_S2048x2048_S2048x2048_1_0 k (chan t q)

/-! ## One product of a point -/

/-- One product of a point: the mixed slab (`x·μ + sx·(1 − μ)`, the mixing row `μ` down the rows) times a weight panel,
    summed from zero. -/
def prodT (x sx : Vec Ideal S128x2048 .f32) (mr : Vec Ideal S1x2048 .f32) (w : Vec Ideal S2048x256 .bf16) :
    FVec Ideal S128x256 .f32 :=
  matmul dot_S128x2048_S2048x256_S128x256_1_0_0_1_n_n none
    (truncf .bf16 (k0_pay5 x sx mr) bitsLt_bf16_f32 : FVec Ideal S128x2048 .bf16)
    (shapeCast S2048x256 w shapeCasts_S2048x256_S2048x256 : FVec Ideal S2048x256 .bf16)
    (constant S128x256 .f32 0x00000000#32)

/-- The key, the value and the receptance before its clipping are this one product, each at its own mixing row and panel. -/
theorem kT_eq (b : Blk Ideal) : kT b = prodT b.x b.sx b.mixK b.wk := rfl
theorem vT_eq (b : Blk Ideal) : vT b = prodT b.x b.sx b.mixV b.wv := rfl
theorem rpreT_eq (b : Blk Ideal) : rpreT b = prodT b.x b.sx b.mixR b.wr := rfl

/-- The tile product contracts the left operand's columns against the right operand's rows, with no batch axis. -/
theorem plain_tile : PlainDot.IsPlain dot_S128x2048_S2048x256_S128x256_1_0_0_1_n_n := ⟨rfl, rfl, rfl, rfl, rfl, rfl⟩

/-- A tile product from zero, read at `(p, q)`: the sum over the 2048 channels. -/
theorem matmul_tile_apply (L : FVec Ideal S128x2048 .bf16) (R : FVec Ideal S2048x256 .bf16) (p : Fin 128) (q : Fin 256) :
    matmul dot_S128x2048_S2048x256_S128x256_1_0_0_1_n_n none L R (constant (F := Ideal) S128x256 .f32 0x00000000#32) (ix2 p q)
      = ∑ k : Fin 2048, L (ix2 p k) * R (ix2 k q) :=
  (Ideal.matmul_constant_zero_apply dot_S128x2048_S2048x256_S128x256_1_0_0_1_n_n none L R (ix2 p q)).trans
    (PlainDot.sum_contr plain_tile L R p q)

/-- The mixed slab at `(p, k)`. -/
theorem mix_at (x sx : Vec Ideal S128x2048 .f32) (mr : Vec Ideal S1x2048 .f32) (p : Fin 128) (k : Fin 2048) :
    k0_pay5 x sx mr (ix2 p k)
      = x (ix2 p k) * mr (ix2 (0 : Fin 1) k)
        + sx (ix2 p k) * (Ideal.ofBits .f32 0x3F800000#32 - mr (ix2 (0 : Fin 1) k)) := by
  show x (ix2 p k) * broadcastTo S128x2048 mr broadcasts_S1x2048_S128x2048 (ix2 p k)
      + sx (ix2 p k) * broadcastTo S128x2048 (subf (broadcast S1x2048 (Scalar.ofBits (F := Ideal) .f32 0x3F800000#32)) mr)
          broadcasts_S1x2048_S128x2048 (ix2 p k) = _
  rw [broadcastTo_1b_ab_apply, broadcastTo_1b_ab_apply]
  rfl

/-- The product at `(p, q)`: the sum over the channels of the mixed slab times the panel. -/
theorem prodT_apply (x sx : Vec Ideal S128x2048 .f32) (mr : Vec Ideal S1x2048 .f32) (w : Vec Ideal S2048x256 .bf16)
    (p : Fin 128) (q : Fin 256) :
    prodT x sx mr w (ix2 p q)
      = ∑ k : Fin 2048, (x (ix2 p k) * mr (ix2 (0 : Fin 1) k)
          + sx (ix2 p k) * (Ideal.ofBits .f32 0x3F800000#32 - mr (ix2 (0 : Fin 1) k))) * w (ix2 k q) := by
  refine (matmul_tile_apply _ _ p q).trans (Finset.sum_congr rfl fun k _ => ?_)
  rw [truncf_apply, shapeCast_self, mix_at]

/-- The product of a point whose mixing row and panel are pieces of whole arrays `MR` and `W`: at `(p, q)` the sum over
    the channels of the mixed input at the point's row times the weight at the point's channel. -/
theorem prodT_point (c : Dev nD) (t : Fin cfg0.N) (mr : Vec Ideal S1x2048 .f32) (w : Vec Ideal S2048x256 .bf16)
    (MR : S1x2048.Idx → EReal) (W : S2048x2048.Idx → EReal)
    (hmr : ∀ k : Fin 2048, mr (ix2 (0 : Fin 1) k) = MR (ix2 (0 : Fin 1) k))
    (hw : ∀ (k : Fin 2048) (q : Fin 256), w (ix2 k q) = W (ix2 (chan t q) k)) (p : Fin 128) (q : Fin 256) :
    prodT (iblk m c 0 t) (iblk m c 1 t) mr w (ix2 p q)
      = ∑ k : Fin 2048, (a0 m c (ix2 (row t p) k) * MR (ix2 (0 : Fin 1) k)
          + a4 m c (ix2 (row t p) k) * (Ideal.ofBits .f32 0x3F800000#32 - MR (ix2 (0 : Fin 1) k))) * W (ix2 (chan t q) k) := by
  refine (prodT_apply (iblk m c 0 t) (iblk m c 1 t) mr w p q).trans (Finset.sum_congr rfl fun k _ => ?_)
  rw [slabX_at, slabSX_at, hmr, hw]

/-! ## The reference's products, entry by entry -/

open Cert.ReferenceIdeal.Read in
/-- The reference's key at `(r, ch)`. -/
theorem refK_apply (X SX : S8192x2048.Idx → EReal) (MR : S1x2048.Idx → EReal) (W : S2048x2048.Idx → EReal)
    (r : Fin 8192) (ch : Fin 2048) :
    val_main_v22 (F := Ideal) X SX MR W (ix2 r ch)
      = ∑ k : Fin 2048, (X (ix2 r k) * MR (ix2 (0 : Fin 1) k)
          + SX (ix2 r k) * (Ideal.ofBits .f32 0x3F800000#32 - MR (ix2 (0 : Fin 1) k))) * W (ix2 ch k) := by
  rw [val_main_v22_apply]
  refine Finset.sum_congr rfl fun k _ => ?_
  have e1 : lidx_main_v22 (ix2 r ch) k = ix2 r k :=
    funext fun a => Fin.ext (by match a with | ⟨0, _⟩ => rfl | ⟨1, _⟩ => rfl)
  have e2 : ridx_main_v22 (ix2 r ch) k = ix2 k ch :=
    funext fun a => Fin.ext (by match a with | ⟨0, _⟩ => rfl | ⟨1, _⟩ => rfl)
  have e3 : idx_main_v0 (ix2 r k) = ix2 (0 : Fin 1) k :=
    funext fun a => Fin.ext (by match a with | ⟨0, _⟩ => rfl | ⟨1, _⟩ => rfl)
  have e4 : idx_main_v4 (ix2 r k) = ix2 (0 : Fin 1) k :=
    funext fun a => Fin.ext (by match a with | ⟨0, _⟩ => rfl | ⟨1, _⟩ => rfl)
  have e5 : idx_main_v21 (ix2 k ch) = ix2 ch k :=
    funext fun a => Fin.ext (by match a with | ⟨0, _⟩ => rfl | ⟨1, _⟩ => rfl)
  rw [e1, e2, val_main_v6_apply, val_main_v1_apply, val_main_v0_apply, val_main_v5_apply, val_main_v4_apply,
    val_main_v3_apply, val_main_v2_apply, val_main_cst_apply, val_main_v21_apply, e3, e4, e5]
  rfl

open Cert.ReferenceIdeal.Read in
/-- The reference's value at `(r, ch)`. -/
theorem refV_apply (X SX : S8192x2048.Idx → EReal) (MR : S1x2048.Idx → EReal) (W : S2048x2048.Idx → EReal)
    (r : Fin 8192) (ch : Fin 2048) :
    val_main_v24 (F := Ideal) X SX MR W (ix2 r ch)
      = ∑ k : Fin 2048, (X (ix2 r k) * MR (ix2 (0 : Fin 1) k)
          + SX (ix2 r k) * (Ideal.ofBits .f32 0x3F800000#32 - MR (ix2 (0 : Fin 1) k))) * W (ix2 ch k) := by
  rw [val_main_v24_apply]
  refine Finset.sum_congr rfl fun k _ => ?_
  have e1 : lidx_main_v24 (ix2 r ch) k = ix2 r k :=
    funext fun a => Fin.ext (by match a with | ⟨0, _⟩ => rfl | ⟨1, _⟩ => rfl)
  have e2 : ridx_main_v24 (ix2 r ch) k = ix2 k ch :=
    funext fun a => Fin.ext (by match a with | ⟨0, _⟩ => rfl | ⟨1, _⟩ => rfl)
  have e3 : idx_main_v7 (ix2 r k) = ix2 (0 : Fin 1) k :=
    funext fun a => Fin.ext (by match a with | ⟨0, _⟩ => rfl | ⟨1, _⟩ => rfl)
  have e4 : idx_main_v11 (ix2 r k) = ix2 (0 : Fin 1) k :=
    funext fun a => Fin.ext (by match a with | ⟨0, _⟩ => rfl | ⟨1, _⟩ => rfl)
  have e5 : idx_main_v23 (ix2 k ch) = ix2 ch k :=
    funext fun a => Fin.ext (by match a with | ⟨0, _⟩ => rfl | ⟨1, _⟩ => rfl)
  rw [e1, e2, val_main_v13_apply, val_main_v8_apply, val_main_v7_apply, val_main_v12_apply, val_main_v11_apply,
    val_main_v10_apply, val_main_v9_apply, val_main_cst_0_apply, val_main_v23_apply, e3, e4, e5]
  rfl

open Cert.ReferenceIdeal.Read in
/-- The reference's receptance before its clipping at `(r, ch)`. -/
theorem refR_apply (X SX : S8192x2048.Idx → EReal) (MR : S1x2048.Idx → EReal) (W : S2048x2048.Idx → EReal)
    (r : Fin 8192) (ch : Fin 2048) :
    val_main_v26 (F := Ideal) X SX MR W (ix2 r ch)
      = ∑ k : Fin 2048, (X (ix2 r k) * MR (ix2 (0 : Fin 1) k)
          + SX (ix2 r k) * (Ideal.ofBits .f32 0x3F800000#32 - MR (ix2 (0 : Fin 1) k))) * W (ix2 ch k) := by
  rw [val_main_v26_apply]
  refine Finset.sum_congr rfl fun k _ => ?_
  have e1 : lidx_main_v26 (ix2 r ch) k = ix2 r k :=
    funext fun a => Fin.ext (by match a with | ⟨0, _⟩ => rfl | ⟨1, _⟩ => rfl)
  have e2 : ridx_main_v26 (ix2 r ch) k = ix2 k ch :=
    funext fun a => Fin.ext (by match a with | ⟨0, _⟩ => rfl | ⟨1, _⟩ => rfl)
  have e3 : idx_main_v14 (ix2 r k) = ix2 (0 : Fin 1) k :=
    funext fun a => Fin.ext (by match a with | ⟨0, _⟩ => rfl | ⟨1, _⟩ => rfl)
  have e4 : idx_main_v18 (ix2 r k) = ix2 (0 : Fin 1) k :=
    funext fun a => Fin.ext (by match a with | ⟨0, _⟩ => rfl | ⟨1, _⟩ => rfl)
  have e5 : idx_main_v25 (ix2 k ch) = ix2 ch k :=
    funext fun a => Fin.ext (by match a with | ⟨0, _⟩ => rfl | ⟨1, _⟩ => rfl)
  rw [e1, e2, val_main_v20_apply, val_main_v15_apply, val_main_v14_apply, val_main_v19_apply, val_main_v18_apply,
    val_main_v17_apply, val_main_v16_apply, val_main_cst_1_apply, val_main_v25_apply, e3, e4, e5]
  rfl

/-! ## The tiles of a point -/

/-- The slab of the input that a point loads is rows of the input: entry `j` of the slab is the input at the position
    the fifth result's block puts `j`. -/
theorem slabX_apply (c : Dev nD) (t : Fin cfg0.N) (j : S128x2048.Idx) :
    iblk m c 0 t j = a0 m c (((cfg0.win 18).blk t).view.emb j) := by
  obtain ⟨p, k, rfl⟩ : ∃ (p : Fin 128) (k : Fin 2048), j = ix2 p k := ⟨j 0, j 1, eq_ix2 j⟩
  rw [emb18]
  exact slabX_at m c t p k

/-- The key tile of a point is the tile of the reference's key. -/
theorem tileK_apply (c : Dev nD) (t : Fin cfg0.N) (j : S128x256.Idx) :
    kT (blkAt m c t) j = GK m c (((cfg0.win 15).blk t).view.emb j) := by
  obtain ⟨p, q, rfl⟩ : ∃ (p : Fin 128) (q : Fin 256), j = ix2 p q := ⟨j 0, j 1, eq_ix2 j⟩
  rw [emb15]
  unfold GK
  rw [refK_apply]
  exact prodT_point m c t (iblk m c 5 t) (iblk m c 10 t) (a7 m c) (a10 m c) (mixK_at m c t) (panelK_at m c t) p q

/-- The value tile of a point is the tile of the reference's value. -/
theorem tileV_apply (c : Dev nD) (t : Fin cfg0.N) (j : S128x256.Idx) :
    vT (blkAt m c t) j = GV m c (((cfg0.win 15).blk t).view.emb j) := by
  obtain ⟨p, q, rfl⟩ : ∃ (p : Fin 128) (q : Fin 256), j = ix2 p q := ⟨j 0, j 1, eq_ix2 j⟩
  rw [emb15]
  unfold GV
  rw [refV_apply]
  exact prodT_point m c t (iblk m c 6 t) (iblk m c 11 t) (a8 m c) (a11 m c) (mixV_at m c t) (panelV_at m c t) p q

/-- The receptance tile of a point, before the division by six, the shift and the clipping, is the tile of the
    reference's product. -/
theorem tileRpre_apply (c : Dev nD) (t : Fin cfg0.N) (j : S128x256.Idx) :
    rpreT (blkAt m c t) j
      = GRpre m c (((cfg0.win 15).blk t).view.emb j) := by
  obtain ⟨p, q, rfl⟩ : ∃ (p : Fin 128) (q : Fin 256), j = ix2 p q := ⟨j 0, j 1, eq_ix2 j⟩
  rw [emb15]
  unfold GRpre
  rw [refR_apply]
  exact prodT_point m c t (iblk m c 7 t) (iblk m c 12 t) (a9 m c) (a12 m c) (mixR_at m c t) (panelR_at m c t) p q

/-- The output panel of a point holds rows `256·(t % 8) …` of the reference's transposed output weight. -/
theorem panelWo_apply (c : Dev nD) (t : Fin cfg0.N) (k : Fin 256) (q : Fin 2048) :
    (blkAt m c t).wo (ValueIdx.ix2 k q) = GWo m c (ValueIdx.ix2 (chan t k) q) := by
  obtain ⟨-, -, -, -, -, -, -, -, ⟨h0, h1⟩, -⟩ := idx_facts t
  show (V m c main_v9 : S2048x2048.Idx → EReal) (((cfg0.win 13).blk t).view.emb (ix2 k q)) = _
  have e : ((cfg0.win 13).blk t).view.emb (ix2 k q) = ix2 (chan t k) q := by
    funext a
    refine Fin.ext ?_
    match a with
    | ⟨0, _⟩ =>
      show win0_13.index t (0 : Fin 2) * 256 + 1 * k.val = 256 * (t.val % 8) + k.val
      rw [h0]; omega
    | ⟨1, _⟩ =>
      show win0_13.index t (1 : Fin 2) * 2048 + 1 * q.val = q.val
      rw [h1]; omega
  rw [e, V_wo, truncf_apply]
  rfl

end Cert.KernelIdeal.Val

end
-- ==== Proof.Val.TilesP.lean ====
import proofs.«150005_j6536940224802_1_alg».proof.Proof.Val.TilesK

/-!
The three state tiles and the read-out tile of a point are the tiles of the reference's stages: every step between the
products and these results acts entry by entry, on the point's own tile of each state and its own piece of the decay and
bonus rows.

Both sides are first read at one entry as the same function of seven extended reals (the key, the value, the receptance
product, the three old states and one entry of the decay or bonus row); the two then meet through the tiles of the
products and through the positions a point's blocks take in their arrays: block `(t / 8, t % 8)` of each state, piece
`t % 8` of each row.
-/

set_option maxRecDepth 16384

noncomputable section

namespace Cert.KernelIdeal.Val

open Cert.KernelIdeal Cert.KernelIdeal.Gen Cert.KernelIdeal.Body
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

namespace StateTiles

/-! ## One entry of each result, as a function of the entries it is made of -/

/-- The running exponent after the decay: `p - e^d`. -/
def wdec (P d : EReal) : EReal := P + -(Ideal.exp d)
/-- The new running exponent `max (p - e^d) k`. -/
def pNew (k P d : EReal) : EReal := max (wdec P d) k
/-- The new numerator state `e^{w - p'}·A + e^{k - p'}·v`, with `w = p - e^d` and `p' = max w k`. -/
def aNew (k v A P d : EReal) : EReal :=
  Ideal.exp (wdec P d - pNew k P d) * A + Ideal.exp (k - pNew k P d) * v
/-- The new denominator state `e^{w - p'}·B + e^{k - p'}`. -/
def bNew (k B P d : EReal) : EReal :=
  Ideal.exp (wdec P d - pNew k P d) * B + Ideal.exp (k - pNew k P d)
/-- The key with the bonus: `u + k`. -/
def wbon (k u : EReal) : EReal := u + k
/-- The read-out's exponent `max p (u + k)`. -/
def qOut (k P u : EReal) : EReal := max P (wbon k u)
/-- The read-out's numerator `e^{p - q}·A + e^{u + k - q}·v`. -/
def aOut (k v A P u : EReal) : EReal :=
  Ideal.exp (P - qOut k P u) * A + Ideal.exp (wbon k u - qOut k P u) * v
/-- The read-out's denominator `e^{p - q}·B + e^{u + k - q}`. -/
def bOut (k B P u : EReal) : EReal :=
  Ideal.exp (P - qOut k P u) * B + Ideal.exp (wbon k u - qOut k P u)
/-- The clipped receptance `min 1 (max 0 (x / 6 + 1/2))`, its four constants kept as the words both programs carry. -/
def clipR (x : EReal) : EReal :=
  min (Ideal.ofBits .f32 0x3F800000#32)
    (max (Ideal.ofBits .f32 0x00000000#32)
      (Ideal.div x (Ideal.ofBits .f32 0x40C00000#32) + Ideal.ofBits .f32 0x3F000000#32))
/-- The read-out tile's entry `r·a/b`. -/
def oOut (rp k v A B P u : EReal) : EReal :=
  Ideal.div (clipR rp * aOut k v A P u) (bOut k B P u)

/-! ## The point's side -/

/-- The decayed exponent at an entry: the decay piece is one row spread over the tile's 128 rows, and `0 - e^d` is
    `-e^d`. -/
theorem pay17_apply (td : Vec Ideal S1x256 .f32) (sp : Vec Ideal S128x256 .f32) (p : Fin 128) (q : Fin 256) :
    k0_pay17 td sp (ix2 p q) = wdec (sp (ix2 p q)) (td (ix2 (0 : Fin 1) q)) := by
  unfold k0_pay17 wdec
  rw [addf_apply, broadcastTo_1b_ab_apply, subf_apply, broadcast_apply, shapeCast_self]
  show sp (ix2 p q) + (Ideal.ofBits .f32 0x00000000#32 - Ideal.exp (td (ix2 (0 : Fin 1) q))) = _
  rw [Ideal.ofBits_zero_f32, zero_sub]

/-- The new running exponent's tile at an entry. -/
theorem newP_apply (b : Blk Ideal) (p : Fin 128) (q : Fin 256) :
    newP b (ix2 p q) = pNew (kT b (ix2 p q)) (b.sp (ix2 p q)) (b.td (ix2 (0 : Fin 1) q)) := by
  unfold newP k0_pay18 pNew
  rw [maximumf_apply, pay17_apply]

/-- The new numerator state's tile at an entry. -/
theorem newA_apply (b : Blk Ideal) (p : Fin 128) (q : Fin 256) :
    newA b (ix2 p q)
      = aNew (kT b (ix2 p q)) (vT b (ix2 p q)) (b.sA (ix2 p q)) (b.sp (ix2 p q)) (b.td (ix2 (0 : Fin 1) q)) := by
  unfold newA k0_pay1 k0_pay19 k0_pay20 k0_pay18 aNew pNew
  rw [addf_apply, mulf_apply, mulf_apply]
  show Ideal.exp (k0_pay17 b.td b.sp (ix2 p q) - max (k0_pay17 b.td b.sp (ix2 p q)) (kT b (ix2 p q))) * b.sA (ix2 p q)
      + Ideal.exp (kT b (ix2 p q) - max (k0_pay17 b.td b.sp (ix2 p q)) (kT b (ix2 p q))) * vT b (ix2 p q) = _
  rw [pay17_apply]

/-- The new denominator state's tile at an entry. -/
theorem newB_apply (b : Blk Ideal) (p : Fin 128) (q : Fin 256) :
    newB b (ix2 p q)
      = bNew (kT b (ix2 p q)) (b.sB (ix2 p q)) (b.sp (ix2 p q)) (b.td (ix2 (0 : Fin 1) q)) := by
  unfold newB k0_pay2 k0_pay19 k0_pay20 k0_pay18 bNew pNew
  rw [addf_apply, mulf_apply]
  show Ideal.exp (k0_pay17 b.td b.sp (ix2 p q) - max (k0_pay17 b.td b.sp (ix2 p q)) (kT b (ix2 p q))) * b.sB (ix2 p q)
      + Ideal.exp (kT b (ix2 p q) - max (k0_pay17 b.td b.sp (ix2 p q)) (kT b (ix2 p q))) = _
  rw [pay17_apply]

/-- The key with the bonus at an entry: the bonus piece is one row spread over the tile's 128 rows. -/
theorem pay11_apply (k : FVec Ideal S128x256 .f32) (tf : Vec Ideal S1x256 .f32) (p : Fin 128) (q : Fin 256) :
    k0_pay11 k tf (ix2 p q) = wbon (k (ix2 p q)) (tf (ix2 (0 : Fin 1) q)) := by
  unfold k0_pay11 wbon
  rw [addf_apply, broadcastTo_1b_ab_apply, shapeCast_self]

/-- The read-out's numerator at an entry. -/
theorem pay15_apply (k : FVec Ideal S128x256 .f32) (v33 : FVec Ideal S128x2048 .bf16) (v35 : FVec Ideal S2048x256 .bf16)
    (cst : FVec Ideal S128x256 .f32) (tf : Vec Ideal S1x256 .f32) (sA sp : Vec Ideal S128x256 .f32)
    (p : Fin 128) (q : Fin 256) :
    k0_pay15 k v33 v35 cst tf sA sp (ix2 p q)
      = aOut (k (ix2 p q)) (k0_pay9 v33 v35 cst (ix2 p q)) (sA (ix2 p q)) (sp (ix2 p q)) (tf (ix2 (0 : Fin 1) q)) := by
  unfold k0_pay15 k0_pay13 k0_pay14 k0_pay12 aOut qOut
  show Ideal.exp (sp (ix2 p q) - max (sp (ix2 p q)) (k0_pay11 k tf (ix2 p q))) * sA (ix2 p q)
      + Ideal.exp (k0_pay11 k tf (ix2 p q) - max (sp (ix2 p q)) (k0_pay11 k tf (ix2 p q)))
        * k0_pay9 v33 v35 cst (ix2 p q) = _
  rw [pay11_apply]

/-- The read-out's denominator at an entry. -/
theorem pay16_apply (k : FVec Ideal S128x256 .f32) (tf : Vec Ideal S1x256 .f32) (sB sp : Vec Ideal S128x256 .f32)
    (p : Fin 128) (q : Fin 256) :
    k0_pay16 k tf sB sp (ix2 p q)
      = bOut (k (ix2 p q)) (sB (ix2 p q)) (sp (ix2 p q)) (tf (ix2 (0 : Fin 1) q)) := by
  unfold k0_pay16 k0_pay13 k0_pay14 k0_pay12 bOut qOut
  show Ideal.exp (sp (ix2 p q) - max (sp (ix2 p q)) (k0_pay11 k tf (ix2 p q))) * sB (ix2 p q)
      + Ideal.exp (k0_pay11 k tf (ix2 p q) - max (sp (ix2 p q)) (k0_pay11 k tf (ix2 p q))) = _
  rw [pay11_apply]

/-- The receptance tile is the clipping of the product's tile, entry by entry. -/
theorem rT_apply (b : Blk Ideal) (j : S128x256.Idx) : rT b j = clipR (rpreT b j) := by
  unfold rT k0_pay10 clipR rpreT
  rfl

/-- The read-out tile at an entry. -/
theorem outT_apply (b : Blk Ideal) (p : Fin 128) (q : Fin 256) :
    outT b (ix2 p q)
      = oOut (rpreT b (ix2 p q)) (kT b (ix2 p q)) (vT b (ix2 p q)) (b.sA (ix2 p q)) (b.sB (ix2 p q))
          (b.sp (ix2 p q)) (b.tf (ix2 (0 : Fin 1) q)) := by
  unfold outT oOut
  rw [divf_apply, mulf_apply, pay15_apply, pay16_apply, rT_apply]
  rfl

/-! ## The reference's side -/

open Cert.ReferenceIdeal.Read in
/-- The decay row's entry under an entry `(r, s)` of the whole array is entry `s` of the decay. -/
theorem decayRow_idx (r : Fin 8192) (s : Fin 2048) : idx_main_v47 (idx_main_v48 (ix2 r s)) = ix1 s :=
  funext fun a => Fin.ext (by match a with | ⟨0, _⟩ => rfl)

open Cert.ReferenceIdeal.Read in
/-- The bonus row's entry under an entry `(r, s)` of the whole array is entry `s` of the bonus. -/
theorem bonusRow_idx (r : Fin 8192) (s : Fin 2048) : idx_main_v32 (idx_main_v33 (ix2 r s)) = ix1 s :=
  funext fun a => Fin.ext (by match a with | ⟨0, _⟩ => rfl)

open Cert.ReferenceIdeal.Read in
/-- The reference's new running exponent at an entry. -/
theorem GP_apply (c : Dev nD) (r : Fin 8192) (s : Fin 2048) :
    GP m c (ix2 r s) = pNew (GK m c (ix2 r s)) (a3 m c (ix2 r s)) (a5 m c (ix1 s)) := by
  unfold GP GK pNew wdec
  rw [val_main_v50_apply, val_main_v49_apply, val_main_v48_apply, val_main_v47_apply, val_main_v46_apply,
    val_main_v45_apply, decayRow_idx]
  rfl

open Cert.ReferenceIdeal.Read in
/-- The reference's new numerator state at an entry. -/
theorem GA_apply (c : Dev nD) (r : Fin 8192) (s : Fin 2048) :
    GA m c (ix2 r s)
      = aNew (GK m c (ix2 r s)) (GV m c (ix2 r s)) (a1 m c (ix2 r s)) (a3 m c (ix2 r s)) (a5 m c (ix1 s)) := by
  unfold GA GK GV aNew pNew wdec
  rw [val_main_v57_apply, val_main_v55_apply, val_main_v56_apply, val_main_v52_apply, val_main_v54_apply,
    val_main_v51_apply, val_main_v53_apply, val_main_v50_apply, val_main_v49_apply, val_main_v48_apply,
    val_main_v47_apply, val_main_v46_apply, val_main_v45_apply, decayRow_idx]
  rfl

open Cert.ReferenceIdeal.Read in
/-- The reference's new denominator state at an entry. -/
theorem GB_apply (c : Dev nD) (r : Fin 8192) (s : Fin 2048) :
    GB m c (ix2 r s)
      = bNew (GK m c (ix2 r s)) (a2 m c (ix2 r s)) (a3 m c (ix2 r s)) (a5 m c (ix1 s)) := by
  unfold GB GK bNew pNew wdec
  rw [val_main_v59_apply, val_main_v58_apply, val_main_v52_apply, val_main_v54_apply,
    val_main_v51_apply, val_main_v53_apply, val_main_v50_apply, val_main_v49_apply, val_main_v48_apply,
    val_main_v47_apply, val_main_v46_apply, val_main_v45_apply, decayRow_idx]
  rfl

open Cert.ReferenceIdeal.Read in
/-- The reference's `r·a/b` at an entry. -/
theorem GO_apply (c : Dev nD) (r : Fin 8192) (s : Fin 2048) :
    GO m c (ix2 r s)
      = oOut (GRpre m c (ix2 r s)) (GK m c (ix2 r s)) (GV m c (ix2 r s)) (a1 m c (ix2 r s)) (a2 m c (ix2 r s))
          (a3 m c (ix2 r s)) (a6 m c (ix1 s)) := by
  unfold GO GRpre GK GV oOut clipR aOut bOut qOut wbon
  rw [val_main_v61_apply, val_main_v60_apply, val_main_v44_apply, val_main_v43_apply, val_main_v42_apply,
    val_main_v41_apply, val_main_v40_apply, val_main_v39_apply, val_main_v38_apply, val_main_v37_apply,
    val_main_v36_apply, val_main_v35_apply, val_main_v34_apply, val_main_v33_apply, val_main_v32_apply, bonusRow_idx,
    val_main_v31_apply, val_main_call0_v4_apply, val_main_call0_v3_apply, val_main_cst_5_apply,
    val_main_call0_v2_apply, val_main_call0_v1_apply, val_main_call0_v0_apply, val_main_cst_4_apply,
    val_main_v30_apply, val_main_v29_apply, val_main_cst_3_apply, val_main_v28_apply, val_main_v27_apply,
    val_main_cst_2_apply]
  rfl

/-! ## Where a point's blocks sit in their arrays -/

/-- The block indices of the three state results, of the three old states and of the decay and bonus pieces at a
    point: block `(t / 8, t % 8)` of a state, piece `t % 8` of a row. Decided over the 512 points. -/
theorem idx_facts : ∀ t : Fin cfg0.N,
    win0_15.index t (0 : Fin 2) = t.val / 8 ∧ win0_15.index t (1 : Fin 2) = t.val % 8
    ∧ win0_16.index t (0 : Fin 2) = t.val / 8 ∧ win0_16.index t (1 : Fin 2) = t.val % 8
    ∧ win0_17.index t (0 : Fin 2) = t.val / 8 ∧ win0_17.index t (1 : Fin 2) = t.val % 8
    ∧ win0_2.index t (0 : Fin 2) = t.val / 8 ∧ win0_2.index t (1 : Fin 2) = t.val % 8
    ∧ win0_3.index t (0 : Fin 2) = t.val / 8 ∧ win0_3.index t (1 : Fin 2) = t.val % 8
    ∧ win0_4.index t (0 : Fin 2) = t.val / 8 ∧ win0_4.index t (1 : Fin 2) = t.val % 8
    ∧ win0_8.index t (0 : Fin 2) = 0 ∧ win0_8.index t (1 : Fin 2) = t.val % 8
    ∧ win0_9.index t (0 : Fin 2) = 0 ∧ win0_9.index t (1 : Fin 2) = t.val % 8 :=
  (by decide +kernel : ∀ t : Fin grid0.N, _)

/-- Entry `(p, q)` of the new numerator's block at point `t` is entry `(row t p, chan t q)` of the array. -/
theorem emb15 (t : Fin cfg0.N) (p : Fin 128) (q : Fin 256) :
    ((cfg0.win 15).blk t).view.emb (ix2 p q) = ix2 (row t p) (chan t q) := by
  obtain ⟨h0, h1, -⟩ := idx_facts t
  funext a
  refine Fin.ext ?_
  match a with
  | ⟨0, _⟩ =>
    show win0_15.index t (0 : Fin 2) * 128 + 1 * p.val = 128 * (t.val / 8) + p.val
    rw [h0]; omega
  | ⟨1, _⟩ =>
    show win0_15.index t (1 : Fin 2) * 256 + 1 * q.val = 256 * (t.val % 8) + q.val
    rw [h1]; omega

/-- The same for the new denominator's block. -/
theorem emb16 (t : Fin cfg0.N) (p : Fin 128) (q : Fin 256) :
    ((cfg0.win 16).blk t).view.emb (ix2 p q) = ix2 (row t p) (chan t q) := by
  obtain ⟨-, -, h0, h1, -⟩ := idx_facts t
  funext a
  refine Fin.ext ?_
  match a with
  | ⟨0, _⟩ =>
    show win0_16.index t (0 : Fin 2) * 128 + 1 * p.val = 128 * (t.val / 8) + p.val
    rw [h0]; omega
  | ⟨1, _⟩ =>
    show win0_16.index t (1 : Fin 2) * 256 + 1 * q.val = 256 * (t.val % 8) + q.val
    rw [h1]; omega

/-- The same for the new running exponent's block. -/
theorem emb17 (t : Fin cfg0.N) (p : Fin 128) (q : Fin 256) :
    ((cfg0.win 17).blk t).view.emb (ix2 p q) = ix2 (row t p) (chan t q) := by
  obtain ⟨-, -, -, -, h0, h1, -⟩ := idx_facts t
  funext a
  refine Fin.ext ?_
  match a with
  | ⟨0, _⟩ =>
    show win0_17.index t (0 : Fin 2) * 128 + 1 * p.val = 128 * (t.val / 8) + p.val
    rw [h0]; omega
  | ⟨1, _⟩ =>
    show win0_17.index t (1 : Fin 2) * 256 + 1 * q.val = 256 * (t.val % 8) + q.val
    rw [h1]; omega

/-- The old numerator's tile at a point is the tile `(t / 8, t % 8)` of the old numerator. -/
theorem oldA_read (c : Dev nD) (t : Fin cfg0.N) (p : Fin 128) (q : Fin 256) :
    (blkAt m c t).sA (ix2 p q) = a1 m c (ix2 (row t p) (chan t q)) := by
  obtain ⟨-, -, -, -, -, -, h0, h1, -⟩ := idx_facts t
  show V m c main_arg1 (((cfg0.win 2).blk t).view.emb (ix2 p q)) = _
  rw [V_main_arg1]
  refine congrArg (a1 m c) (funext fun a => Fin.ext ?_)
  match a with
  | ⟨0, _⟩ =>
    show win0_2.index t (0 : Fin 2) * 128 + 1 * p.val = 128 * (t.val / 8) + p.val
    rw [h0]; omega
  | ⟨1, _⟩ =>
    show win0_2.index t (1 : Fin 2) * 256 + 1 * q.val = 256 * (t.val % 8) + q.val
    rw [h1]; omega

/-- The old denominator's tile at a point is the tile `(t / 8, t % 8)` of the old denominator. -/
theorem oldB_read (c : Dev nD) (t : Fin cfg0.N) (p : Fin 128) (q : Fin 256) :
    (blkAt m c t).sB (ix2 p q) = a2 m c (ix2 (row t p) (chan t q)) := by
  obtain ⟨-, -, -, -, -, -, -, -, h0, h1, -⟩ := idx_facts t
  show V m c main_arg2 (((cfg0.win 3).blk t).view.emb (ix2 p q)) = _
  rw [V_main_arg2]
  refine congrArg (a2 m c) (funext fun a => Fin.ext ?_)
  match a with
  | ⟨0, _⟩ =>
    show win0_3.index t (0 : Fin 2) * 128 + 1 * p.val = 128 * (t.val / 8) + p.val
    rw [h0]; omega
  | ⟨1, _⟩ =>
    show win0_3.index t (1 : Fin 2) * 256 + 1 * q.val = 256 * (t.val % 8) + q.val
    rw [h1]; omega

/-- The old running exponent's tile at a point is the tile `(t / 8, t % 8)` of the old running exponent. -/
theorem oldP_read (c : Dev nD) (t : Fin cfg0.N) (p : Fin 128) (q : Fin 256) :
    (blkAt m c t).sp (ix2 p q) = a3 m c (ix2 (row t p) (chan t q)) := by
  obtain ⟨-, -, -, -, -, -, -, -, -, -, h0, h1, -⟩ := idx_facts t
  show V m c main_arg3 (((cfg0.win 4).blk t).view.emb (ix2 p q)) = _
  rw [V_main_arg3]
  refine congrArg (a3 m c) (funext fun a => Fin.ext ?_)
  match a with
  | ⟨0, _⟩ =>
    show win0_4.index t (0 : Fin 2) * 128 + 1 * p.val = 128 * (t.val / 8) + p.val
    rw [h0]; omega
  | ⟨1, _⟩ =>
    show win0_4.index t (1 : Fin 2) * 256 + 1 * q.val = 256 * (t.val % 8) + q.val
    rw [h1]; omega

/-- The decay piece at a point holds entries `256·(t % 8) …` of the decay: the decay as one row of 2048, cut in
    eight pieces of 256. -/
theorem decay_read (c : Dev nD) (t : Fin cfg0.N) (q : Fin 256) :
    (blkAt m c t).td (ix2 (0 : Fin 1) q) = a5 m c (ix1 (chan t q)) := by
  obtain ⟨-, -, -, -, -, -, -, -, -, -, -, -, h0, h1, -⟩ := idx_facts t
  have e : (V m c main_v0 : S1x2048.Idx → EReal)
      = shapeCast S1x2048 (a5 m c) shapeCasts_S2048_S1x2048 := by
    dsimp only [Gen.V, Gen.hostOps0]; after_results; rfl
  show (V m c main_v0 : S1x2048.Idx → EReal) (((cfg0.win 8).blk t).view.emb (ix2 (0 : Fin 1) q)) = _
  rw [e]
  refine shapeCast_apply _ _ _ _ ?_
  rw [Shape.rowMajor_val_two, Shape.rowMajor_val_one]
  show (chan t q).val
      = (win0_8.index t (0 : Fin 2) * 1 + 1 * 0) * 2048 + (win0_8.index t (1 : Fin 2) * 256 + 1 * q.val)
  rw [h0, h1]
  show 256 * (t.val % 8) + q.val = _
  omega

/-- The bonus piece at a point holds entries `256·(t % 8) …` of the bonus. -/
theorem bonus_read (c : Dev nD) (t : Fin cfg0.N) (q : Fin 256) :
    (blkAt m c t).tf (ix2 (0 : Fin 1) q) = a6 m c (ix1 (chan t q)) := by
  obtain ⟨-, -, -, -, -, -, -, -, -, -, -, -, -, -, h0, h1⟩ := idx_facts t
  have e : (V m c main_v1 : S1x2048.Idx → EReal)
      = shapeCast S1x2048 (a6 m c) shapeCasts_S2048_S1x2048 := by
    dsimp only [Gen.V, Gen.hostOps0]; after_results; rfl
  show (V m c main_v1 : S1x2048.Idx → EReal) (((cfg0.win 9).blk t).view.emb (ix2 (0 : Fin 1) q)) = _
  rw [e]
  refine shapeCast_apply _ _ _ _ ?_
  rw [Shape.rowMajor_val_two, Shape.rowMajor_val_one]
  show (chan t q).val
      = (win0_9.index t (0 : Fin 2) * 1 + 1 * 0) * 2048 + (win0_9.index t (1 : Fin 2) * 256 + 1 * q.val)
  rw [h0, h1]
  show 256 * (t.val % 8) + q.val = _
  omega

end StateTiles

open StateTiles

/-! ## The four tiles -/

/-- The new numerator state's tile of a point is the tile of the reference's stage. -/
theorem tileA_apply (c : Dev nD) (t : Fin cfg0.N) (j : S128x256.Idx) :
    newA (blkAt m c t) j = GA m c (((cfg0.win 15).blk t).view.emb j) := by
  obtain ⟨p, q, rfl⟩ : ∃ (p : Fin 128) (q : Fin 256), j = ix2 p q := ⟨j 0, j 1, eq_ix2 j⟩
  rw [newA_apply, tileK_apply, tileV_apply, emb15, GA_apply, oldA_read, oldP_read, decay_read]

/-- The new denominator state's tile. -/
theorem tileB_apply (c : Dev nD) (t : Fin cfg0.N) (j : S128x256.Idx) :
    newB (blkAt m c t) j = GB m c (((cfg0.win 16).blk t).view.emb j) := by
  obtain ⟨p, q, rfl⟩ : ∃ (p : Fin 128) (q : Fin 256), j = ix2 p q := ⟨j 0, j 1, eq_ix2 j⟩
  rw [newB_apply, tileK_apply, emb15, emb16, GB_apply, oldB_read, oldP_read, decay_read]

/-- The new running exponent's tile. -/
theorem tileP_apply (c : Dev nD) (t : Fin cfg0.N) (j : S128x256.Idx) :
    newP (blkAt m c t) j = GP m c (((cfg0.win 17).blk t).view.emb j) := by
  obtain ⟨p, q, rfl⟩ : ∃ (p : Fin 128) (q : Fin 256), j = ix2 p q := ⟨j 0, j 1, eq_ix2 j⟩
  rw [newP_apply, tileK_apply, emb15, emb17, GP_apply, oldP_read, decay_read]

/-- The read-out tile `r·a/b` of a point is the tile of the reference's stage. -/
theorem tileO_apply (c : Dev nD) (t : Fin cfg0.N) (j : S128x256.Idx) :
    outT (blkAt m c t) j = GO m c (((cfg0.win 15).blk t).view.emb j) := by
  obtain ⟨p, q, rfl⟩ : ∃ (p : Fin 128) (q : Fin 256), j = ix2 p q := ⟨j 0, j 1, eq_ix2 j⟩
  rw [outT_apply, tileRpre_apply, tileK_apply, tileV_apply, emb15, GO_apply, oldA_read, oldB_read, oldP_read,
    bonus_read]

end Cert.KernelIdeal.Val

end
-- ==== Proof.LibPartialSum.lean ====
/-
  Partial sums over the first positions of a finite range.

  `upto n k` is the set of positions `b : Fin n` with `b ≤ k`. In any commutative additive monoid the sum over
  `upto n 0` is the summand at position `0`, passing from `k` to `k + 1` adds the summand at position `k + 1`, and
  once `k` reaches the last position the sum is the sum over all positions. This is what an accumulator that adds one
  term per step holds after each step, stated without reference to any order of evaluation.
-/
import Mathlib.Algebra.BigOperators.Fin

open scoped BigOperators

namespace Cert.Lib.PartialSum

variable {M : Type*} [AddCommMonoid M] {n : ℕ}

/-- The positions up to and including `k`. -/
def upto (n k : ℕ) : Finset (Fin n) := Finset.univ.filter fun b => b.val ≤ k

theorem mem_upto {k : ℕ} {b : Fin n} : b ∈ upto n k ↔ b.val ≤ k := by
  simp [upto]

/-- Up to position `0` there is one summand. -/
theorem sum_upto_zero (hn : 0 < n) (g : Fin n → M) : ∑ b ∈ upto n 0, g b = g ⟨0, hn⟩ := by
  have : upto n 0 = {⟨0, hn⟩} := by
    ext b
    rw [mem_upto, Finset.mem_singleton]
    exact ⟨fun h => Fin.ext (Nat.le_zero.mp h), fun h => by rw [h]⟩
  rw [this, Finset.sum_singleton]

/-- One more position adds its summand. -/
theorem sum_upto_succ (k : ℕ) (hk : k + 1 < n) (g : Fin n → M) :
    ∑ b ∈ upto n (k + 1), g b = ∑ b ∈ upto n k, g b + g ⟨k + 1, hk⟩ := by
  have hins : upto n (k + 1) = insert ⟨k + 1, hk⟩ (upto n k) := by
    ext b
    rw [Finset.mem_insert, mem_upto, mem_upto]
    constructor
    · intro h
      rcases Nat.lt_or_ge b.val (k + 1) with h' | h'
      · exact Or.inr (Nat.lt_succ_iff.mp h')
      · exact Or.inl (Fin.ext (Nat.le_antisymm h h'))
    · rintro (h | h)
      · rw [h]
      · exact Nat.le_succ_of_le h
  have hnot : (⟨k + 1, hk⟩ : Fin n) ∉ upto n k := by
    rw [mem_upto]; exact Nat.not_succ_le_self k
  rw [hins, Finset.sum_insert hnot, add_comm]

/-- Up to the last position the sum is the whole sum. -/
theorem sum_upto_last (k : ℕ) (hk : n ≤ k + 1) (g : Fin n → M) : ∑ b ∈ upto n k, g b = ∑ b, g b := by
  have : upto n k = Finset.univ := by
    ext b
    rw [mem_upto]
    exact ⟨fun _ => Finset.mem_univ _, fun _ => Nat.lt_succ_iff.mp (Nat.lt_of_lt_of_le b.isLt hk)⟩
  rw [this]

end Cert.Lib.PartialSum
-- ==== Proof.LibBlockSum.lean ====
/-
  A finite sum taken block by block.

  `N = a * b` positions are cut into `a` consecutive blocks of `b` positions each: position `q` of block `t` is
  position `t * b + q` (`blockRow`). In any commutative additive monoid the sum of a function over all `N` positions is
  the sum, over the blocks, of its sums over each block's positions (`sum_fin_blocks`): the bijection
  `Fin a × Fin b ≃ Fin (a * b)`, `(t, q) ↦ q + b * t`. Applied twice it cuts the rows of a row-major matrix into row
  blocks and each row into its entries. Nothing is asked of the summands: on the extended reals, whose addition is
  commutative and associative at the infinities too, this re-groups a sum of any values. Generic in the sizes and in the
  monoid. Last, a reshape re-arranges a vector's entries bijectively, so it does not change their sum (`sum_shapeCast`).
-/
import Idealize.ShloMosaic.Lib.ValueIdx
import Mathlib.Algebra.BigOperators.Fin
import Mathlib.Logic.Equiv.Fin.Basic

open scoped BigOperators

namespace Cert.Lib.BlockSum

open Idealize.ShloMosaic Idealize.ShloMosaic.ValueIdx

/-- Row `q` of row block `t`, among the `N = a * b` rows: row `t * b + q`. -/
def blockRow {N a b : ℕ} (hN : N = a * b) (t : Fin a) (q : Fin b) : Fin N :=
  ⟨t.val * b + q.val, by
    subst hN
    calc t.val * b + q.val < t.val * b + b := Nat.add_lt_add_left q.isLt _
      _ = (t.val + 1) * b := (Nat.succ_mul _ _).symm
      _ ≤ a * b := Nat.mul_le_mul_right _ t.isLt⟩

@[simp] theorem blockRow_val {N a b : ℕ} (hN : N = a * b) (t : Fin a) (q : Fin b) :
    (blockRow hN t q).val = t.val * b + q.val := rfl

/-- A sum over `a * b` positions is the sum over the `a` blocks of the sums over each block's `b` positions. -/
theorem sum_fin_blocks {M : Type*} [AddCommMonoid M] {N a b : ℕ} (hN : N = a * b) (f : Fin N → M) :
    ∑ r, f r = ∑ t : Fin a, ∑ q : Fin b, f (blockRow hN t q) := by
  subst hN
  rw [← Equiv.sum_comp finProdFinEquiv f, Fintype.sum_prod_type]
  refine Finset.sum_congr rfl fun t _ => Finset.sum_congr rfl fun q _ => congrArg f (Fin.ext ?_)
  show q.val + b * t.val = t.val * b + q.val
  rw [Nat.mul_comm, Nat.add_comm]

/-- A reshape only re-arranges: the sum over a reshaped vector's entries is the sum over the vector's entries (each entry of
    the result is the operand's entry at the same row-major position, a bijection of the two index sets). -/
theorem sum_shapeCast {M : Type} [AddCommMonoid M] {s t : Shape} (x : s.Idx → M) (h : s.ShapeCasts t) :
    ∑ j, shapeCast t x h j = ∑ k, x k := by
  unfold shapeCast
  exact Equiv.sum_comp (Shape.reshapeEquiv h) x

end Cert.Lib.BlockSum
-- ==== Proof.Val.Acc.lean ====
import proofs.«150005_j6536940224802_1_alg».proof.Proof.Val.TilesP
import proofs.«150005_j6536940224802_1_alg».proof.Proof.LibPlainDot
import proofs.«150005_j6536940224802_1_alg».proof.Proof.LibPartialSum
import proofs.«150005_j6536940224802_1_alg».proof.Proof.LibBlockSum

/-!
The running sum at the end of a row of the grid is the row's slab of the reference's read-out: each of the eight points
adds the product of its read-out tile with its 256-row panel of the transposed output weight, the panels of a row split
the 2048 channels into eight runs of 256, and a sum over 2048 channels taken run by run is the whole sum.

Entry by entry: the zero slab is zero; one point's step adds, at (p, q), the sum over its 256 channels of the read-out
tile at (p, k) times the panel at (k, q); by induction along a row, after the point at position s the running sum holds
the terms of the first s + 1 runs of channels; after position 7 that is every channel, which is the reference's product.
The extended reals are a commutative additive monoid, so the regrouping asks nothing of the summands.
-/

set_option maxRecDepth 16384

noncomputable section

namespace Cert.KernelIdeal.Val

open Cert.KernelIdeal Cert.KernelIdeal.Gen Cert.KernelIdeal.Body
open Idealize.ShloMosaic Idealize.ShloMosaic.TcCoe Idealize.SL.Sem
open Idealize.ShloMosaic.Pipeline (Dat)
open Idealize.ShloMosaic.ValueIdx
open Cert.Lib.PartialSum Cert.Lib.BlockSum

variable (m : (ℓ : Loc nD τ sig) → Buf (Elt Ideal) ℓ)

/-- The zero slab is zero at every entry. -/
theorem accZero_apply (j : S128x2048.Idx) : accZero (F := Ideal) j = 0 := by
  unfold accZero k0_pay4
  simp only [shapeCast_self, broadcast_apply]
  exact Ideal.ofBits_zero_f32

namespace Acc

/-- The output panel's product has the plain dimension numbers: rows by channels times channels by columns. -/
theorem plain_wo : PlainDot.IsPlain dot_S128x256_S256x2048_S128x2048_1_0_0_1_n_n := ⟨rfl, rfl, rfl, rfl, rfl, rfl⟩

/-- The step's arithmetic at an entry: the quotient tile, narrowed (exactly, over the extended reals), times the panel,
    added to the sum before. -/
theorem pay3_apply (v48 v65 v67 : FVec Ideal S128x256 .f32) (v89 : Vec Ideal S128x2048 .f32) (v90 : Vec Ideal S256x2048 .bf16)
    (p : Fin 128) (q : Fin 2048) :
    k0_pay3 v48 v65 v67 v89 v90 (ix2 p q)
      = v89 (ix2 p q) + ∑ k : Fin 256, (divf (mulf v48 v65) v67 : FVec Ideal S128x256 .f32) (ix2 p k) * v90 (ix2 k q) := by
  unfold k0_pay3
  simp only [shapeCast_self]
  rw [addf_apply]
  refine congrArg (v89 (ix2 p q) + ·) ?_
  have e := Ideal.matmul_constant_zero_apply (φ₁ := .bf16) (φ₂ := .bf16) dot_S128x256_S256x2048_S128x2048_1_0_0_1_n_n none
    (truncf .bf16 (divf (mulf v48 v65) v67) bitsLt_bf16_f32 : FVec Ideal S128x256 .bf16) (v90 : FVec Ideal S256x2048 .bf16) (ix2 p q)
  exact e.trans (PlainDot.sum_contr plain_wo _ _ p q)

end Acc

/-- One point's step, entry by entry: the sum before, plus the read-out tile's row against the panel's column. -/
theorem accStep_apply (b : Blk Ideal) (s : Vec Ideal S128x2048 .f32) (p : Fin 128) (q : Fin 2048) :
    accStep b s (ValueIdx.ix2 p q) = s (ValueIdx.ix2 p q) + ∑ k : Fin 256, outT b (ValueIdx.ix2 p k) * b.wo (ValueIdx.ix2 k q) :=
  Acc.pay3_apply _ _ _ s b.wo p q

namespace Acc

/-- The read-out's block of point t is block (t / 8, 0). -/
theorem idx14 : ∀ t : Fin cfg0.N, win0_14.index t (0 : Fin 2) = t.val / 8 ∧ win0_14.index t (1 : Fin 2) = 0 :=
  (by decide +kernel : ∀ t : Fin grid0.N, win0_14.index t (0 : Fin 2) = t.val / 8 ∧ win0_14.index t (1 : Fin 2) = 0)

/-- A state tile's block of point t is block (t / 8, t % 8). -/
theorem idx15 : ∀ t : Fin cfg0.N, win0_15.index t (0 : Fin 2) = t.val / 8 ∧ win0_15.index t (1 : Fin 2) = t.val % 8 :=
  (by decide +kernel : ∀ t : Fin grid0.N, win0_15.index t (0 : Fin 2) = t.val / 8 ∧ win0_15.index t (1 : Fin 2) = t.val % 8)

/-- Entry (p, q) of the read-out's block of a point is entry (row t p, q) of the array: block index times block size
    plus the coordinate inside the block, on each axis. -/
theorem emb14 (t : Fin cfg0.N) (p : Fin 128) (q : Fin 2048) :
    ((cfg0.win 14).blk t).view.emb (ix2 p q) = ix2 (row t p) q := by
  funext a
  refine Fin.ext ?_
  match a with
  | ⟨0, _⟩ =>
    show win0_14.index t (0 : Fin 2) * 128 + 1 * p.val = 128 * (t.val / 8) + p.val
    rw [(idx14 t).1]; omega
  | ⟨1, _⟩ =>
    show win0_14.index t (1 : Fin 2) * 2048 + 1 * q.val = q.val
    rw [(idx14 t).2]; omega

/-- Entry (p, k) of a state tile of a point is entry (row t p, chan t k) of the array. -/
theorem emb15 (t : Fin cfg0.N) (p : Fin 128) (k : Fin 256) :
    ((cfg0.win 15).blk t).view.emb (ix2 p k) = ix2 (row t p) (chan t k) := by
  funext a
  refine Fin.ext ?_
  match a with
  | ⟨0, _⟩ =>
    show win0_15.index t (0 : Fin 2) * 128 + 1 * p.val = 128 * (t.val / 8) + p.val
    rw [(idx15 t).1]; omega
  | ⟨1, _⟩ =>
    show win0_15.index t (1 : Fin 2) * 256 + 1 * k.val = 256 * (t.val % 8) + k.val
    rw [(idx15 t).2]; omega

/-- The 2048 channels are eight runs of 256. -/
theorem chans_eq : 2048 = 8 * 256 := by norm_num

/-- Channel k's term of the read-out at (r, q): the reference's quotient at (r, k) times its transposed output weight
    at (k, q). -/
def term (c : Dev nD) (r : Fin 8192) (q : Fin 2048) (k : Fin 2048) : EReal := GO m c (ix2 r k) * GWo m c (ix2 k q)

/-- The terms of run b of channels, summed: what the point at position b of a row adds at (r, q). -/
def runSum (c : Dev nD) (r : Fin 8192) (q : Fin 2048) (b : Fin 8) : EReal :=
  ∑ k : Fin 256, term m c r q (blockRow chans_eq b k)

/-- What a point adds at (p, q): the terms of its own run of channels. -/
theorem point_term (c : Dev nD) (t : Fin cfg0.N) (b : Fin 8) (hb : b.val = t.val % 8) (p : Fin 128) (q : Fin 2048) :
    ∑ k : Fin 256, outT (blkAt m c t) (ix2 p k) * (blkAt m c t).wo (ix2 k q)
      = runSum m c (row t p) q b := by
  unfold runSum
  refine Finset.sum_congr rfl fun k _ => ?_
  rw [tileO_apply, panelWo_apply, emb15]
  have hc : chan t k = blockRow chans_eq b k :=
    Fin.ext (by show 256 * (t.val % 8) + k.val = b.val * 256 + k.val; rw [hb]; omega)
  rw [hc]; rfl

/-- Along a row of the grid the rows of the array a point works on do not change. -/
theorem row_succ (n : ℕ) (h : n + 1 < cfg0.N) (hz : ¬(n + 1) % 8 = 0) (p : Fin 128) :
    row ⟨n, Nat.lt_of_succ_lt h⟩ p = row ⟨n + 1, h⟩ p :=
  Fin.ext (by
    show 128 * (n / 8) + p.val = 128 * ((n + 1) / 8) + p.val
    have : n / 8 = (n + 1) / 8 := by omega
    rw [this])

/-- After each point of a row the running sum at (p, q) holds the terms of the runs of channels done so far. -/
theorem partialSum (c : Dev nD) (p : Fin 128) (q : Fin 2048) : ∀ (n : ℕ) (h : n < cfg0.N),
    accAt m c n h (ix2 p q)
      = ∑ b ∈ upto 8 (n % 8), runSum m c (row ⟨n, h⟩ p) q b
  | 0, h => by
    rw [accAt_first m c ⟨0, h⟩ rfl, accStep_apply, accZero_apply, zero_add,
      point_term m c ⟨0, h⟩ ⟨0, by norm_num⟩ rfl p q]
    exact (sum_upto_zero (by norm_num) (runSum m c (row ⟨0, h⟩ p) q)).symm
  | n + 1, h => by
    by_cases hz : (n + 1) % 8 = 0
    · rw [accAt_first m c ⟨n + 1, h⟩ hz, accStep_apply, accZero_apply, zero_add,
        point_term m c ⟨n + 1, h⟩ ⟨0, by norm_num⟩ hz.symm p q, hz]
      exact (sum_upto_zero (by norm_num) (runSum m c (row ⟨n + 1, h⟩ p) q)).symm
    · have hk : n % 8 + 1 < 8 := by omega
      have hm : (n + 1) % 8 = n % 8 + 1 := by omega
      have e : accAt m c (n + 1) h = accStep (blkAt m c ⟨n + 1, h⟩) (accAt m c n (Nat.lt_of_succ_lt h)) :=
        accAt_next m c ⟨n + 1, h⟩ hz
      rw [e, accStep_apply, partialSum c p q n (Nat.lt_of_succ_lt h), row_succ n h hz p,
        point_term m c ⟨n + 1, h⟩ ⟨n % 8 + 1, hk⟩ hm.symm p q, hm]
      exact (sum_upto_succ (n % 8) hk (runSum m c (row ⟨n + 1, h⟩ p) q)).symm

end Acc

/-- After the last point of a row the running sum is the row's slab of the reference's read-out. -/
theorem accLast_apply (c : Dev nD) (t : Fin cfg0.N) (h : t.val % 8 = 7) (j : S128x2048.Idx) :
    accAt m c t.val t.isLt j = GR m c (((cfg0.win 14).blk t).view.emb j) := by
  obtain ⟨p, q, rfl⟩ : ∃ (p : Fin 128) (q : Fin 2048), j = ix2 p q := ⟨j 0, j 1, eq_ix2 j⟩
  rw [Acc.partialSum m c p q t.val t.isLt, h, sum_upto_last 7 (by norm_num), Acc.emb14]
  refine (sum_fin_blocks Acc.chans_eq (Acc.term m c (row t p) q)).symm.trans ?_
  unfold Acc.term GR GO GWo
  rw [Cert.ReferenceIdeal.Read.val_main_v63_apply]
  refine Finset.sum_congr rfl fun k _ => ?_
  congr 2
  · funext a; match a with | ⟨0, _⟩ => rfl | ⟨1, _⟩ => rfl
  · funext a; match a with | ⟨0, _⟩ => rfl | ⟨1, _⟩ => rfl

end Cert.KernelIdeal.Val

end
-- ==== Proof.Val.Final.lean ====
import proofs.«150005_j6536940224802_1_alg».proof.Proof.Val.Acc

/-!
The five result arrays after the run. Each is written block by block: a state tile at every point, the read-out's and
the input copy's slabs after the last point of each row. Every block written is the block of one whole-array function, and
the blocks written cover the array, so the array ends as that function.
-/

set_option maxRecDepth 16384

noncomputable section

namespace Cert.KernelIdeal.Val

open Cert.KernelIdeal Cert.KernelIdeal.Gen Cert.KernelIdeal.Body
open Idealize.ShloMosaic Idealize.ShloMosaic.TcCoe Idealize.SL.Sem
open Idealize.ShloMosaic.Pipeline (Dat)

variable (m : (ℓ : Loc nD τ sig) → Buf (Elt Ideal) ℓ)

/-! ## Where the blocks lie -/

/-- The block indices of the five result windows at point `t`: the slab windows (read-out and input copy) sit at
    block `(t / 8, 0)`, the three state windows at tile `(t / 8, t % 8)`. -/
theorem resultBlockIdx : ∀ t : Fin cfg0.N,
    win0_14.index t (0 : Fin 2) = t.val / 8 ∧ win0_14.index t (1 : Fin 2) = 0
    ∧ win0_15.index t (0 : Fin 2) = t.val / 8 ∧ win0_15.index t (1 : Fin 2) = t.val % 8
    ∧ win0_16.index t (0 : Fin 2) = t.val / 8 ∧ win0_16.index t (1 : Fin 2) = t.val % 8
    ∧ win0_17.index t (0 : Fin 2) = t.val / 8 ∧ win0_17.index t (1 : Fin 2) = t.val % 8
    ∧ win0_18.index t (0 : Fin 2) = t.val / 8 ∧ win0_18.index t (1 : Fin 2) = 0 :=
  (by decide +kernel : ∀ t : Fin grid0.N, _)

/-- Every position `(p, q)` of an [8192, 2048] array lies in the [128, 256] tile of the point
    `8·(p / 128) + q / 256`. -/
theorem tileOfPosition (p q : ℕ) (hp : p < 8192) (hq : q < 2048) :
    ∃ t : Fin cfg0.N, (t.val / 8 * 128 ≤ p ∧ p < t.val / 8 * 128 + 128)
      ∧ (t.val % 8 * 256 ≤ q ∧ q < t.val % 8 * 256 + 256) :=
  ⟨⟨8 * (p / 128) + q / 256, by rw [N_eq]; omega⟩, by dsimp only; omega, by dsimp only; omega⟩

/-- Every position `(p, q)` lies in the [128, 2048] slab of the last point of row `p / 128` of the grid. -/
theorem slabOfPosition (p q : ℕ) (hp : p < 8192) (hq : q < 2048) :
    ∃ t : Fin cfg0.N, t.val % 8 = 7 ∧ (t.val / 8 * 128 ≤ p ∧ p < t.val / 8 * 128 + 128)
      ∧ (0 * 2048 ≤ q ∧ q < 0 * 2048 + 2048) :=
  ⟨⟨8 * (p / 128) + 7, by rw [N_eq]; omega⟩, by dsimp only; omega, by dsimp only; omega, by omega⟩

/-! ## The read-out -/

/-- What the last point of a row writes back is the row's slab of the whole array. -/
theorem flushed14_eq (c : Dev nD) (t : Fin cfg0.N) (hf : (cfg0.win 14).flush t = true) :
    (dats m 0 c).flushed 14 t = ((cfg0.win 14).blk t).view.read (Elt Ideal) (GR m c) := by
  have h7 : t.val % 8 = 7 := (flush0_14 t).mp hf
  show (cfg0.win 14).cut (grid0.coords t) ((dats m 0 c).after 14 t) = _
  rw [after0_14]
  funext j
  rw [View.read_apply]
  exact accLast_apply m c t h7 j

/-- A position is in point `t`'s slab iff each coordinate is in the slab's range on its axis. -/
theorem mem_blk14 (t : Fin cfg0.N) (i : S8192x2048.Idx) :
    i ∈ ((cfg0.win 14).blk t).view.set ↔ ∀ a : Fin 2, win0_14.index t a * S128x2048.size a ≤ (i a).val ∧ (i a).val < win0_14.index t a * S128x2048.size a + S128x2048.size a := by
  show i ∈ ((View.whole main_v10_0).slice (win0_14.rect t)).set ↔ _
  rw [View.set_slice_whole, Rect.mem_set_unit]
  exact Iff.rfl

/-- The slabs written after the last point of each row cover the array. -/
theorem cover14 (i : S8192x2048.Idx) :
    ∃ t : Fin cfg0.N, (cfg0.win 14).flush t = true ∧ i ∈ ((cfg0.win 14).blk t).view.set := by
  obtain ⟨t, h7, h0, h1⟩ := slabOfPosition (i 0).val (i 1).val (i 0).isLt (i 1).isLt
  obtain ⟨e14r, e14c, e15r, e15c, e16r, e16c, e17r, e17c, e18r, e18c⟩ := resultBlockIdx t
  refine ⟨t, (flush0_14 t).mpr h7, ?_⟩
  rw [mem_blk14]
  intro a
  match a with
  | ⟨0, _⟩ => show win0_14.index t (0 : Fin 2) * 128 ≤ (i 0).val ∧ (i 0).val < win0_14.index t (0 : Fin 2) * 128 + 128; rw [e14r]; exact h0
  | ⟨1, _⟩ => show win0_14.index t (1 : Fin 2) * 2048 ≤ (i 1).val ∧ (i 1).val < win0_14.index t (1 : Fin 2) * 2048 + 2048; rw [e14c]; exact h1

/-- The read-out's array ends as the reference's read-out. -/
theorem final14 (c : Dev nD) : (dats m 0 c).arrAt 14 cfg0.N = GR m c :=
  (dats m 0 c).arrAt_eq_of_cover 14 (GR m c) (flushed14_eq m c) cover14

/-! ## The new numerator state -/

/-- What point `t` writes back is its tile of the reference's stage. -/
theorem flushed15_eq (c : Dev nD) (t : Fin cfg0.N) :
    (dats m 0 c).flushed 15 t = ((cfg0.win 15).blk t).view.read (Elt Ideal) (GA m c) := by
  show (cfg0.win 15).cut (grid0.coords t) ((dats m 0 c).after 15 t) = _
  rw [after0_15]
  funext j
  rw [View.read_apply]
  exact tileA_apply m c t j

/-- A position is in point `t`'s tile iff each coordinate is in the tile's range on its axis. -/
theorem mem_blk15 (t : Fin cfg0.N) (i : S8192x2048.Idx) :
    i ∈ ((cfg0.win 15).blk t).view.set ↔ ∀ a : Fin 2, win0_15.index t a * S128x256.size a ≤ (i a).val ∧ (i a).val < win0_15.index t a * S128x256.size a + S128x256.size a := by
  show i ∈ ((View.whole main_v10_1).slice (win0_15.rect t)).set ↔ _
  rw [View.set_slice_whole, Rect.mem_set_unit]
  exact Iff.rfl

/-- The tiles cover the array. -/
theorem cover15 (i : S8192x2048.Idx) :
    ∃ t : Fin cfg0.N, (cfg0.win 15).flush t = true ∧ i ∈ ((cfg0.win 15).blk t).view.set := by
  obtain ⟨t, h0, h1⟩ := tileOfPosition (i 0).val (i 1).val (i 0).isLt (i 1).isLt
  obtain ⟨e14r, e14c, e15r, e15c, e16r, e16c, e17r, e17c, e18r, e18c⟩ := resultBlockIdx t
  refine ⟨t, flush0_15 t, ?_⟩
  rw [mem_blk15]
  intro a
  match a with
  | ⟨0, _⟩ => show win0_15.index t (0 : Fin 2) * 128 ≤ (i 0).val ∧ (i 0).val < win0_15.index t (0 : Fin 2) * 128 + 128; rw [e15r]; exact h0
  | ⟨1, _⟩ => show win0_15.index t (1 : Fin 2) * 256 ≤ (i 1).val ∧ (i 1).val < win0_15.index t (1 : Fin 2) * 256 + 256; rw [e15c]; exact h1

/-- The new numerator state's array. -/
theorem final15 (c : Dev nD) : (dats m 0 c).arrAt 15 cfg0.N = GA m c :=
  (dats m 0 c).arrAt_eq_of_cover 15 (GA m c) (fun t _ => flushed15_eq m c t) cover15

/-! ## The new denominator state -/

/-- What point `t` writes back is its tile of the reference's stage. -/
theorem flushed16_eq (c : Dev nD) (t : Fin cfg0.N) :
    (dats m 0 c).flushed 16 t = ((cfg0.win 16).blk t).view.read (Elt Ideal) (GB m c) := by
  show (cfg0.win 16).cut (grid0.coords t) ((dats m 0 c).after 16 t) = _
  rw [after0_16]
  funext j
  rw [View.read_apply]
  exact tileB_apply m c t j

/-- A position is in point `t`'s tile iff each coordinate is in the tile's range on its axis. -/
theorem mem_blk16 (t : Fin cfg0.N) (i : S8192x2048.Idx) :
    i ∈ ((cfg0.win 16).blk t).view.set ↔ ∀ a : Fin 2, win0_16.index t a * S128x256.size a ≤ (i a).val ∧ (i a).val < win0_16.index t a * S128x256.size a + S128x256.size a := by
  show i ∈ ((View.whole main_v10_2).slice (win0_16.rect t)).set ↔ _
  rw [View.set_slice_whole, Rect.mem_set_unit]
  exact Iff.rfl

/-- The tiles cover the array. -/
theorem cover16 (i : S8192x2048.Idx) :
    ∃ t : Fin cfg0.N, (cfg0.win 16).flush t = true ∧ i ∈ ((cfg0.win 16).blk t).view.set := by
  obtain ⟨t, h0, h1⟩ := tileOfPosition (i 0).val (i 1).val (i 0).isLt (i 1).isLt
  obtain ⟨e14r, e14c, e15r, e15c, e16r, e16c, e17r, e17c, e18r, e18c⟩ := resultBlockIdx t
  refine ⟨t, flush0_16 t, ?_⟩
  rw [mem_blk16]
  intro a
  match a with
  | ⟨0, _⟩ => show win0_16.index t (0 : Fin 2) * 128 ≤ (i 0).val ∧ (i 0).val < win0_16.index t (0 : Fin 2) * 128 + 128; rw [e16r]; exact h0
  | ⟨1, _⟩ => show win0_16.index t (1 : Fin 2) * 256 ≤ (i 1).val ∧ (i 1).val < win0_16.index t (1 : Fin 2) * 256 + 256; rw [e16c]; exact h1

/-- The new denominator state's array. -/
theorem final16 (c : Dev nD) : (dats m 0 c).arrAt 16 cfg0.N = GB m c :=
  (dats m 0 c).arrAt_eq_of_cover 16 (GB m c) (fun t _ => flushed16_eq m c t) cover16

/-! ## The new running exponent -/

/-- What point `t` writes back is its tile of the reference's stage. -/
theorem flushed17_eq (c : Dev nD) (t : Fin cfg0.N) :
    (dats m 0 c).flushed 17 t = ((cfg0.win 17).blk t).view.read (Elt Ideal) (GP m c) := by
  show (cfg0.win 17).cut (grid0.coords t) ((dats m 0 c).after 17 t) = _
  rw [after0_17]
  funext j
  rw [View.read_apply]
  exact tileP_apply m c t j

/-- A position is in point `t`'s tile iff each coordinate is in the tile's range on its axis. -/
theorem mem_blk17 (t : Fin cfg0.N) (i : S8192x2048.Idx) :
    i ∈ ((cfg0.win 17).blk t).view.set ↔ ∀ a : Fin 2, win0_17.index t a * S128x256.size a ≤ (i a).val ∧ (i a).val < win0_17.index t a * S128x256.size a + S128x256.size a := by
  show i ∈ ((View.whole main_v10_3).slice (win0_17.rect t)).set ↔ _
  rw [View.set_slice_whole, Rect.mem_set_unit]
  exact Iff.rfl

/-- The tiles cover the array. -/
theorem cover17 (i : S8192x2048.Idx) :
    ∃ t : Fin cfg0.N, (cfg0.win 17).flush t = true ∧ i ∈ ((cfg0.win 17).blk t).view.set := by
  obtain ⟨t, h0, h1⟩ := tileOfPosition (i 0).val (i 1).val (i 0).isLt (i 1).isLt
  obtain ⟨e14r, e14c, e15r, e15c, e16r, e16c, e17r, e17c, e18r, e18c⟩ := resultBlockIdx t
  refine ⟨t, flush0_17 t, ?_⟩
  rw [mem_blk17]
  intro a
  match a with
  | ⟨0, _⟩ => show win0_17.index t (0 : Fin 2) * 128 ≤ (i 0).val ∧ (i 0).val < win0_17.index t (0 : Fin 2) * 128 + 128; rw [e17r]; exact h0
  | ⟨1, _⟩ => show win0_17.index t (1 : Fin 2) * 256 ≤ (i 1).val ∧ (i 1).val < win0_17.index t (1 : Fin 2) * 256 + 256; rw [e17c]; exact h1

/-- The new running exponent's array. -/
theorem final17 (c : Dev nD) : (dats m 0 c).arrAt 17 cfg0.N = GP m c :=
  (dats m 0 c).arrAt_eq_of_cover 17 (GP m c) (fun t _ => flushed17_eq m c t) cover17

/-! ## The copy of the input -/

/-- What the last point of a row writes back is the row's slab of the whole array. -/
theorem flushed18_eq (c : Dev nD) (t : Fin cfg0.N) (hf : (cfg0.win 18).flush t = true) :
    (dats m 0 c).flushed 18 t = ((cfg0.win 18).blk t).view.read (Elt Ideal) (a0 m c) := by
  have h7 : t.val % 8 = 7 := (flush0_18 t).mp hf
  show (cfg0.win 18).cut (grid0.coords t) ((dats m 0 c).after 18 t) = _
  rw [after0_18]
  funext j
  rw [View.read_apply]
  exact slabX_apply m c t j

/-- A position is in point `t`'s slab iff each coordinate is in the slab's range on its axis. -/
theorem mem_blk18 (t : Fin cfg0.N) (i : S8192x2048.Idx) :
    i ∈ ((cfg0.win 18).blk t).view.set ↔ ∀ a : Fin 2, win0_18.index t a * S128x2048.size a ≤ (i a).val ∧ (i a).val < win0_18.index t a * S128x2048.size a + S128x2048.size a := by
  show i ∈ ((View.whole main_v10_4).slice (win0_18.rect t)).set ↔ _
  rw [View.set_slice_whole, Rect.mem_set_unit]
  exact Iff.rfl

/-- The slabs written after the last point of each row cover the array. -/
theorem cover18 (i : S8192x2048.Idx) :
    ∃ t : Fin cfg0.N, (cfg0.win 18).flush t = true ∧ i ∈ ((cfg0.win 18).blk t).view.set := by
  obtain ⟨t, h7, h0, h1⟩ := slabOfPosition (i 0).val (i 1).val (i 0).isLt (i 1).isLt
  obtain ⟨e14r, e14c, e15r, e15c, e16r, e16c, e17r, e17c, e18r, e18c⟩ := resultBlockIdx t
  refine ⟨t, (flush0_18 t).mpr h7, ?_⟩
  rw [mem_blk18]
  intro a
  match a with
  | ⟨0, _⟩ => show win0_18.index t (0 : Fin 2) * 128 ≤ (i 0).val ∧ (i 0).val < win0_18.index t (0 : Fin 2) * 128 + 128; rw [e18r]; exact h0
  | ⟨1, _⟩ => show win0_18.index t (1 : Fin 2) * 2048 ≤ (i 1).val ∧ (i 1).val < win0_18.index t (1 : Fin 2) * 2048 + 2048; rw [e18c]; exact h1

/-- The fifth result's array ends as the input. -/
theorem final18 (c : Dev nD) : (dats m 0 c).arrAt 18 cfg0.N = a0 m c :=
  (dats m 0 c).arrAt_eq_of_cover 18 (a0 m c) (flushed18_eq m c) cover18

end Cert.KernelIdeal.Val

end
-- ==== Proof.Body.Kept.lean ====
import proofs.«150005_j6536940224802_1_alg».proof.Proof.Body.Data
import Idealize.ShloMosaic.Lib.Pipeline.Frame

/-!
Which kind of point a grid point is, where the two occasionally stored result buffers are idle, and what the input copy's
buffer holds through a row.

The input copy's buffer is stored at the first point of a row and written back after the last, seven points later.
Through those seven points the pipeline neither refills nor swaps it (an output buffer is never fetched, and it is
written back only after the last point), and the body does not touch it, so it still holds what the first point left: the
row's slab of the input, which is the same slab at every point of the row.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which kind of point -/

/-- The reset and the copy of the input happen at the first point of a row. -/
theorem cond_first : ∀ t : Fin cfg0.N, k0_cond1 (grid0.coords t) = 1#1 ↔ t.val % 8 = 0 :=
  (by decide +kernel : ∀ t : Fin grid0.N, k0_cond1 (grid0.coords t) = 1#1 ↔ t.val % 8 = 0)

/-- The read-out is copied out at the last point of a row. -/
theorem cond_last : ∀ t : Fin cfg0.N, k0_cond2 (grid0.coords t) = 1#1 ↔ t.val % 8 = 7 :=
  (by decide +kernel : ∀ t : Fin grid0.N, k0_cond2 (grid0.coords t) = 1#1 ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem liveAt0_15 : ∀ t : Fin cfg0.N, cfg0.idle 15 (grid0.coords t) = false := by decide +kernel
theorem liveAt0_16 : ∀ t : Fin cfg0.N, cfg0.idle 16 (grid0.coords t) = false := by decide +kernel
theorem liveAt0_17 : ∀ t : Fin cfg0.N, cfg0.idle 17 (grid0.coords t) = false := by decide +kernel

/-- The read-out's buffer is live at the last point of a row only. -/
theorem idle14_last : ∀ t : Fin cfg0.N, t.val % 8 = 7 → cfg0.idle 14 (grid0.coords t) = false :=
  (by decide +kernel : ∀ t : Fin grid0.N, t.val % 8 = 7 → cfg0.idle 14 (grid0.coords t) = false)
theorem idle14_other : ∀ t : Fin cfg0.N, ¬t.val % 8 = 7 → cfg0.idle 14 (grid0.coords t) = true :=
  (by decide +kernel : ∀ t : Fin grid0.N, ¬t.val % 8 = 7 → cfg0.idle 14 (grid0.coords t) = true)
/-- The input copy's buffer is live at the first point of a row only. -/
theorem idle18_first : ∀ t : Fin cfg0.N, t.val % 8 = 0 → cfg0.idle 18 (grid0.coords t) = false :=
  (by decide +kernel : ∀ t : Fin grid0.N, t.val % 8 = 0 → cfg0.idle 18 (grid0.coords t) = false)
theorem idle18_other : ∀ t : Fin cfg0.N, ¬t.val % 8 = 0 → cfg0.idle 18 (grid0.coords t) = true :=
  (by decide +kernel : ∀ t : Fin grid0.N, ¬t.val % 8 = 0 → cfg0.idle 18 (grid0.coords t) = true)

/-- The slab of the input is the same at a point and at the point before it in the same row. -/
theorem index0_prev : ∀ t : Fin cfg0.N, ¬t.val % 8 = 0 →
    win0_0.index t = win0_0.index ⟨t.val - 1, Nat.lt_of_le_of_lt (Nat.sub_le _ _) t.isLt⟩ :=
  (by decide +kernel : ∀ t : Fin grid0.N, ¬t.val % 8 = 0 →
    win0_0.index t = win0_0.index ⟨t.val - 1, Nat.lt_of_le_of_lt (Nat.sub_le _ _) t.isLt⟩)

/-- A fetch of the input's window fills the whole buffer with the slab: the window tiles its array, so no part of the
    buffer's earlier contents survives. -/
theorem fetched0_0 (c : Dev nD) (t : Fin cfg0.N) (d) : (dats m 0 c).fetched 0 t d = iblk m c 0 t := by
  unfold Dat.fetched Dat.blockOf iblk; rw [A_eq]; try rfl

/-- The slab read off the input depends on the point only through the block index, and inside a row the block index
    does not move: two fetches with one block index read the same elements of the array. -/
theorem iblk0_prev (c : Dev nD) (t : Fin cfg0.N) (h : ¬t.val % 8 = 0) :
    (iblk m c 0 ⟨t.val - 1, Nat.lt_of_le_of_lt (Nat.sub_le _ _) t.isLt⟩ : Vec F S128x2048 .f32) = iblk m c 0 t := by
  have e := (dats m 0 c).fetched_congr 0 (index0_prev t h).symm rfl (iblk m c 0 t)
  rw [fetched0_0, fetched0_0] at e
  exact e

/-- What the body left in the input copy's buffer at a live point is all of what it stored: the window tiles its array,
    so the part the write-back moves is the whole block. -/
theorem kept18 (c : Dev nD) (t : Fin cfg0.N) (d) : (dats m 0 c).kept 18 t d = (dats m 0 c).after 18 t := by
  unfold Dat.kept
  rw [Pipeline.fill_of_clip_none (cfg := cfg0) 18 _ (fun _ => rfl) d ((dats m 0 c).after 18 t), Window.fill_cut]

/-- After the first point of a row, and until the row ends, the input copy's buffer holds the row's slab of the input.
    By induction on the point: the buffer is never fetched into, and the point before did not write it back (it is not the
    last of a row), so the buffer holds what the point before left. If that point is the first of the row it stored the
    slab there; otherwise it did not touch the buffer, which held the slab by the induction hypothesis. Either way it is
    the slab of the point before, which is this point's slab. -/
theorem before18_mid (c : Dev nD) (t : Fin cfg0.N) (h : ¬t.val % 8 = 0) (d) :
    (dats m 0 c).before 18 t d = iblk m c 0 t := by
  obtain ⟨n, hn⟩ := t
  induction n using Nat.strong_induction_on with
  | _ n ih =>
    dsimp only at h
    have ht : (⟨n, hn⟩ : Fin cfg0.N).val ≠ 0 := fun h0 => h (by dsimp only at h0; rw [h0])
    have hfl : (cfg0.win 18).flush ⟨n - 1, Nat.lt_of_le_of_lt (Nat.sub_le _ _) hn⟩ = false :=
      Bool.eq_false_iff.mpr fun hf => by
        have := (flush0_18 _).mp hf; dsimp only at this; omega
    rw [(dats m 0 c).before_of_pos 18 ⟨n, hn⟩ ht ((cfg0.win 18).fetch_out rfl _) d]
    dsimp only
    rw [hfl, if_neg Bool.false_ne_true]
    rw [← iblk0_prev m c ⟨n, hn⟩ h]
    unfold Dat.left
    by_cases h0 : (n - 1) % 8 = 0
    · rw [idle18_first ⟨n - 1, Nat.lt_of_le_of_lt (Nat.sub_le _ _) hn⟩ h0]
      dsimp only
      rw [kept18, after0_18]
    · rw [idle18_other ⟨n - 1, Nat.lt_of_le_of_lt (Nat.sub_le _ _) hn⟩ h0]
      dsimp only
      exact ih (n - 1) (by omega) _ h0

end Cert.KernelIdeal.Body

end
-- ==== Proof.Body.RunFirst.lean ====
import proofs.«150005_j6536940224802_1_alg».proof.Proof.Body.Outs
import proofs.«150005_j6536940224802_1_alg».proof.Proof.Gen.KernelIdeal.Launch
import proofs.«150005_j6536940224802_1_alg».proof.Proof.Gen.KernelIdeal.Points
import Idealize.ShloMosaic.Lib.Pipeline.Value
import Idealize.ShloMosaic.Lib.Pipeline.FrameBody
import Idealize.ShloMosaic.Lib.Pipeline.Value
import Idealize.ShloMosaic.Lib.Ring
import Idealize.ShloMosaic.Lib.Tactic

/-!
The body at the first point of a row of the grid: the running sum is reset to zero before this point's contribution
is added, and the row's slab of the input is copied into the buffer of the fifth result.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem off0 : (![0, 0] : Fin 2 → ℕ) = fun _ => 0 := funext fun a => by fin_cases a <;> rfl

set_option maxHeartbeats 4000000 in
/-- The first point of a row: from the fourteen blocks in their buffers, the read-out's buffer at `d16` and the other
    result buffers and the scratch at anything, the body runs to the same with the three state tiles stored, the input's
    slab copied, and the running sum at this point's contribution over zero. -/
theorem run_first (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S256x2048 .bf16) (harg15 : arg15.IsWhole) (arg16 : Memref sig .tc .vmem S128x2048 .f32) (harg16 : arg16.IsWhole) (arg17 : Memref sig .tc .vmem S128x256 .f32) (harg17 : arg17.IsWhole) (arg18 : Memref sig .tc .vmem S128x256 .f32) (harg18 : arg18.IsWhole) (arg19 : Memref sig .tc .vmem S128x256 .f32) (harg19 : arg19.IsWhole) (arg20 : Memref sig .tc .vmem S128x2048 .f32) (harg20 : arg20.IsWhole) (arg21 : Memref sig .tc .vmem S128x2048 .f32) (harg21 : arg21.IsWhole)
    (hc0 : k0_cond1 i = 1#1) (hc1 : ¬k0_cond2 i = 1#1) (b : Blk F) (d16 : Vec F S128x2048 .f32)
    (E : Set ℕ) (K : PUnit → sProp 𝕄) :
    iprop(owns (c : Thread nD τ) arg2 fullShare b.x ∗ owns (c : Thread nD τ) arg3 fullShare b.sx ∗ owns (c : Thread nD τ) arg4 fullShare b.sA ∗ owns (c : Thread nD τ) arg5 fullShare b.sB ∗ owns (c : Thread nD τ) arg6 fullShare b.sp ∗ owns (c : Thread nD τ) arg7 fullShare b.mixK ∗ owns (c : Thread nD τ) arg8 fullShare b.mixV ∗ owns (c : Thread nD τ) arg9 fullShare b.mixR ∗ owns (c : Thread nD τ) arg10 fullShare b.td ∗ owns (c : Thread nD τ) arg11 fullShare b.tf ∗ owns (c : Thread nD τ) arg12 fullShare b.wk ∗ owns (c : Thread nD τ) arg13 fullShare b.wv ∗ owns (c : Thread nD τ) arg14 fullShare b.wr ∗ owns (c : Thread nD τ) arg15 fullShare b.wo ∗ owns (c : Thread nD τ) arg16 fullShare d16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare b.x ∗ owns (c : Thread nD τ) arg3 fullShare b.sx ∗ owns (c : Thread nD τ) arg4 fullShare b.sA ∗ owns (c : Thread nD τ) arg5 fullShare b.sB ∗ owns (c : Thread nD τ) arg6 fullShare b.sp ∗ owns (c : Thread nD τ) arg7 fullShare b.mixK ∗ owns (c : Thread nD τ) arg8 fullShare b.mixV ∗ owns (c : Thread nD τ) arg9 fullShare b.mixR ∗ owns (c : Thread nD τ) arg10 fullShare b.td ∗ owns (c : Thread nD τ) arg11 fullShare b.tf ∗ owns (c : Thread nD τ) arg12 fullShare b.wk ∗ owns (c : Thread nD τ) arg13 fullShare b.wv ∗ owns (c : Thread nD τ) arg14 fullShare b.wr ∗ owns (c : Thread nD τ) arg15 fullShare b.wo ∗ owns (c : Thread nD τ) arg16 fullShare d16 ∗ owns (c : Thread nD τ) arg17 fullShare (newA b) ∗ owns (c : Thread nD τ) arg18 fullShare (newB b) ∗ owns (c : Thread nD τ) arg19 fullShare (newP b) ∗ owns (c : Thread nD τ) arg20 fullShare b.x ∗ owns (c : Thread nD τ) arg21 fullShare (accStep b accZero)) -∗ K ⟨⟩))
      ⊢ wp frame (wpE (defs₀ (F := F)) Variants.none c none) E (cc0__rwkv_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__rwkv_kernel_eq_skeleton]; unfold cc0__rwkv_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16', %f16, -, H16⟩, ⟨%d17, %f17, -, H17⟩, ⟨%d18, %f18, -, H18⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13

  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact hf14
    iexact H14
  isplitl [H15]
  · iexists _; isplitr; swap; · iexact H15
    ipureintro
    rw [View.read_writes_eq_canon _ _ _ (View.cover_of_tiled _ S128x256.size (by rfl)), View.canon_unit_zero off0]
    sl_unfold_run_names
    unfold newA vT kT
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H16]
  · iexists _; isplitr; swap; · iexact H16
    ipureintro
    rw [View.read_writes_eq_canon _ _ _ (View.cover_of_tiled _ S128x256.size (by rfl)), View.canon_unit_zero off0]
    sl_unfold_run_names
    unfold newB kT
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H17]
  · iexists _; isplitr; swap; · iexact H17
    ipureintro
    rw [View.read_writes_eq_canon _ _ _ (View.cover_of_tiled _ S128x256.size (by rfl)), View.canon_unit_zero off0]
    sl_unfold_run_names
    unfold newP kT
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H18]
  · iexists _; isplitr; swap; · iexact H18
    ipureintro
    sl_unfold_run_names
    rw [View.read_writes_eq_canon _ _ _ (View.cover_of_tiled _ S128x2048.size (by rfl)), View.canon_unit_zero off0]
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  iexists _; isplitr; swap; · iexact HS
  ipureintro
  sl_unfold_run_names
  rw [View.read_writes_eq_canon _ _ _ (fun y => ⟨_, List.mem_cons_self, View.mem_set_unit_zero off0 inb_S128x2048_S128x2048_0_0 y⟩), View.canon_cons_unit_zero (S := S128x2048) off0]
  unfold accStep rT kT accZero
  simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]

end Cert.KernelIdeal.Body

end
-- ==== Proof.Body.RunMid.lean ====
import proofs.«150005_j6536940224802_1_alg».proof.Proof.Body.Outs
import proofs.«150005_j6536940224802_1_alg».proof.Proof.Gen.KernelIdeal.Launch
import proofs.«150005_j6536940224802_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-!
The body at a point in the middle of a row of the grid (neither its first point nor its last): nothing is
reset and nothing is copied out; the three state tiles are stored, the read-out and the copy of the input
keep what they held, and the running sum grows by this point's contribution.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off0 : (![0, 0] : Fin 2 → ℕ) = fun _ => 0 := funext fun a => by fin_cases a <;> rfl

set_option maxHeartbeats 4000000 in
/-- A middle point: from the fourteen blocks in their buffers, the read-out's buffer at `d16`, the input copy's at
    `d20` and the running sum at `s`, the body runs to the same with the three state tiles stored and the running sum
    at `accStep b s`. -/
theorem run_mid (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S256x2048 .bf16) (harg15 : arg15.IsWhole) (arg16 : Memref sig .tc .vmem S128x2048 .f32) (harg16 : arg16.IsWhole) (arg17 : Memref sig .tc .vmem S128x256 .f32) (harg17 : arg17.IsWhole) (arg18 : Memref sig .tc .vmem S128x256 .f32) (harg18 : arg18.IsWhole) (arg19 : Memref sig .tc .vmem S128x256 .f32) (harg19 : arg19.IsWhole) (arg20 : Memref sig .tc .vmem S128x2048 .f32) (harg20 : arg20.IsWhole) (arg21 : Memref sig .tc .vmem S128x2048 .f32) (harg21 : arg21.IsWhole)
    (hc0 : ¬k0_cond1 i = 1#1) (hc1 : ¬k0_cond2 i = 1#1) (b : Blk F) (d16 d20 s : Vec F S128x2048 .f32)
    (E : Set ℕ) (K : PUnit → sProp 𝕄) :
    iprop(owns (c : Thread nD τ) arg2 fullShare b.x ∗ owns (c : Thread nD τ) arg3 fullShare b.sx ∗ owns (c : Thread nD τ) arg4 fullShare b.sA ∗ owns (c : Thread nD τ) arg5 fullShare b.sB ∗ owns (c : Thread nD τ) arg6 fullShare b.sp ∗ owns (c : Thread nD τ) arg7 fullShare b.mixK ∗ owns (c : Thread nD τ) arg8 fullShare b.mixV ∗ owns (c : Thread nD τ) arg9 fullShare b.mixR ∗ owns (c : Thread nD τ) arg10 fullShare b.td ∗ owns (c : Thread nD τ) arg11 fullShare b.tf ∗ owns (c : Thread nD τ) arg12 fullShare b.wk ∗ owns (c : Thread nD τ) arg13 fullShare b.wv ∗ owns (c : Thread nD τ) arg14 fullShare b.wr ∗ owns (c : Thread nD τ) arg15 fullShare b.wo ∗ owns (c : Thread nD τ) arg16 fullShare d16 ∗ (∃ d, owns (c : Thread nD τ) arg17 fullShare d) ∗ (∃ d, owns (c : Thread nD τ) arg18 fullShare d) ∗ (∃ d, owns (c : Thread nD τ) arg19 fullShare d) ∗ owns (c : Thread nD τ) arg20 fullShare d20 ∗ owns (c : Thread nD τ) arg21 fullShare s
        ∗ (iprop(owns (c : Thread nD τ) arg2 fullShare b.x ∗ owns (c : Thread nD τ) arg3 fullShare b.sx ∗ owns (c : Thread nD τ) arg4 fullShare b.sA ∗ owns (c : Thread nD τ) arg5 fullShare b.sB ∗ owns (c : Thread nD τ) arg6 fullShare b.sp ∗ owns (c : Thread nD τ) arg7 fullShare b.mixK ∗ owns (c : Thread nD τ) arg8 fullShare b.mixV ∗ owns (c : Thread nD τ) arg9 fullShare b.mixR ∗ owns (c : Thread nD τ) arg10 fullShare b.td ∗ owns (c : Thread nD τ) arg11 fullShare b.tf ∗ owns (c : Thread nD τ) arg12 fullShare b.wk ∗ owns (c : Thread nD τ) arg13 fullShare b.wv ∗ owns (c : Thread nD τ) arg14 fullShare b.wr ∗ owns (c : Thread nD τ) arg15 fullShare b.wo ∗ owns (c : Thread nD τ) arg16 fullShare d16 ∗ owns (c : Thread nD τ) arg17 fullShare (newA b) ∗ owns (c : Thread nD τ) arg18 fullShare (newB b) ∗ owns (c : Thread nD τ) arg19 fullShare (newP b) ∗ owns (c : Thread nD τ) arg20 fullShare d20 ∗ owns (c : Thread nD τ) arg21 fullShare (accStep b s)) -∗ K ⟨⟩))
      ⊢ wp frame (wpE (defs₀ (F := F)) Variants.none c none) E (cc0__rwkv_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__rwkv_kernel_eq_skeleton]; unfold cc0__rwkv_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16', %f16, -, H16⟩, ⟨%d17, %f17, -, H17⟩, ⟨%f18, %hf18, H18⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  obtain rfl := harg21.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact hf14
    iexact H14
  isplitl [H15]
  · iexists _; isplitr; swap; · iexact H15
    ipureintro
    rw [View.read_writes_eq_canon _ _ _ (View.cover_of_tiled _ S128x256.size (by rfl)), View.canon_unit_zero off0]
    sl_unfold_run_names
    unfold newA vT kT
    simp only [View.readAt_eq_ld, Memref.IsWhole.read_unread, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H16]
  · iexists _; isplitr; swap; · iexact H16
    ipureintro
    rw [View.read_writes_eq_canon _ _ _ (View.cover_of_tiled _ S128x256.size (by rfl)), View.canon_unit_zero off0]
    sl_unfold_run_names
    unfold newB kT
    simp only [View.readAt_eq_ld, Memref.IsWhole.read_unread, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H17]
  · iexists _; isplitr; swap; · iexact H17
    ipureintro
    rw [View.read_writes_eq_canon _ _ _ (View.cover_of_tiled _ S128x256.size (by rfl)), View.canon_unit_zero off0]
    sl_unfold_run_names
    unfold newP kT
    simp only [View.readAt_eq_ld, Memref.IsWhole.read_unread, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H18]
  · iexists _; isplitr; · ipureintro; exact hf18
    iexact H18
  iexists _; isplitr; swap; · iexact HS
  ipureintro
  rw [View.read_writes_eq_canon _ _ _ (View.cover_of_tiled _ S128x2048.size (by rfl)), View.canon_unit_zero off0]
  sl_unfold_run_names
  unfold accStep rT kT
  simp only [View.readAt_eq_ld, Memref.IsWhole.read_unread, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]

end Cert.KernelIdeal.Body

end
-- ==== Proof.Body.RunLast.lean ====
import proofs.«150005_j6536940224802_1_alg».proof.Proof.Body.Outs
import proofs.«150005_j6536940224802_1_alg».proof.Proof.Gen.KernelIdeal.Launch
import proofs.«150005_j6536940224802_1_alg».proof.Proof.Gen.KernelIdeal.Points
import Idealize.ShloMosaic.Lib.Pipeline.Value
import Idealize.ShloMosaic.Lib.Pipeline.FrameBody
import Idealize.ShloMosaic.Lib.Pipeline.Value
import Idealize.ShloMosaic.Lib.Ring
import Idealize.ShloMosaic.Lib.Tactic

/-!
The body at the last point of a row of the grid: after this point's contribution the running sum is complete and is
copied into the read-out's buffer.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem off0 : (![0, 0] : Fin 2 → ℕ) = fun _ => 0 := funext fun a => by fin_cases a <;> rfl

set_option maxHeartbeats 4000000 in
/-- The last point of a row: from the fourteen blocks in their buffers, the input copy's buffer at `d20`, the running sum
    at `s` and the other result buffers at anything, the body runs to the same with the three state tiles stored and both
    the scratch and the read-out's buffer at `accStep b s`. -/
theorem run_last (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S256x2048 .bf16) (harg15 : arg15.IsWhole) (arg16 : Memref sig .tc .vmem S128x2048 .f32) (harg16 : arg16.IsWhole) (arg17 : Memref sig .tc .vmem S128x256 .f32) (harg17 : arg17.IsWhole) (arg18 : Memref sig .tc .vmem S128x256 .f32) (harg18 : arg18.IsWhole) (arg19 : Memref sig .tc .vmem S128x256 .f32) (harg19 : arg19.IsWhole) (arg20 : Memref sig .tc .vmem S128x2048 .f32) (harg20 : arg20.IsWhole) (arg21 : Memref sig .tc .vmem S128x2048 .f32) (harg21 : arg21.IsWhole)
    (hc0 : ¬k0_cond1 i = 1#1) (hc1 : k0_cond2 i = 1#1) (b : Blk F) (d20 s : Vec F S128x2048 .f32)
    (E : Set ℕ) (K : PUnit → sProp 𝕄) :
    iprop(owns (c : Thread nD τ) arg2 fullShare b.x ∗ owns (c : Thread nD τ) arg3 fullShare b.sx ∗ owns (c : Thread nD τ) arg4 fullShare b.sA ∗ owns (c : Thread nD τ) arg5 fullShare b.sB ∗ owns (c : Thread nD τ) arg6 fullShare b.sp ∗ owns (c : Thread nD τ) arg7 fullShare b.mixK ∗ owns (c : Thread nD τ) arg8 fullShare b.mixV ∗ owns (c : Thread nD τ) arg9 fullShare b.mixR ∗ owns (c : Thread nD τ) arg10 fullShare b.td ∗ owns (c : Thread nD τ) arg11 fullShare b.tf ∗ owns (c : Thread nD τ) arg12 fullShare b.wk ∗ owns (c : Thread nD τ) arg13 fullShare b.wv ∗ owns (c : Thread nD τ) arg14 fullShare b.wr ∗ owns (c : Thread nD τ) arg15 fullShare b.wo ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare d20 ∗ owns (c : Thread nD τ) arg21 fullShare s
        ∗ (iprop(owns (c : Thread nD τ) arg2 fullShare b.x ∗ owns (c : Thread nD τ) arg3 fullShare b.sx ∗ owns (c : Thread nD τ) arg4 fullShare b.sA ∗ owns (c : Thread nD τ) arg5 fullShare b.sB ∗ owns (c : Thread nD τ) arg6 fullShare b.sp ∗ owns (c : Thread nD τ) arg7 fullShare b.mixK ∗ owns (c : Thread nD τ) arg8 fullShare b.mixV ∗ owns (c : Thread nD τ) arg9 fullShare b.mixR ∗ owns (c : Thread nD τ) arg10 fullShare b.td ∗ owns (c : Thread nD τ) arg11 fullShare b.tf ∗ owns (c : Thread nD τ) arg12 fullShare b.wk ∗ owns (c : Thread nD τ) arg13 fullShare b.wv ∗ owns (c : Thread nD τ) arg14 fullShare b.wr ∗ owns (c : Thread nD τ) arg15 fullShare b.wo ∗ owns (c : Thread nD τ) arg16 fullShare (accStep b s) ∗ owns (c : Thread nD τ) arg17 fullShare (newA b) ∗ owns (c : Thread nD τ) arg18 fullShare (newB b) ∗ owns (c : Thread nD τ) arg19 fullShare (newP b) ∗ owns (c : Thread nD τ) arg20 fullShare d20 ∗ owns (c : Thread nD τ) arg21 fullShare (accStep b s)) -∗ K ⟨⟩))
      ⊢ wp frame (wpE (defs₀ (F := F)) Variants.none c none) E (cc0__rwkv_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__rwkv_kernel_eq_skeleton]; unfold cc0__rwkv_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16', %f16, -, H16⟩, ⟨%d17, %f17, -, H17⟩, ⟨%f18, %hf18, H18⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  obtain rfl := harg21.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; swap; · iexact H14
    ipureintro
    sl_unfold_run_names
    rw [View.read_writes_eq_canon _ _ _ (View.cover_of_tiled _ S128x2048.size (by rfl)), View.canon_unit_zero off0]
    unfold accStep rT kT
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H15]
  · iexists _; isplitr; swap; · iexact H15
    ipureintro
    rw [View.read_writes_eq_canon _ _ _ (View.cover_of_tiled _ S128x256.size (by rfl)), View.canon_unit_zero off0]
    sl_unfold_run_names
    unfold newA vT kT
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H16]
  · iexists _; isplitr; swap; · iexact H16
    ipureintro
    rw [View.read_writes_eq_canon _ _ _ (View.cover_of_tiled _ S128x256.size (by rfl)), View.canon_unit_zero off0]
    sl_unfold_run_names
    unfold newB kT
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H17]
  · iexists _; isplitr; swap; · iexact H17
    ipureintro
    rw [View.read_writes_eq_canon _ _ _ (View.cover_of_tiled _ S128x256.size (by rfl)), View.canon_unit_zero off0]
    sl_unfold_run_names
    unfold newP kT
    simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]
  isplitl [H18]
  · iexists _; isplitr; · ipureintro; exact hf18
    iexact H18
  iexists _; isplitr; swap; · iexact HS
  ipureintro
  sl_unfold_run_names
  rw [View.read_writes_eq_canon _ _ _ (View.cover_of_tiled _ S128x2048.size (by rfl)), View.canon_unit_zero off0]
  unfold accStep rT kT
  simp only [View.readAt_eq_ld, Memref.IsWhole.read_unread, View.readCov_unit_zero (S := S128x2048) _ off0, View.ld_unit_zero (S := S128x2048) off0, View.ld_unit_zero (S := S128x256) off0, View.ld_unit_zero (S := S1x2048) off0, View.ld_unit_zero (S := S1x256) off0, View.ld_unit_zero (S := S2048x256) off0, View.ld_unit_zero (S := S256x2048) off0]

end Cert.KernelIdeal.Body

end
-- ==== Proof.Body.Sound.lean ====
import proofs.«150005_j6536940224802_1_alg».proof.Proof.Body.Kept
import proofs.«150005_j6536940224802_1_alg».proof.Proof.Body.RunFirst
import proofs.«150005_j6536940224802_1_alg».proof.Proof.Body.RunMid
import proofs.«150005_j6536940224802_1_alg».proof.Proof.Body.RunLast
import Idealize.ShloMosaic.Lib.Pipeline.Frame

/-!
The body meets its obligation at every grid point, and the call runs.

A point is the first of its row, the last, or in between, and the body's run for that kind of point is applied to the
blocks the pipeline has staged. Two result buffers are not stored at every point. The read-out's buffer is stored only at
the last point of a row: before that the body hands it back as it found it. The input copy's buffer is stored only at the
first point of a row and is written back after the last, seven points later; through those seven points the pipeline
neither refills nor swaps it, so at the last point it still holds the row's slab of the input, which is what the
write-back must find there.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called with -/

abbrev ms0_0 (t : Fin cfg0.N) : Memref sig .tc .vmem S128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2048x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x2048 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x2048 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S128x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S128x2048 .f32 := win0_18.stage (cfg0.slots t 18)
abbrev hs0_18 (t : Fin cfg0.N) : (ms0_18 t).IsWhole := hstage0_18 ((cfg0.slots t 18).cast nbuf0_18)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

set_option maxHeartbeats 24000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).Φ t.succ = PhiS m c (t.val + 1) t.isLt from rfl, PhiS_succ]
  have hN : t.val < 512 := lt_of_lt_of_eq t.isLt (show cfg0.N = 512 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  by_cases h0 : t.val % 8 = 0
  · -- the first point of a row
    have h7 : ¬t.val % 8 = 7 := by omega
    rw [show (dats m 0 c).leavesExact 14 t = iprop(∃ d, owns (c : Thread nD τ) (ms0_14 t) fullShare ((dats m 0 c).before 14 t d)) from
      (dats m 0 c).leavesExact_idle 14 t (idle14_other t h7) (by rw [Bool.eq_false_iff]; exact fun hf => h7 ((flush0_14 t).mp hf))]
    rw [show (dats m 0 c).leavesExact 18 t = owns (c : Thread nD τ) (ms0_18 t) fullShare ((dats m 0 c).after 18 t) from by
      unfold Dat.leavesExact; rw [idle18_first t h0], after0_18]
    rw [accAt_first m c t h0]
    have hΦ : (dats m 0 c).Φ t.castSucc ⊢ (iprop(iprop((∃ d, owns (c : Thread nD τ) scr fullShare d)) ∗ (∃ r, prngReg c r)) : sProp 𝕄) := by
      rw [PhiS_castSucc m c t]
      by_cases hz : t.val = 0
      · rw [PhiS_zero m c _ _ hz, PhiA0_eq]; try exact Idealize.SL.BI.Entails.refl _
      · rw [PhiS_pos m c _ _ hz]
        iintro ⟨HS, Hg⟩
        isplitl [HS]; · iexists _; iexact HS
        iexact Hg
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    ihave ⟨HS, Hg⟩ := hΦ $$ HΦ
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scr (Memref.isWhole_whole _) ((cond_first t).mpr h0) (fun h => h7 ((cond_last t).mp h)) (blkAt m c t) ((dats m 0 c).before 14 t d14) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [HS]; · iexact HS
    iintro ⟨H0, H1, H2, H3, H4, H5, H6, H7, H8, H9, H10, H11, H12, H13, H14, H15, H16, H17, H18, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    isplitl [H16]; · iexact H16
    isplitl [H17]; · iexact H17
    iexact H18
  · by_cases h7 : t.val % 8 = 7
    · -- the last point of a row
      have hz : t.val ≠ 0 := by omega
      rw [show (dats m 0 c).leavesExact 14 t = owns (c : Thread nD τ) (ms0_14 t) fullShare ((dats m 0 c).after 14 t) from by
        unfold Dat.leavesExact; rw [idle14_last t h7], after0_14]
      rw [show (dats m 0 c).leavesExact 18 t = owns (c : Thread nD τ) (ms0_18 t) fullShare ((dats m 0 c).after 18 t) from by
        unfold Dat.leavesExact; rw [idle18_other t h0, (flush0_18 t).mpr h7], after0_18]
      rw [accAt_next m c t h0, PhiS_castSucc m c t, PhiS_pos m c _ _ hz]
      simp only [before18_mid m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scr (Memref.isWhole_whole _) (fun h => h0 ((cond_first t).mp h)) ((cond_last t).mpr h7) (blkAt m c t) (iblk m c 0 t) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexact H18
      isplitl [HS]; · iexact HS
      iintro ⟨H0, H1, H2, H3, H4, H5, H6, H7, H8, H9, H10, H11, H12, H13, H14, H15, H16, H17, H18, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · -- a point in between
      have hz : t.val ≠ 0 := by omega
      rw [show (dats m 0 c).leavesExact 14 t = iprop(∃ d, owns (c : Thread nD τ) (ms0_14 t) fullShare ((dats m 0 c).before 14 t d)) from
        (dats m 0 c).leavesExact_idle 14 t (idle14_other t h7) (by rw [Bool.eq_false_iff]; exact fun hf => h7 ((flush0_14 t).mp hf))]
      rw [show (dats m 0 c).leavesExact 18 t = iprop(∃ d, owns (c : Thread nD τ) (ms0_18 t) fullShare ((dats m 0 c).before 18 t d)) from
        (dats m 0 c).leavesExact_idle 18 t (idle18_other t h0) (by rw [Bool.eq_false_iff]; exact fun hf => h7 ((flush0_18 t).mp hf))]
      rw [accAt_next m c t h0, PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scr (Memref.isWhole_whole _) (fun h => h0 ((cond_first t).mp h)) (fun h => h7 ((cond_last t).mp h)) (blkAt m c t) ((dats m 0 c).before 14 t d14) ((dats m 0 c).before 18 t d18) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexact H18
      isplitl [HS]; · iexact HS
      iintro ⟨H0, H1, H2, H3, H4, H5, H6, H7, H8, H9, H10, H11, H12, H13, H14, H15, H16, H17, H18, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexact H15
      isplitl [H16]; · iexact H16
      isplitl [H17]; · iexact H17
      iexists _; iexact H18

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the running sum is forgotten. -/
theorem hout (c : Dev nD) : (dats m 0 c).Φ (Fin.last cfg0.N) ⊢ Pipeline.ΦA spec0 c := by
  have hne : (Fin.last cfg0.N).val ≠ 0 := by rw [Fin.val_last]; have : cfg0.N = 512 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨HS, Hg⟩
  isplitl [HS]
  · iexists _; iexact HS
  iexact Hg

set_option backward.isDefEq.respectTransparency.types false in
/-- Every weakly fair execution of the program terminates, with every array of the call at what the proof data say and
    every other buffer as the call found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Body

end
-- ==== Proof.Val.Run.lean ====
import proofs.«150005_j6536940224802_1_alg».proof.Proof.Val.Final
import proofs.«150005_j6536940224802_1_alg».proof.Proof.Body.Sound

/-!
The idealized kernel's run, read: every weakly fair execution terminates with the five result arrays at the reference's
stage functions of the arguments, and the arguments unchanged.
-/

set_option maxRecDepth 16384

noncomputable section

namespace Cert.KernelIdeal.Val

open Cert.KernelIdeal Cert.KernelIdeal.Gen Cert.KernelIdeal.Body
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

set_option maxHeartbeats 4000000 in
/-- The run of the idealized kernel with its results named. -/
theorem run : θ_run defs (onTc (τ := τ) (main (F := Ideal))) ⟨m, fun _ => 0, ρ⟩ fun r => ∀ c : Dev nD,
      r.2.mem ((c.tc : Thread nD τ).loc main_v10_0) = GR m c
      ∧ r.2.mem ((c.tc : Thread nD τ).loc main_v10_1) = GA m c
      ∧ r.2.mem ((c.tc : Thread nD τ).loc main_v10_2) = GB m c
      ∧ r.2.mem ((c.tc : Thread nD τ).loc main_v10_3) = GP m c
      ∧ r.2.mem ((c.tc : Thread nD τ).loc main_v10_4) = a0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c).1 14).trans (final14 m c), ((h c).1 15).trans (final15 m c),
      ((h c).1 16).trans (final16 m c), ((h c).1 17).trans (final17 m c), ((h c).1 18).trans (final18 m c),
      ((h c).1 0).trans ((((dats m 0 c)).arrAt_in 0 rfl _).trans ((A_eq m c 0).trans (V_main_arg0 m c))),
      ((h c).1 2).trans ((((dats m 0 c)).arrAt_in 2 rfl _).trans ((A_eq m c 2).trans (V_main_arg1 m c))),
      ((h c).1 3).trans ((((dats m 0 c)).arrAt_in 3 rfl _).trans ((A_eq m c 3).trans (V_main_arg2 m c))),
      ((h c).1 4).trans ((((dats m 0 c)).arrAt_in 4 rfl _).trans ((A_eq m c 4).trans (V_main_arg3 m c))),
      ((h c).1 1).trans ((((dats m 0 c)).arrAt_in 1 rfl _).trans ((A_eq m c 1).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 5).trans ((((dats m 0 c)).arrAt_in 5 rfl _).trans ((A_eq m c 5).trans (V_main_arg7 m c))),
      ((h c).1 6).trans ((((dats m 0 c)).arrAt_in 6 rfl _).trans ((A_eq m c 6).trans (V_main_arg8 m c))),
      ((h c).1 7).trans ((((dats m 0 c)).arrAt_in 7 rfl _).trans ((A_eq m c 7).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩)
    (run_main m ρ)

end Cert.KernelIdeal.Val

end
-- ==== Proof.lean ====
import proofs.«150005_j6536940224802_1_alg».proof.Defs
import proofs.«150005_j6536940224802_1_alg».proof.Proof.Gen.Kernel
import proofs.«150005_j6536940224802_1_alg».proof.Proof.Gen.KernelIdeal
import proofs.«150005_j6536940224802_1_alg».proof.Proof.Gen.ReferenceIdeal
import proofs.«150005_j6536940224802_1_alg».proof.Proof.Gen.Pre_finite_inputs
import proofs.«150005_j6536940224802_1_alg».proof.Proof.Gen.ReferenceIdeal.Run
import proofs.«150005_j6536940224802_1_alg».proof.Proof.Gen.ReferenceIdeal.Read
import proofs.«150005_j6536940224802_1_alg».proof.Proof.KBody.Sound
import proofs.«150005_j6536940224802_1_alg».proof.Proof.Val.Run
import Idealize.ShloMosaic.Adequacy
import Idealize.ShloMosaic.Init

/-!
The time-mix step of an RWKV layer as one pipelined call, against its plain reference.

The kernel walks a grid of 64 rows of 8 points. A point forms the key, value and receptance of a 128 × 256 tile from a
128-row slab of the mixed input and a column panel of each transposed weight, updates the tile of the three recurrent
states, and adds the tile of the read-out `r·a/b` times a row panel of the transposed output weight into a running sum
that the last point of the row copies out. The reference does the same with whole arrays: three products over all 2048
channels, the same entry-by-entry updates, and one product with the whole output weight.

Over the extended reals a change of float format is the identity and sums may be regrouped freely, so the two agree: a
tile of a whole product is the product of a slab and a panel; the entry-by-entry steps act on a tile as on the array; and
the eight panels of a row split the 2048 channels of the last product into eight runs of 256, whose partial sums add up to
the whole sum. No entry is assumed finite anywhere: only commutativity and associativity of the extended reals' sum is used.

The three programs run, terminate and leave their arguments unchanged: the reference by its straight-line run; the kernel,
at both readings of its floats, by one proof of its body generic in the float instance — the body at the first point of a
row, at the last, and in between — under the pipeline's launch theorem with the running sum tracked in the invariant.
-/

noncomputable section

namespace Cert.Proof

open Idealize.ShloMosaic Idealize.SL.Sem

/-- The word-level kernel runs and leaves its arguments unchanged. -/
theorem frame_k : @Cert.frame_Kernel Cert.Kernel.Gen.facts Cert.Pre_finite_inputs.Gen.facts :=
  fun m ρ _ => Cert.Kernel.Body.frame m ρ

/-- So does its reading over the extended reals. -/
theorem frame_ki : @Cert.frame_KernelIdeal Cert.KernelIdeal.Gen.facts Cert.Pre_finite_inputs.Gen.facts :=
  fun m ρ _ => Cert.KernelIdeal.Body.frame m ρ

/-- The reference runs: its straight-line run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2.2.2)
    (Cert.ReferenceIdeal.Value.run (F := Ideal) m ρ)

set_option maxHeartbeats 4000000 in
/-- Both programs end with the same five arrays: the reference's stage functions of the shared arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Val.GR m c, fun c => Cert.KernelIdeal.Val.GA m c, fun c => Cert.KernelIdeal.Val.GB m c,
    fun c => Cert.KernelIdeal.Val.GP m c, fun c => Cert.KernelIdeal.Val.a0 m c, Cert.KernelIdeal.Val.run m ρ, ?_⟩
  refine (θ_run Cert.ReferenceIdeal.defs _ _).mono (fun _ h c => ?_) (Cert.ReferenceIdeal.Value.run (F := Ideal) m' ρ')
  obtain ⟨h63, h57, h59, h50, h0, rest⟩ := h c
  have e0 := (hagree c).1; have e1 := (hagree c).2.1; have e2 := (hagree c).2.2.1; have e3 := (hagree c).2.2.2.1; have e4 := (hagree c).2.2.2.2.1
  have e5 := (hagree c).2.2.2.2.2.1; have e6 := (hagree c).2.2.2.2.2.2.1; have e7 := (hagree c).2.2.2.2.2.2.2.1; have e8 := (hagree c).2.2.2.2.2.2.2.2.1; have e9 := (hagree c).2.2.2.2.2.2.2.2.2.1
  have e10 := (hagree c).2.2.2.2.2.2.2.2.2.2.1; have e11 := (hagree c).2.2.2.2.2.2.2.2.2.2.2.1; have e12 := (hagree c).2.2.2.2.2.2.2.2.2.2.2.2.1; have e13 := (hagree c).2.2.2.2.2.2.2.2.2.2.2.2.2
  refine ⟨h63.trans ?_, h57.trans ?_, h59.trans ?_, h50.trans ?_, h0.trans ?_, rest⟩
  · rw [Cert.ReferenceIdeal.Read.val_main_v63_eq, e0, e1, e2, e3, e4, e6, e7, e8, e9, e10, e11, e12, e13]; rfl
  · rw [Cert.ReferenceIdeal.Read.val_main_v57_eq, e0, e1, e3, e4, e5, e7, e8, e10, e11]; rfl
  · rw [Cert.ReferenceIdeal.Read.val_main_v59_eq, e0, e2, e3, e4, e5, e7, e10]; rfl
  · rw [Cert.ReferenceIdeal.Read.val_main_v50_eq, e0, e3, e4, e5, e7, e10]; rfl
  · exact e0

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
